-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_fill" .f32 0xFF333332#32 ⊥
  ∧ IdealRules.named_const.Statement Cert.KernelIdeal.κ "eps_sq" .f32 0x179ABE15#32 ((5316911940649 / 5316911983139663491615228241121378304 : ℝ) : EReal)
  ∧ IdealRules.named_const.Statement Cert.KernelIdeal.κ "neg_fill" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S512x100000 : Shape := ⟨2, ![512, 100000]⟩
abbrev S2x512x1 : Shape := ⟨3, ![2, 512, 1]⟩
abbrev S2560x512 : Shape := ⟨2, ![2560, 512]⟩
abbrev S512x2560 : Shape := ⟨2, ![512, 2560]⟩
abbrev S1x512x1 : Shape := ⟨3, ![1, 512, 1]⟩
abbrev S2560 : Shape := ⟨1, ![2560]⟩
abbrev S2560x1 : Shape := ⟨2, ![2560, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 63
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x1, .i32⟩
  | .hbm, ⟨15, _⟩ => ⟨S512x100000, .f32⟩
  | .hbm, ⟨16, _⟩ => ⟨S2x512x1, .f32⟩
  | .hbm, ⟨17, _⟩ => ⟨S2x512x1, .f32⟩
  | .hbm, ⟨18, _⟩ => ⟨S1x512x1, .f32⟩
  | .hbm, ⟨19, _⟩ => ⟨S512x1, .f32⟩
  | .hbm, ⟨20, _⟩ => ⟨S1x512x1, .f32⟩
  | .hbm, ⟨21, _⟩ => ⟨S512x1, .f32⟩
  | .hbm, ⟨22, _⟩ => ⟨S1x512x1, .f32⟩
  | .hbm, ⟨23, _⟩ => ⟨S512x1, .f32⟩
  | .hbm, ⟨24, _⟩ => ⟨S1x512x1, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S_, .i32⟩
  | .hbm, ⟨37, _⟩ => ⟨S512x1, .i32⟩
  | .hbm, ⟨38, _⟩ => ⟨S512x1, .i1⟩
  | .hbm, ⟨39, _⟩ => ⟨S_, .i32⟩
  | .hbm, ⟨40, _⟩ => ⟨S512x1, .i32⟩
  | .hbm, ⟨41, _⟩ => ⟨S512x1, .i32⟩
  | .hbm, ⟨42, _⟩ => ⟨S512x1, .i32⟩
  | .hbm, ⟨43, _⟩ => ⟨S512x1x1, .i32⟩
  | .hbm, ⟨44, _⟩ => ⟨S1, .i32⟩
  | .hbm, ⟨45, _⟩ => ⟨S_, .i32⟩
  | .hbm, ⟨46, _⟩ => ⟨S512x1x1, .i32⟩
  | .hbm, ⟨47, _⟩ => ⟨S512x1x1, .i1⟩
  | .hbm, ⟨48, _⟩ => ⟨S1x1x1, .i32⟩
  | .hbm, ⟨49, _⟩ => ⟨S512x1x1, .i32⟩
  | .hbm, ⟨50, _⟩ => ⟨S512x1x1, .i1⟩
  | .hbm, ⟨51, _⟩ => ⟨S512x1x1, .i1⟩
  | .hbm, ⟨52, _⟩ => ⟨S_, .i1⟩
  | .hbm, ⟨53, _⟩ => ⟨S512x1, .i1⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S512x512, .bf16⟩
  | .local _ .vmem, ⟨1, _⟩ => ⟨S2560x512, .f32⟩
  | .local _ .vmem, ⟨2, _⟩ => ⟨S2560x512, .f32⟩
  | .local _ .vmem, ⟨3, _⟩ => ⟨S512x1, .i32⟩
  | .local _ .vmem, ⟨4, _⟩ => ⟨S512x2560, .f32⟩
  | .local _ .vmem, ⟨5, _⟩ => ⟨S512x2560, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 20], ![false, false]⟩

def k0_cond4 (i : grid0.Coords) : BitVec 1 :=
  let arg1 : BitVec 32 := BitVec.ofNat 32 (i 1).val
  let c19_i32_21 : BitVec 32 := 19#32
  let v60 : BitVec 1 := Scalar.cmpi .eq arg1 c19_i32_21
  let v61 : BitVec 32 := Scalar.extui v60
  let c0_i32_22 : BitVec 32 := 0#32
  let v62 : BitVec 1 := Scalar.cmpi .ne v61 c0_i32_22
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2560x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2560x512_S2560x512_0_0 : ∀ a, (![0, 0] : Fin 2 → Nat) a + S2560x512.size a ≤ S2560x512.size a
  h_S2560x512 : 0 < S2560x512.numel
  reduces_S2560x512_S2560 : S2560x512.Reduces [1] S2560
  shapeCasts_S2560_S2560x1 : S2560.ShapeCasts S2560x1
  broadcasts_S2560x1_S2560x512 : S2560x1.Broadcasts S2560x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x2560_d1_w32 : S512x2560.Iotas .tc 32 [1]
  broadcasts_S512x1_S512x2560 : S512x1.Broadcasts S512x2560
  reduces_S512x2560_S512 : S512x2560.Reduces [1] S512
  inb_S512x2560_S512x2560_0_0 : ∀ a, (![0, 0] : Fin 2 → Nat) a + S512x2560.size a ≤ S512x2560.size a
  h_S512x2560 : 0 < S512x2560.numel
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  dot_S512x512_S2560x512_S512x2560_1_1_0_0_n_n_wf : DotDims.WF S512x512 S2560x512 S512x2560 [1] [1] [0] [0] [] []
  gather_S512x100000_S512x1x1_S512x1_n_1_0_0_1_2_11_wf : GatherDims.WF S512x100000 S512x1x1 S512x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2560x512.size a < S100000x512.size a
  hwx0_1 : ∀ i : grid0.Coords, EltTy.bits .f32 = 32 ∨ (Rect.unit (s := S100000x512) (fun a => cc0_transform_1 i a * S2560x512.size a) (fun a => (Pipeline.Clip.of (cc0_transform_1 i a) (S2560x512.size a) (S100000x512.size a)).extent (S2560x512.size a)) fun a => Pipeline.Clip.inb (Pipeline.Clip.ok_of (hstart0_1 i a))).WholeWords (EltTy.packing .f32)
  hwxs0_1 : ∀ i : grid0.Coords, EltTy.bits .f32 = 32 ∨ (Rect.unit (s := S2560x512) (fun _ => 0) (fun a => (Pipeline.Clip.of (cc0_transform_1 i a) (S2560x512.size a) (S100000x512.size a)).extent (S2560x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x2560.size a < S512x100000.size a
  hwx0_3 : ∀ i : grid0.Coords, EltTy.bits .f32 = 32 ∨ (Rect.unit (s := S512x100000) (fun a => cc0_transform_3 i a * S512x2560.size a) (fun a => (Pipeline.Clip.of (cc0_transform_3 i a) (S512x2560.size a) (S512x100000.size a)).extent (S512x2560.size a)) fun a => Pipeline.Clip.inb (Pipeline.Clip.ok_of (hstart0_3 i a))).WholeWords (EltTy.packing .f32)
  hwxs0_3 : ∀ i : grid0.Coords, EltTy.bits .f32 = 32 ∨ (Rect.unit (s := S512x2560) (fun _ => 0) (fun a => (Pipeline.Clip.of (cc0_transform_3 i a) (S512x2560.size a) (S512x100000.size a)).extent (S512x2560.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x512_S2560x512_S512x2560_1_1_0_0_n_n : DotDims S512x512 S2560x512 S512x2560 where
  lhsContracting := [1]
  rhsContracting := [1]
  lhsNonContracting := [0]
  rhsNonContracting := [0]
  lhsBatch := []
  rhsBatch := []
  wf := dot_S512x512_S2560x512_S512x2560_1_1_0_0_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

abbrev win0_0 : Pipeline.Window sig grid0 :=
  Pipeline.Window.ofSpec (Memref.whole main_v8) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S2560x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v9) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v10_0) S512x2560.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v10_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S512x100000, .f32⟩
  | .hbm, ⟨34, _⟩ => ⟨S_, .f32⟩
  | .hbm, ⟨35, _⟩ => ⟨S512x100000, .f32⟩
  | .hbm, ⟨36, _⟩ => ⟨S512x100000, .f32⟩
  | .hbm, ⟨37, _⟩ => ⟨S_, .f32⟩
  | .hbm, ⟨38, _⟩ => ⟨S512x100000, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S512x100000, .f32⟩
  | .hbm, ⟨43, _⟩ => ⟨S512x100000, .i1⟩
  | .hbm, ⟨44, _⟩ => ⟨S_, .f32⟩
  | .hbm, ⟨45, _⟩ => ⟨S512x100000, .f32⟩
  | .hbm, ⟨46, _⟩ => ⟨S512x100000, .f32⟩
  | .hbm, ⟨47, _⟩ => ⟨S512x100000, .f32⟩
  | .hbm, ⟨48, _⟩ => ⟨S512x1, .i32⟩
  | .hbm, ⟨49, _⟩ => ⟨S1x100000, .i32⟩
  | .hbm, ⟨50, _⟩ => ⟨S512x100000, .i32⟩
  | .hbm, ⟨51, _⟩ => ⟨S512x100000, .i32⟩
  | .hbm, ⟨52, _⟩ => ⟨S512x100000, .i1⟩
  | .hbm, ⟨53, _⟩ => ⟨S512x100000, .f32⟩
  | .hbm, ⟨54, _⟩ => ⟨S512x100000, .f32⟩
  | .hbm, ⟨55, _⟩ => ⟨S_, .f32⟩
  | .hbm, ⟨56, _⟩ => ⟨S512x100000, .f32⟩
  | .hbm, ⟨57, _⟩ => ⟨S512x100000, .f32⟩
  | .hbm, ⟨58, _⟩ => ⟨S512x100000, .f32⟩
  | .hbm, ⟨59, _⟩ => ⟨S512x100000, .f32⟩
  | .hbm, ⟨60, _⟩ => ⟨S_, .f32⟩
  | .hbm, ⟨61, _⟩ => ⟨S512x100000, .f32⟩
  | .hbm, ⟨62, _⟩ => ⟨S512x100000, .f32⟩
  | .hbm, ⟨63, _⟩ => ⟨S_, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512x1, .f32⟩
  | .hbm, ⟨69, _⟩ => ⟨S512x100000, .f32⟩
  | .hbm, ⟨70, _⟩ => ⟨S512x100000, .f32⟩
  | .hbm, ⟨71, _⟩ => ⟨S512x100000, .f32⟩
  | .hbm, ⟨72, _⟩ => ⟨S_, .f32⟩
  | .hbm, ⟨73, _⟩ => ⟨S512, .f32⟩
  | .hbm, ⟨74, _⟩ => ⟨S512x1, .f32⟩
  | .hbm, ⟨75, _⟩ => ⟨S512x1, .f32⟩
  | .hbm, ⟨76, _⟩ => ⟨S512x100000, .f32⟩
  | .hbm, ⟨77, _⟩ => ⟨S512x100000, .f32⟩
  | .hbm, ⟨78, _⟩ => ⟨S512x1, .i32⟩
  | .hbm, ⟨79, _⟩ => ⟨S_, .i32⟩
  | .hbm, ⟨80, _⟩ => ⟨S512x1, .i32⟩
  | .hbm, ⟨81, _⟩ => ⟨S512x1, .i1⟩
  | .hbm, ⟨82, _⟩ => ⟨S_, .i32⟩
  | .hbm, ⟨83, _⟩ => ⟨S512x1, .i32⟩
  | .hbm, ⟨84, _⟩ => ⟨S512x1, .i32⟩
  | .hbm, ⟨85, _⟩ => ⟨S512x1, .i32⟩
  | .hbm, ⟨86, _⟩ => ⟨S512x1x1, .i32⟩
  | .hbm, ⟨87, _⟩ => ⟨S1, .i32⟩
  | .hbm, ⟨88, _⟩ => ⟨S_, .i32⟩
  | .hbm, ⟨89, _⟩ => ⟨S512x1x1, .i32⟩
  | .hbm, ⟨90, _⟩ => ⟨S512x1x1, .i1⟩
  | .hbm, ⟨91, _⟩ => ⟨S1x1x1, .i32⟩
  | .hbm, ⟨92, _⟩ => ⟨S512x1x1, .i32⟩
  | .hbm, ⟨93, _⟩ => ⟨S512x1x1, .i1⟩
  | .hbm, ⟨94, _⟩ => ⟨S512x1x1, .i1⟩
  | .hbm, ⟨95, _⟩ => ⟨S_, .i1⟩
  | .hbm, ⟨96, _⟩ => ⟨S512x1, .i1⟩
  | .hbm, ⟨97, _⟩ => ⟨S512x1, .f32⟩
  | .hbm, ⟨98, _⟩ => ⟨S_, .f32⟩
  | .hbm, ⟨99, _⟩ => ⟨S512x1, .f32⟩
  | .hbm, ⟨100, _⟩ => ⟨S512x1, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v41 : Ref sig .tc := ⟨.hbm, 77, rfl⟩
abbrev main_v42 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_cst : Ref sig .tc := ⟨.hbm, 98, rfl⟩
abbrev main_call4_v14 : Ref sig .tc := ⟨.hbm, 99, rfl⟩
abbrev main_v43 : Ref sig .tc := ⟨.hbm, 100, rfl⟩
abbrev main_cst_11 : Ref sig .tc := ⟨.hbm, 101, rfl⟩
abbrev main_v44 : Ref sig .tc := ⟨.hbm, 102, rfl⟩
abbrev main_cst_12 : Ref sig .tc := ⟨.hbm, 103, rfl⟩
abbrev main_v45 : Ref sig .tc := ⟨.hbm, 104, rfl⟩
abbrev main_v46 : Ref sig .tc := ⟨.hbm, 105, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  dot_S512x512_S512x100000_S512x100000_1_0_0_1_n_n_wf : DotDims.WF S512x512 S512x100000 S512x100000 [1] [0] [0] [1] [] []
  gather_S512x100000_S512x1x1_S512x1_n_1_0_0_1_2_11_wf : GatherDims.WF S512x100000 S512x1x1 S512x1 [] [1] [0] [1] [0] 2 ![1, 1]

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.KData.lean ====
/-
  The word-level program's frame, the part that needs no run of the body: its proof data and the frame claim from a frame run.

  Nothing is claimed here of what the kernel computes: the three output windows are handed to the body at any contents and taken back at
  any contents, the two scratch columns stay inside the class's own invariant, and the only facts kept are that the body leaves the three
  input buffers as it found them. The frame run then says that the weights array (the one argument a window stages) ends at its entry
  contents and that no host operation after the region writes the other two arguments.
-/
import proofs.«402648_j62706522521602_3_alg».proof.Proof.Gen.Kernel.Frame
import proofs.«402648_j62706522521602_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights buffer at point `t` once its block has landed: the tile's rows inside the array, `d` on the rows past its end. -/
def wfill (c : Dev nD) (t : Fin cfg0.N) (d : Vec F S2560x512 .f32) : Vec F S2560x512 .f32 :=
  win0_1.fill (grid0.coords t) d (iblk m c 1 t)

/-- The windows whose contents the frame does not follow: the three outputs. -/
def fgt : Fin cfg0.W → Bool
  | ⟨0, _⟩ => false | ⟨1, _⟩ => false | ⟨2, _⟩ => false | ⟨3, _⟩ => true | ⟨4, _⟩ => true | ⟨5, _⟩ => true

/-- The proof data: the arrays as the region finds them; the input buffers left at their blocks (the weights' with the zero word past
    the array's end); the outputs unnamed; the class's own invariant throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t (fun _ => Scalar.ofBits .f32 0#32)
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = wfill m c t (fun _ => Scalar.ofBits .f32 0#32) := by dsimp only [dats]
theorem after0_2 (c : Dev nD) (t : Fin cfg0.N) : (dats m 0 c).after 2 t = iblk m c 2 t := by dsimp only [dats]

/-- The buffers the host operations after the region may write: every one but the two arguments no window stages. -/
def tailWrites : Finset (Ref sig .tc) := Finset.univ.filter fun b => b ≠ main_arg0 ∧ b ≠ main_arg1

/-! ## The host operations after the region leave the two unstaged arguments alone -/

theorem tail_keeps_arg0 : (List.flatten [hostOps1, hostOps1_1, hostOps1_2] : List (HloOp τ sig (Elt F))).Forall fun op => Proc.devRef .tc main_arg0 ∉ op.writes := by
  simp only [hostOps1, hostOps1_1, hostOps1_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps_arg1 : (List.flatten [hostOps1, hostOps1_1, hostOps1_2] : List (HloOp τ sig (Elt F))).Forall fun op => Proc.devRef .tc main_arg1 ∉ op.writes := by
  simp only [hostOps1, hostOps1_1, hostOps1_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Whatever a host operation after the region writes is in `tailWrites`. -/
theorem tail_writes_sub : ∀ ops ∈ ([hostOps1, hostOps1_1, hostOps1_2] : List (List (HloOp τ sig (Elt F)))), ∀ op ∈ ops,
    ∀ b : Ref sig .tc, Proc.devRef .tc b ∈ op.writes → b ∈ tailWrites := by
  intro ops hops op hop b hb
  have hmem : op ∈ List.flatten [hostOps1, hostOps1_1, hostOps1_2] := List.mem_flatten.mpr ⟨ops, hops, hop⟩
  simp only [tailWrites, Finset.mem_filter, Finset.mem_univ, true_and]
  constructor
  · rintro rfl; exact (List.forall_iff_forall_mem.mp (tail_keeps_arg0 (F := F))) op hmem hb
  · rintro rfl; exact (List.forall_iff_forall_mem.mp (tail_keeps_arg1 (F := F))) op hmem hb

/-! ## The frame claim's post from a relational frame run -/

/-- From a run to the relational frame post with the outputs forgotten: the weights array, an input a window stages, ends at its entry
    contents; the other two arguments are buffers no window stages and no later host operation writes. -/
theorem frame_of_R
    (h : θ_run defs (onTc (τ := τ) (main (F := F))) (s₀ m ρ)
      (RDat.FramePostR (cfgs 0) (fun c => (dats m 0 c).toRForget fgt) tailWrites (fun c b => V0 m c (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by simp [tailWrites]⟩)).trans (V_main_arg0 m c),
     ((h c).2 main_arg1 (Finset.mem_sdiff.mpr ⟨Pipeline.mem_restRefs_of main_arg1 (by decide) (by decide), by simp [tailWrites]⟩)).trans (V_main_arg1 m c),
     (Pipeline.RDat.FramePostR.arr_in h c 1 rfl).trans ((A_eq m c 1).trans (V_main_arg2 m c))⟩) h

end Cert.Kernel.Hand

end
-- ==== Proof.KRuns.lean ====
/-
  The kernel body run symbolically, control case by control case.

  The body's four conditionals depend on the grid point only: the reset of the two scratch columns at the first tile
  of a half, the ordinary update of the running maximum and running sum at every tile but the last of all, the masked
  update at the last tile of all, and the copy of the scratch columns to the two statistics blocks at the last tile
  of a half. Over the forty points that leaves four cases:
    A  the first tile of a half (reset, then the ordinary update);
    B  a tile strictly inside a half (the ordinary update of what the tile before left);
    C  the last tile of the first half (the ordinary update, then the copy);
    D  the last tile of all (the masked update, then the copy).
  For each case the body's triple is stated over arbitrary whole buffers, and what each stored buffer ends up
  holding is read back as the pure function of the loaded blocks the body computes.
-/
import proofs.«402648_j62706522521602_3_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four conditions, as the body computes them from the grid coordinates -/

/-- The tile is the first of its half: the scratch columns are reset. -/
abbrev condReset (i : grid0.Coords) : Prop :=
  (Scalar.cmpi .ne (Scalar.extui (Scalar.cmpi .eq (BitVec.ofNat 32 (i 1).val) 0#32)) 0#32) = 1#1
/-- The tile is not the last of all: the ordinary update. -/
abbrev condPlain (i : grid0.Coords) : Prop :=
  (Scalar.cmpi .ne (Scalar.extui (Scalar.xori (Scalar.andi (Scalar.cmpi .eq (BitVec.ofNat 32 (i 0).val) 1#32) (Scalar.cmpi .eq (BitVec.ofNat 32 (i 1).val) 19#32)) 1#1)) 0#32) = 1#1
/-- The tile is the last of all: the masked update. -/
abbrev condMasked (i : grid0.Coords) : Prop :=
  (Scalar.cmpi .ne (Scalar.extui (Scalar.andi (Scalar.cmpi .eq (BitVec.ofNat 32 (i 0).val) 1#32) (Scalar.cmpi .eq (BitVec.ofNat 32 (i 1).val) 19#32))) 0#32) = 1#1
/-- The tile is the last of its half: the scratch columns are copied out. -/
abbrev condCopy (i : grid0.Coords) : Prop := k0_cond4 i = 1#1

theorem hcondReset : ∀ t : Fin cfg0.N, condReset (grid0.coords t) ↔ t.val % 20 = 0 :=
  (by decide +kernel : ∀ t : Fin grid0.N, condReset (grid0.coords t) ↔ t.val % 20 = 0)
theorem hcondPlain : ∀ t : Fin cfg0.N, condPlain (grid0.coords t) ↔ t.val ≠ 39 :=
  (by decide +kernel : ∀ t : Fin grid0.N, condPlain (grid0.coords t) ↔ t.val ≠ 39)
theorem hcondMasked : ∀ t : Fin cfg0.N, condMasked (grid0.coords t) ↔ t.val = 39 :=
  (by decide +kernel : ∀ t : Fin grid0.N, condMasked (grid0.coords t) ↔ t.val = 39)
theorem hcondCopy : ∀ t : Fin cfg0.N, condCopy (grid0.coords t) ↔ t.val % 20 = 19 :=
  (by decide +kernel : ∀ t : Fin grid0.N, condCopy (grid0.coords t) ↔ t.val % 20 = 19)

/-! ## Where the windows are idle -/

/-- The three inputs and the logits tile are stored or read at every point. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The two statistics blocks are stored only where the scratch columns are copied out; elsewhere they are idle and not
    written back. -/
theorem idleAt4 : ∀ t : Fin cfg0.N, ¬condCopy (grid0.coords t) → cfg0.idle 4 (grid0.coords t) = true := by decide +kernel
theorem idleAt5 : ∀ t : Fin cfg0.N, ¬condCopy (grid0.coords t) → cfg0.idle 5 (grid0.coords t) = true := by decide +kernel
theorem noFlush4 : ∀ t : Fin cfg0.N, ¬condCopy (grid0.coords t) → (cfg0.win 4).flush t = false := by decide +kernel
theorem noFlush5 : ∀ t : Fin cfg0.N, ¬condCopy (grid0.coords t) → (cfg0.win 5).flush t = false := by decide +kernel
theorem liveAt4 : ∀ t : Fin cfg0.N, condCopy (grid0.coords t) → cfg0.idle 4 (grid0.coords t) = false := by decide +kernel
theorem liveAt5 : ∀ t : Fin cfg0.N, condCopy (grid0.coords t) → cfg0.idle 5 (grid0.coords t) = false := by decide +kernel

/-! ## The buffers the body is called with -/

/-- Each window's current staging buffer at point `t`, and that it is a whole buffer. -/
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2560x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2560 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1 .f32 := win0_5.stage (cfg0.slots t 5)
abbrev hs5 (t : Fin cfg0.N) : (ms5 t).IsWhole := hstage0_5 ((cfg0.slots t 5).cast nbuf0_5)

/-- What the launch hands the region besides the windows: the two scratch columns, each at some contents, and the
    generator register. -/
theorem PhiA0_eq (c : Dev nD) :
    (Pipeline.ΦA spec0 c : sProp 𝕄)
      = iprop(iprop((∃ d, owns (c : Thread nD τ) (Memref.whole cc0_scratch0 : Memref sig .tc .vmem S512x1 .f32) fullShare d)
            ∗ (∃ d, owns (c : Thread nD τ) (Memref.whole cc0_scratch1 : Memref sig .tc .vmem S512x1 .f32) fullShare d)) ∗ (∃ r, prngReg c r)) := by
  unfold Pipeline.ΦA; rw [scopedRest0_eq]; simp only [owns_whole]; try rfl

/-! ## The runs

Each is the body's triple together with, for every buffer the case stores into, the list of pieces written (last first):
the pieces are found by running the body symbolically, each conditional decided by the case's hypotheses. -/

set_option maxHeartbeats 4000000 in
/-- CASE A, the first tile of a half: the reset, then the ordinary update, no copy. The scratch columns may hold anything:
    they are stored into before anything read from them is used. -/
noncomputable def kernelRun0_A (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : condReset i) (hc2 : condPlain i) (hc3 : ¬condMasked i) (hc4 : ¬condCopy i)
    (x0 : Vec F S512x512 .bf16) (x1 : Vec F S2560x512 .f32) (x2 : Vec F S512x1 .i32) :
    Σ' (L3 : List (View.Piece (Elt F) S512x2560 .f32)) (LS0 : List (View.Piece (Elt F) S512x1 .f32)), { LS1 : List (View.Piece (Elt F) S512x1 .f32) //
      ∀ (xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- CASE B, a tile strictly inside a half: no reset, the ordinary update, no copy. On whole buffers — the three inputs at
    given contents, the logits buffer at anything, the two statistics buffers handed back untouched, the scratch columns at
    given contents — the body runs to the continuation holding the inputs as they were, and the logits buffer and the two
    scratch columns with the listed pieces written. -/
noncomputable def kernelRun0_B (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : ¬condCopy i)
    (x0 : Vec F S512x512 .bf16) (x1 : Vec F S2560x512 .f32) (x2 : Vec F S512x1 .i32) (xs0 xs1 : Vec F S512x1 .f32) :
    Σ' (L3 : List (View.Piece (Elt F) S512x2560 .f32)) (LS0 : List (View.Piece (Elt F) S512x1 .f32)), { LS1 : List (View.Piece (Elt F) S512x1 .f32) //
      ∀ (xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hf4; obtain rfl := harg7.eq_unread hf5
    obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- CASE C, the last tile of the first half: no reset, the ordinary update of what the tile before left, then the copy of
    the two scratch columns to the two statistics buffers (which may hold anything before). -/
noncomputable def kernelRun0_C (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i)
    (x0 : Vec F S512x512 .bf16) (x1 : Vec F S2560x512 .f32) (x2 : Vec F S512x1 .i32) (xs0 xs1 : Vec F S512x1 .f32) :
    Σ' (L3 : List (View.Piece (Elt F) S512x2560 .f32)) (L4 : List (View.Piece (Elt F) S1x512x1 .f32)) (L5 : List (View.Piece (Elt F) S1x512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

set_option maxHeartbeats 4000000 in
/-- CASE D, the last tile of all: no reset, the masked update of what the tile before left, then the copy of the two scratch
    columns to the two statistics buffers. -/
noncomputable def kernelRun0_D (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i)
    (x0 : Vec F S512x512 .bf16) (x1 : Vec F S2560x512 .f32) (x2 : Vec F S512x1 .i32) (xs0 xs1 : Vec F S512x1 .f32) :
    Σ' (L3 : List (View.Piece (Elt F) S512x2560 .f32)) (L4 : List (View.Piece (Elt F) S1x512x1 .f32)) (L5 : List (View.Piece (Elt F) S1x512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.KFrame.lean ====
/-
  The word-level program's frame: the body obligation at every grid point, the frame run, and the frame claim.

  Nothing is said of what the kernel computes. At a point the body is handed the three input buffers at their blocks (the
  weights' buffer holding, past the array's end, whatever it held), the three output buffers at anything, and the two
  scratch columns at anything; the point's number says which of the four control cases it is in; the case's run applies;
  and the body hands back the inputs as it found them and every buffer it stored into at some contents, which is all that
  is asked of a buffer nobody follows.
-/
import proofs.«402648_j62706522521602_3_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the three input buffers -/

/-- The embeddings' and the labels' buffers hold their blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
/-- The weights' buffer is fetched into at every point: its block on the rows inside the array, what it held elsewhere. -/
theorem before0_1 (c : Dev nD) (t : Fin cfg0.N) (d) : (dats m 0 c).before 1 t d = wfill m c t d := by
  unfold Dat.before; rw [if_pos (fetch0_1 t)]; rfl

/-- A buffer with pieces written into it is owned at some contents: those it then reads. -/
theorem owns_of_writes (c : Dev nD) {sh : Shape} {e : EltTy} (a : Memref sig .tc .vmem sh e) (L : List (View.Piece (Elt F) sh e))
    (f : a.view.ty.Contents (Elt F)) :
    (a.view.loc (c : Thread nD τ) ↦[a.view.set]{fullShare} a.view.writes (Elt F) f L : sProp 𝕄)
      ⊢ iprop(∃ X, owns (c : Thread nD τ) a fullShare X) := by
  iintro H
  iexists a.view.read (Elt F) (a.view.writes (Elt F) f L)
  unfold owns
  iexists _
  isplitr
  · ipureintro; rfl
  · iexact H

/-! ## The body obligation, at a generic point -/

/-- What the body is called with at point `t`: the invariant, nothing owed, the input buffers at what they then hold, the
    output buffers at anything. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ X, owns (c : Thread nD τ) (ms3 t) fullShare X)
    ∗ (∃ X, owns (c : Thread nD τ) (ms4 t) fullShare X)
    ∗ (∃ X, owns (c : Thread nD τ) (ms5 t) fullShare X))

/-- What it returns: the invariant, nothing owed, the input buffers at their blocks (the weights' stated on the rows inside
    the array), the output buffers at anything. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t)
    ∗ (∃ X, owns (c : Thread nD τ) (ms3 t) fullShare X)
    ∗ (∃ X, owns (c : Thread nD τ) (ms4 t) fullShare X)
    ∗ (∃ X, owns (c : Thread nD τ) (ms5 t) fullShare X))

set_option maxHeartbeats 4800000 in
/-- The body at any point: the point's number says which of the four cases it is in, the case's run applies to the buffers as
    handed over (the scratch columns and the output buffers at whatever they hold), and each buffer stored into comes back at
    some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq, after0_0, after0_1, after0_2]
  have hfill : ∀ d, win0_1.fill (grid0.coords t) d (win0_1.cut (grid0.coords t) (wfill m c t (fun _ => Scalar.ofBits .f32 0#32))) = wfill m c t d :=
    fun d => by unfold wfill; rw [Window.cut_fill]
  have hN : t.val < 40 := lt_of_lt_of_eq t.isLt N_0
  iintro ⟨⟨⟨⟨%xs0, HS0⟩, ⟨%xs1, HS1⟩⟩, Hg⟩, Ho, ⟨%d0, H0⟩, ⟨%d1, H1⟩, ⟨%d2, H2⟩, ⟨%X3, H3⟩, ⟨%X4, H4⟩, ⟨%X5, H5⟩⟩
  rw [before0_0 m c t d0, before0_1 m c t d1, before0_2 m c t d2]
  by_cases h0 : t.val % 20 = 0
  · -- the first tile of a half
    have h39 : t.val ≠ 39 := by omega
    have h19 : ¬t.val % 20 = 19 := by omega
    iapply ((kernelRun0_A c (grid0.coords t) (ms0 t) (hs0 t) (ms1 t) (hs1 t) (ms2 t) (hs2 t) (ms3 t) (hs3 t) (ms4 t) (hs4 t) (ms5 t) (hs5 t)
      (Memref.whole cc0_scratch0) (Memref.isWhole_whole _) (Memref.whole cc0_scratch1) (Memref.isWhole_whole _)
      ((hcondReset t).mpr h0) ((hcondPlain t).mpr h39) (fun h => h39 ((hcondMasked t).mp h)) (fun h => h19 ((hcondCopy t).mp h))
      (iblk m c 0 t) (wfill m c t d1) (iblk m c 2 t)).2.2.2 X4 X5 Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexists _; iexact HS0
    isplitl [HS1]; · iexists _; iexact HS1
    iintro ⟨H0, H1, H2, ⟨%f3, H3⟩, H4, H5, ⟨%fs0, HS0⟩, ⟨%fs1, HS1⟩⟩
    isplitl [HS0 HS1 Hg]
    · isplitl [HS0 HS1]
      · isplitl [HS0]
        · iapply (owns_of_writes c _ _ _); iexact HS0
        · iapply (owns_of_writes c _ _ _); iexact HS1
      · iexact Hg
    isplitl [Ho]; · iexact Ho
    isplitl [H0]; · iexact H0
    isplitl [H1]; · iexists d1; rw [hfill d1]; iexact H1
    isplitl [H2]; · iexact H2
    isplitl [H3]; · iapply (owns_of_writes c _ _ _); iexact H3
    isplitl [H4]; · iexists _; iexact H4
    iexists _; iexact H5
  by_cases h39 : t.val = 39
  · -- the last tile of all
    have h19 : t.val % 20 = 19 := by omega
    iapply ((kernelRun0_D c (grid0.coords t) (ms0 t) (hs0 t) (ms1 t) (hs1 t) (ms2 t) (hs2 t) (ms3 t) (hs3 t) (ms4 t) (hs4 t) (ms5 t) (hs5 t)
      (Memref.whole cc0_scratch0) (Memref.isWhole_whole _) (Memref.whole cc0_scratch1) (Memref.isWhole_whole _)
      (fun h => h0 ((hcondReset t).mp h)) (fun h => (hcondPlain t).mp h h39) ((hcondMasked t).mpr h39) ((hcondCopy t).mpr h19)
      (iblk m c 0 t) (wfill m c t d1) (iblk m c 2 t) xs0 xs1).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%f3, H3⟩, ⟨%f4, H4⟩, ⟨%f5, H5⟩, ⟨%fs0, HS0⟩, ⟨%fs1, HS1⟩⟩
    isplitl [HS0 HS1 Hg]
    · isplitl [HS0 HS1]
      · isplitl [HS0]
        · iapply (owns_of_writes c _ _ _); iexact HS0
        · iapply (owns_of_writes c _ _ _); iexact HS1
      · iexact Hg
    isplitl [Ho]; · iexact Ho
    isplitl [H0]; · iexact H0
    isplitl [H1]; · iexists d1; rw [hfill d1]; iexact H1
    isplitl [H2]; · iexact H2
    isplitl [H3]; · iapply (owns_of_writes c _ _ _); iexact H3
    isplitl [H4]; · iapply (owns_of_writes c _ _ _); iexact H4
    iapply (owns_of_writes c _ _ _); iexact H5
  by_cases h19 : t.val % 20 = 19
  · -- the last tile of the first half
    iapply ((kernelRun0_C c (grid0.coords t) (ms0 t) (hs0 t) (ms1 t) (hs1 t) (ms2 t) (hs2 t) (ms3 t) (hs3 t) (ms4 t) (hs4 t) (ms5 t) (hs5 t)
      (Memref.whole cc0_scratch0) (Memref.isWhole_whole _) (Memref.whole cc0_scratch1) (Memref.isWhole_whole _)
      (fun h => h0 ((hcondReset t).mp h)) ((hcondPlain t).mpr h39) (fun h => h39 ((hcondMasked t).mp h)) ((hcondCopy t).mpr h19)
      (iblk m c 0 t) (wfill m c t d1) (iblk m c 2 t) xs0 xs1).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%f3, H3⟩, ⟨%f4, H4⟩, ⟨%f5, H5⟩, ⟨%fs0, HS0⟩, ⟨%fs1, HS1⟩⟩
    isplitl [HS0 HS1 Hg]
    · isplitl [HS0 HS1]
      · isplitl [HS0]
        · iapply (owns_of_writes c _ _ _); iexact HS0
        · iapply (owns_of_writes c _ _ _); iexact HS1
      · iexact Hg
    isplitl [Ho]; · iexact Ho
    isplitl [H0]; · iexact H0
    isplitl [H1]; · iexists d1; rw [hfill d1]; iexact H1
    isplitl [H2]; · iexact H2
    isplitl [H3]; · iapply (owns_of_writes c _ _ _); iexact H3
    isplitl [H4]; · iapply (owns_of_writes c _ _ _); iexact H4
    iapply (owns_of_writes c _ _ _); iexact H5
  · -- a tile strictly inside a half
    iapply ((kernelRun0_B c (grid0.coords t) (ms0 t) (hs0 t) (ms1 t) (hs1 t) (ms2 t) (hs2 t) (ms3 t) (hs3 t) (ms4 t) (hs4 t) (ms5 t) (hs5 t)
      (Memref.whole cc0_scratch0) (Memref.isWhole_whole _) (Memref.whole cc0_scratch1) (Memref.isWhole_whole _)
      (fun h => h0 ((hcondReset t).mp h)) ((hcondPlain t).mpr h39) (fun h => h39 ((hcondMasked t).mp h)) (fun h => h19 ((hcondCopy t).mp h))
      (iblk m c 0 t) (wfill m c t d1) (iblk m c 2 t) xs0 xs1).2.2.2 X4 X5 Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%f3, H3⟩, H4, H5, ⟨%fs0, HS0⟩, ⟨%fs1, HS1⟩⟩
    isplitl [HS0 HS1 Hg]
    · isplitl [HS0 HS1]
      · isplitl [HS0]
        · iapply (owns_of_writes c _ _ _); iexact HS0
        · iapply (owns_of_writes c _ _ _); iexact HS1
      · iexact Hg
    isplitl [Ho]; · iexact Ho
    isplitl [H0]; · iexact H0
    isplitl [H1]; · iexists d1; rw [hfill d1]; iexact H1
    isplitl [H2]; · iexact H2
    isplitl [H3]; · iapply (owns_of_writes c _ _ _); iexact H3
    isplitl [H4]; · iexists _; iexact H4
    iexists _; iexact H5

/-- The pipeline's body obligation at every point, the three outputs forgotten. -/
theorem body_obligation (c : Dev nD) : BodyObligationLoose (dats (F := F) m 0 c) (defs₀ (F := F)) Variants.none () Set.univ fgt := fun t => by
  rw [bigSep_W0, bigSep_W0]
  simp only [fgt]
  exact sound_body m c t

/-! ## The frame run and the frame claim -/

set_option backward.isDefEq.respectTransparency.types false in
/-- Every weakly fair execution of the program terminates, with the weights array at its entry contents and every buffer no
    window stages and no later host operation writes as the region found it. -/
theorem run_main : θ_run defs (onTc (τ := τ) (main (F := F))) (s₀ m ρ)
    (RDat.FramePostR (cfgs 0) (fun c => (dats m 0 c).toRForget fgt) tailWrites (fun c b => V0 m c (Proc.devRef .tc b))) :=
  Pipeline.RDat.θ_run_frame_around_T cfgs (0 : Fin 1) launch0 defs₀ Variants.none (fun c => (dats m 0 c).toRForget fgt) tailWrites m ρ main
    (hbody := fun c => (body_obligation m c).toRForget)
    (hshare := fun c w => by rw [Dat.toRForget_share]; exact (dats m 0 c).share_full (fun _ => rfl) w) (howed := fun _ _ => rfl)
    (V₀ := V0 m) (opss := [hostOps1, hostOps1_1, hostOps1_2]) (hsub := sfx_sub) (hfresh := sfx_fresh) (hkeep := sfx_keeps)
    (hT := tail_writes_sub) (hmain := hmain m Variants.none)
    (hA := fun c w => by simp only [Dat.toRForget_A]; exact A_eq m c w) (hΦ := fun c t => rfl)

/-- The frame claim's post: the program runs and its three argument arrays end unchanged. -/
theorem frame_bits : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_R m ρ (run_main m ρ)

end Cert.Kernel.Hand

end
-- ==== Proof.IData.lean ====
/-
  What the kernel's region holds, point by point, written over the body's pure payloads.

  The grid has 40 points: point t works on class tile t (2560 class columns), the first 20 points on one half of the
  class axis and the last 20 on the other. At a point the body reads the embeddings block (all 512 rows), the
  weights block of its tile (2560 rows; the last tile's block runs 2400 rows past the array's end) and the labels,
  stores the tile of logits, and carries in two scratch columns a running maximum and a running rescaled sum of
  exponentials over the tiles of its half seen so far: reset at the first tile of a half, updated at every tile (the
  last tile of all through a mask that sends the columns past the array's end to the fill value), and copied to the two
  statistics outputs at the last tile of a half.
-/
import proofs.«402648_j62706522521602_3_alg».proof.Proof.Gen.KernelIdeal.Frame
import proofs.«402648_j62706522521602_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The input blocks, at their literal types -/

/-- The embeddings block (the whole scaled embeddings array, at every point). -/
abbrev xblk (c : Dev nD) (t : Fin cfg0.N) : Vec F S512x512 .bf16 := iblk m c 0 t
/-- The labels block (the whole labels column, at every point). -/
abbrev lblk (c : Dev nD) (t : Fin cfg0.N) : Vec F S512x1 .i32 := iblk m c 2 t
/-- The weights buffer at point `t` once its block has landed: the tile's rows inside the array, `d` on the rows past its end. -/
def wfill (c : Dev nD) (t : Fin cfg0.N) (d : Vec F S2560x512 .f32) : Vec F S2560x512 .f32 :=
  win0_1.fill (grid0.coords t) d (iblk m c 1 t)
/-- The same with the zero word past the array's end: the one the proof data names. -/
def wblk (c : Dev nD) (t : Fin cfg0.N) : Vec F S2560x512 .f32 := wfill m c t (fun _ => Scalar.ofBits .f32 0#32)

/-! ## The body's payloads at a point, from the three blocks -/

/-- The word the sine factor is a splat of. -/
abbrev sinWord : F .f32 := Scalar.ofBits .f32 0x3EF57744#32

/-- The tile of logits stored at grid coordinates `i` from weights buffer `W`, embeddings `X`, labels `L`. -/
def tileOf (i : grid0.Coords) (W : Vec F S2560x512 .f32) (X : Vec F S512x512 .bf16) (L : Vec F S512x1 .i32) : FVec F S512x2560 .f32 :=
  k0_pay1 (k0_pay13 W X) (k0_pay15 i L) (k0_pay16 i W X L) (k0_pay17 i W X L) (k0_pay18 i W X L) sinWord

/-- The running maximum after an ordinary tile, from the maximum `M` before it. -/
def maxStep (i : grid0.Coords) (W : Vec F S2560x512 .f32) (X : Vec F S512x512 .bf16) (L : Vec F S512x1 .i32) (M : Vec F S512x1 .f32) : FVec F S512x1 .f32 :=
  k0_pay3 (k0_pay13 W X) (k0_pay15 i L) (k0_pay16 i W X L) (k0_pay17 i W X L) (k0_pay18 i W X L) sinWord M
/-- The running sum after an ordinary tile, from the maximum `M` and the sum `S` before it. -/
def sumStep (i : grid0.Coords) (W : Vec F S2560x512 .f32) (X : Vec F S512x512 .bf16) (L : Vec F S512x1 .i32) (M S : Vec F S512x1 .f32) : FVec F S512x1 .f32 :=
  k0_pay4 (k0_pay13 W X) (k0_pay15 i L) (k0_pay16 i W X L) (k0_pay17 i W X L) (k0_pay18 i W X L) sinWord M M S
/-- The running maximum after the masked last tile. -/
def maxStepLast (i : grid0.Coords) (W : Vec F S2560x512 .f32) (X : Vec F S512x512 .bf16) (L : Vec F S512x1 .i32) (M : Vec F S512x1 .f32) : FVec F S512x1 .f32 :=
  k0_pay7 (k0_pay13 W X) (k0_pay14 i) (k0_pay15 i L) (k0_pay16 i W X L) (k0_pay17 i W X L) (k0_pay18 i W X L) sinWord M
/-- The running sum after the masked last tile. -/
def sumStepLast (i : grid0.Coords) (W : Vec F S2560x512 .f32) (X : Vec F S512x512 .bf16) (L : Vec F S512x1 .i32) (M S : Vec F S512x1 .f32) : FVec F S512x1 .f32 :=
  k0_pay8 (k0_pay13 W X) (k0_pay14 i) (k0_pay15 i L) (k0_pay16 i W X L) (k0_pay17 i W X L) (k0_pay18 i W X L) sinWord M M S

/-! ## The scratch columns after each point -/

/-- The running maximum and running sum after the body at point `n`: from the reset values at the first tile of a half,
    else from what the point before left; through the mask at the last tile of all. -/
def scr (c : Dev nD) : (n : ℕ) → n < cfg0.N → Vec F S512x1 .f32 × Vec F S512x1 .f32
  | 0, hn =>
    (maxStep (grid0.coords ⟨0, hn⟩) (wblk m c ⟨0, hn⟩) (xblk m c ⟨0, hn⟩) (lblk m c ⟨0, hn⟩) (k0_pay11 (F := F)),
     sumStep (grid0.coords ⟨0, hn⟩) (wblk m c ⟨0, hn⟩) (xblk m c ⟨0, hn⟩) (lblk m c ⟨0, hn⟩) (k0_pay11 (F := F)) (k0_pay12 (F := F)))
  | n + 1, hn =>
    if (n + 1) % 20 = 0 then
      (maxStep (grid0.coords ⟨n + 1, hn⟩) (wblk m c ⟨n + 1, hn⟩) (xblk m c ⟨n + 1, hn⟩) (lblk m c ⟨n + 1, hn⟩) (k0_pay11 (F := F)),
       sumStep (grid0.coords ⟨n + 1, hn⟩) (wblk m c ⟨n + 1, hn⟩) (xblk m c ⟨n + 1, hn⟩) (lblk m c ⟨n + 1, hn⟩) (k0_pay11 (F := F)) (k0_pay12 (F := F)))
    else if n + 1 = 39 then
      (maxStepLast (grid0.coords ⟨n + 1, hn⟩) (wblk m c ⟨n + 1, hn⟩) (xblk m c ⟨n + 1, hn⟩) (lblk m c ⟨n + 1, hn⟩) (scr c n (Nat.lt_of_succ_lt hn)).1,
       sumStepLast (grid0.coords ⟨n + 1, hn⟩) (wblk m c ⟨n + 1, hn⟩) (xblk m c ⟨n + 1, hn⟩) (lblk m c ⟨n + 1, hn⟩) (scr c n (Nat.lt_of_succ_lt hn)).1 (scr c n (Nat.lt_of_succ_lt hn)).2)
    else
      (maxStep (grid0.coords ⟨n + 1, hn⟩) (wblk m c ⟨n + 1, hn⟩) (xblk m c ⟨n + 1, hn⟩) (lblk m c ⟨n + 1, hn⟩) (scr c n (Nat.lt_of_succ_lt hn)).1,
       sumStep (grid0.coords ⟨n + 1, hn⟩) (wblk m c ⟨n + 1, hn⟩) (xblk m c ⟨n + 1, hn⟩) (lblk m c ⟨n + 1, hn⟩) (scr c n (Nat.lt_of_succ_lt hn)).1 (scr c n (Nat.lt_of_succ_lt hn)).2)

/-- The two scratch operands, whole scoped buffers of the kernel's own. -/
abbrev scMax : Memref sig .tc .vmem S512x1 .f32 := Memref.whole cc0_scratch0
abbrev scSum : Memref sig .tc .vmem S512x1 .f32 := Memref.whole cc0_scratch1

/-- The region's invariant before position `n`: before the first point the class's own (every scratch at anything); afterwards the
    two scratch columns at what the point before left, and the generator register at some state. -/
def PhiS (c : Dev nD) : (n : ℕ) → n ≤ cfg0.N → sProp 𝕄
  | 0, _ => Pipeline.ΦA spec0 c
  | n + 1, hn => iprop(iprop(owns (c : Thread nD τ) scMax fullShare ((scr m c n hn).1) ∗ owns (c : Thread nD τ) scSum fullShare ((scr m c n hn).2)) ∗ (∃ r, prngReg c r))

/-! ## The proof data -/

/-- The proof data of the one pipeline on core `c`: the arrays as the region finds them; after the body at point `t` the
    embeddings' and labels' buffers at their blocks, the weights' at its block (zero past the array's end), the logits' at the
    tile, the two statistics' at the scratch columns (read only where they are written back: the last tile of a half). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => tileOf (grid0.coords t) (wblk m c t) (xblk m c t) (lblk m c t)
    | ⟨4, _⟩ => k0_pay9 (scr m c t.val t.isLt).1
    | ⟨5, _⟩ => k0_pay10 (scr m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = tileOf (grid0.coords t) (wblk m c t) (xblk m c t) (lblk m c t) := by dsimp only [dats]
theorem after0_4 (c : Dev nD) (t : Fin cfg0.N) : (dats m 0 c).after 4 t = k0_pay9 (scr m c t.val t.isLt).1 := by dsimp only [dats]
theorem after0_5 (c : Dev nD) (t : Fin cfg0.N) : (dats m 0 c).after 5 t = k0_pay10 (scr m c t.val t.isLt).2 := by dsimp only [dats]

end Cert.KernelIdeal.Hand

end
-- ==== Proof.IRuns.lean ====
/-
  The kernel body run symbolically, control case by control case.

  The body's four conditionals depend on the grid point only: the reset of the two scratch columns at the first tile
  of a half, the ordinary update of the running maximum and running sum at every tile but the last of all, the masked
  update at the last tile of all, and the copy of the scratch columns to the two statistics blocks at the last tile
  of a half. Over the forty points that leaves four cases:
    A  the first tile of a half (reset, then the ordinary update);
    B  a tile strictly inside a half (the ordinary update of what the tile before left);
    C  the last tile of the first half (the ordinary update, then the copy);
    D  the last tile of all (the masked update, then the copy).
  For each case the body's triple is stated over arbitrary whole buffers, and what each stored buffer ends up
  holding is read back as the pure function of the loaded blocks the body computes.
-/
import proofs.«402648_j62706522521602_3_alg».proof.Proof.IData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's four conditions, as the body computes them from the grid coordinates -/

/-- The tile is the first of its half: the scratch columns are reset. -/
abbrev condReset (i : grid0.Coords) : Prop :=
  (Scalar.cmpi .ne (Scalar.extui (Scalar.cmpi .eq (BitVec.ofNat 32 (i 1).val) 0#32)) 0#32) = 1#1
/-- The tile is not the last of all: the ordinary update. -/
abbrev condPlain (i : grid0.Coords) : Prop :=
  (Scalar.cmpi .ne (Scalar.extui (Scalar.xori (Scalar.andi (Scalar.cmpi .eq (BitVec.ofNat 32 (i 0).val) 1#32) (Scalar.cmpi .eq (BitVec.ofNat 32 (i 1).val) 19#32)) 1#1)) 0#32) = 1#1
/-- The tile is the last of all: the masked update. -/
abbrev condMasked (i : grid0.Coords) : Prop :=
  (Scalar.cmpi .ne (Scalar.extui (Scalar.andi (Scalar.cmpi .eq (BitVec.ofNat 32 (i 0).val) 1#32) (Scalar.cmpi .eq (BitVec.ofNat 32 (i 1).val) 19#32))) 0#32) = 1#1
/-- The tile is the last of its half: the scratch columns are copied out. -/
abbrev condCopy (i : grid0.Coords) : Prop := k0_cond4 i = 1#1

theorem hcondReset : ∀ t : Fin cfg0.N, condReset (grid0.coords t) ↔ t.val % 20 = 0 :=
  (by decide +kernel : ∀ t : Fin grid0.N, condReset (grid0.coords t) ↔ t.val % 20 = 0)
theorem hcondPlain : ∀ t : Fin cfg0.N, condPlain (grid0.coords t) ↔ t.val ≠ 39 :=
  (by decide +kernel : ∀ t : Fin grid0.N, condPlain (grid0.coords t) ↔ t.val ≠ 39)
theorem hcondMasked : ∀ t : Fin cfg0.N, condMasked (grid0.coords t) ↔ t.val = 39 :=
  (by decide +kernel : ∀ t : Fin grid0.N, condMasked (grid0.coords t) ↔ t.val = 39)
theorem hcondCopy : ∀ t : Fin cfg0.N, condCopy (grid0.coords t) ↔ t.val % 20 = 19 :=
  (by decide +kernel : ∀ t : Fin grid0.N, condCopy (grid0.coords t) ↔ t.val % 20 = 19)

/-! ## Where the windows are idle -/

/-- The three inputs and the logits tile are stored or read at every point. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The two statistics blocks are stored only where the scratch columns are copied out; elsewhere they are idle and not
    written back. -/
theorem idleAt4 : ∀ t : Fin cfg0.N, ¬condCopy (grid0.coords t) → cfg0.idle 4 (grid0.coords t) = true := by decide +kernel
theorem idleAt5 : ∀ t : Fin cfg0.N, ¬condCopy (grid0.coords t) → cfg0.idle 5 (grid0.coords t) = true := by decide +kernel
theorem noFlush4 : ∀ t : Fin cfg0.N, ¬condCopy (grid0.coords t) → (cfg0.win 4).flush t = false := by decide +kernel
theorem noFlush5 : ∀ t : Fin cfg0.N, ¬condCopy (grid0.coords t) → (cfg0.win 5).flush t = false := by decide +kernel
theorem liveAt4 : ∀ t : Fin cfg0.N, condCopy (grid0.coords t) → cfg0.idle 4 (grid0.coords t) = false := by decide +kernel
theorem liveAt5 : ∀ t : Fin cfg0.N, condCopy (grid0.coords t) → cfg0.idle 5 (grid0.coords t) = false := by decide +kernel

/-! ## The buffers the body is called with -/

/-- Each window's current staging buffer at point `t`, and that it is a whole buffer. -/
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2560x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2560 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1 .f32 := win0_5.stage (cfg0.slots t 5)
abbrev hs5 (t : Fin cfg0.N) : (ms5 t).IsWhole := hstage0_5 ((cfg0.slots t 5).cast nbuf0_5)

/-- What the launch hands the region besides the windows: the two scratch columns, each at some contents, and the
    generator register. -/
theorem PhiA0_eq (c : Dev nD) :
    (Pipeline.ΦA spec0 c : sProp 𝕄)
      = iprop(iprop((∃ d, owns (c : Thread nD τ) (Memref.whole cc0_scratch0 : Memref sig .tc .vmem S512x1 .f32) fullShare d)
            ∗ (∃ d, owns (c : Thread nD τ) (Memref.whole cc0_scratch1 : Memref sig .tc .vmem S512x1 .f32) fullShare d)) ∗ (∃ r, prngReg c r)) := by
  unfold Pipeline.ΦA; rw [scopedRest0_eq]; simp only [owns_whole]; try rfl

/-! ## The runs

Each is the body's triple together with, for every buffer the case stores into, the list of pieces written (last first):
the pieces are found by running the body symbolically, each conditional decided by the case's hypotheses. -/

set_option maxHeartbeats 4000000 in
/-- CASE A, the first tile of a half: the reset, then the ordinary update, no copy. The scratch columns may hold anything:
    they are stored into before anything read from them is used. -/
noncomputable def kernelRun0_A (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : condReset i) (hc2 : condPlain i) (hc3 : ¬condMasked i) (hc4 : ¬condCopy i)
    (x0 : Vec F S512x512 .bf16) (x1 : Vec F S2560x512 .f32) (x2 : Vec F S512x1 .i32) :
    Σ' (L3 : List (View.Piece (Elt F) S512x2560 .f32)) (LS0 : List (View.Piece (Elt F) S512x1 .f32)), { LS1 : List (View.Piece (Elt F) S512x1 .f32) //
      ∀ (xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- CASE B, a tile strictly inside a half: no reset, the ordinary update, no copy. On whole buffers — the three inputs at
    given contents, the logits buffer at anything, the two statistics buffers handed back untouched, the scratch columns at
    given contents — the body runs to the continuation holding the inputs as they were, and the logits buffer and the two
    scratch columns with the listed pieces written. -/
noncomputable def kernelRun0_B (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : ¬condCopy i)
    (x0 : Vec F S512x512 .bf16) (x1 : Vec F S2560x512 .f32) (x2 : Vec F S512x1 .i32) (xs0 xs1 : Vec F S512x1 .f32) :
    Σ' (L3 : List (View.Piece (Elt F) S512x2560 .f32)) (LS0 : List (View.Piece (Elt F) S512x1 .f32)), { LS1 : List (View.Piece (Elt F) S512x1 .f32) //
      ∀ (xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hf4; obtain rfl := harg7.eq_unread hf5
    obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- CASE C, the last tile of the first half: no reset, the ordinary update of what the tile before left, then the copy of
    the two scratch columns to the two statistics buffers (which may hold anything before). -/
noncomputable def kernelRun0_C (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i)
    (x0 : Vec F S512x512 .bf16) (x1 : Vec F S2560x512 .f32) (x2 : Vec F S512x1 .i32) (xs0 xs1 : Vec F S512x1 .f32) :
    Σ' (L3 : List (View.Piece (Elt F) S512x2560 .f32)) (L4 : List (View.Piece (Elt F) S1x512x1 .f32)) (L5 : List (View.Piece (Elt F) S1x512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

set_option maxHeartbeats 4000000 in
/-- CASE D, the last tile of all: no reset, the masked update of what the tile before left, then the copy of the two scratch
    columns to the two statistics buffers. -/
noncomputable def kernelRun0_D (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i)
    (x0 : Vec F S512x512 .bf16) (x1 : Vec F S2560x512 .f32) (x2 : Vec F S512x1 .i32) (xs0 xs1 : Vec F S512x1 .f32) :
    Σ' (L3 : List (View.Piece (Elt F) S512x2560 .f32)) (L4 : List (View.Piece (Elt F) S1x512x1 .f32)) (L5 : List (View.Piece (Elt F) S1x512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.IPieces.lean ====
/-
  What each case of the kernel body leaves in the buffers it stores into, read back as the body's pure functions of
  the blocks it loaded.
-/
import proofs.«402648_j62706522521602_3_alg».proof.Proof.IRuns
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## What the pieces read back as

Every access of the body is through the whole-buffer rectangle at zero offsets: a load reads the buffer's contents, and the
last store into a buffer leaves its payload. So each stored buffer, read back through any view over any prior contents,
holds the body's pure function of the three loaded blocks (and of the scratch columns the case found). -/

theorem hz2 : (![0, 0] : Fin 2 → Nat) = fun _ => 0 := funext fun a => by fin_cases a <;> rfl
theorem hz3 : (![0, 0, 0] : Fin 3 → Nat) = fun _ => 0 := funext fun a => by fin_cases a <;> rfl

/-! ### Case A -/

/-- Case A: the logits buffer holds the tile of logits. -/
theorem pieces_A_3 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : condReset i) (hc2 : condPlain i) (hc3 : ¬condMasked i) (hc4 : ¬condCopy i) (x0 : Vec F S512x512 .bf16) (x1 : Vec F S2560x512 .f32) (x2 : Vec F S512x1 .i32)
    {sig' : RefSig} {κ' : Kind} {sp' : Space} (v : View sig' κ' sp' S512x2560 .f32) (f : v.ty.Contents (Elt F)) :
    v.read (Elt F) (v.writes (Elt F) f (kernelRun0_A c i arg2 harg2 arg3 harg3 arg4 harg4 arg5 harg5 arg6 harg6 arg7 harg7 arg8 harg8 arg9 harg9 hc1 hc2 hc3 hc4 x0 x1 x2).1)
      = tileOf i x1 x0 x2 := by
  rw [View.read_writes_eq_canon _ _ _ (View.cover_of_tiledL _ S512x2560.size (by sl_kernel_rfl))]
  unfold kernelRun0_A; dsimp only; sl_unfold_words
  rw [View.canon_unit_zero (S := S512x2560) hz2]
  unfold tileOf
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case A: the first scratch column holds the new running maximum. -/
theorem pieces_A_S0 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : condReset i) (hc2 : condPlain i) (hc3 : ¬condMasked i) (hc4 : ¬condCopy i) (x0 : Vec F S512x512 .bf16) (x1 : Vec F S2560x512 .f32) (x2 : Vec F S512x1 .i32)
    {sig' : RefSig} {κ' : Kind} {sp' : Space} (v : View sig' κ' sp' S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 hc1 hc2 hc3 hc4 x0 x1 x2).2.1)
      = maxStep i x1 x0 x2 (k0_pay11 (F := F)) := by
  rw [View.read_writes_eq_canon _ _ _ (View.cover_of_tiledL _ S512x1.size (by sl_kernel_rfl))]
  unfold kernelRun0_A; dsimp only; sl_unfold_words
  rw [View.canon_cons_unit_zero (S := S512x1) hz2]
  unfold maxStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case A: the second scratch column holds the new running sum. -/
theorem pieces_A_S1 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : condReset i) (hc2 : condPlain i) (hc3 : ¬condMasked i) (hc4 : ¬condCopy i) (x0 : Vec F S512x512 .bf16) (x1 : Vec F S2560x512 .f32) (x2 : Vec F S512x1 .i32)
    {sig' : RefSig} {κ' : Kind} {sp' : Space} (v : View sig' κ' sp' S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 hc1 hc2 hc3 hc4 x0 x1 x2).2.2.1)
      = sumStep i x1 x0 x2 (k0_pay11 (F := F)) (k0_pay12 (F := F)) := by
  rw [View.read_writes_eq_canon _ _ _ (View.cover_of_tiledL _ S512x1.size (by sl_kernel_rfl))]
  unfold kernelRun0_A; dsimp only; sl_unfold_words
  rw [View.canon_cons_unit_zero (S := S512x1) hz2]
  unfold sumStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-! ### Case B -/

/-- Case B: the logits buffer holds the tile of logits. -/
theorem pieces_B_3 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : ¬condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x2560 .f32) (f : v.ty.Contents (Elt F)) :
    v.read (Elt F) (v.writes (Elt F) f (kernelRun0_B c i arg2 harg2 arg3 harg3 arg4 harg4 arg5 harg5 arg6 harg6 arg7 harg7 arg8 harg8 arg9 harg9 hc1 hc2 hc3 hc4 x0 x1 x2 xs0 xs1).1)
      = tileOf i x1 x0 x2 := by
  rw [View.read_writes_eq_canon _ _ _ (View.cover_of_tiledL _ S512x2560.size (by sl_kernel_rfl))]
  unfold kernelRun0_B; dsimp only; sl_unfold_words
  rw [View.canon_unit_zero (S := S512x2560) hz2]
  unfold tileOf
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case B: the first scratch column holds the new running maximum. -/
theorem pieces_B_S0 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : ¬condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 hc1 hc2 hc3 hc4 x0 x1 x2 xs0 xs1).2.1)
      = maxStep i x1 x0 x2 xs0 := by
  rw [View.read_writes_eq_canon _ _ _ (View.cover_of_tiledL _ S512x1.size (by sl_kernel_rfl))]
  unfold kernelRun0_B; dsimp only; sl_unfold_words
  rw [View.canon_unit_zero (S := S512x1) hz2]
  unfold maxStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case B: the second scratch column holds the new running sum. -/
theorem pieces_B_S1 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : ¬condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 hc1 hc2 hc3 hc4 x0 x1 x2 xs0 xs1).2.2.1)
      = sumStep i x1 x0 x2 xs0 xs1 := by
  rw [View.read_writes_eq_canon _ _ _ (View.cover_of_tiledL _ S512x1.size (by sl_kernel_rfl))]
  unfold kernelRun0_B; dsimp only; sl_unfold_words
  rw [View.canon_unit_zero (S := S512x1) hz2]
  unfold sumStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-! ### Case C -/

/-- Case C: the logits buffer holds the tile of logits. -/
theorem pieces_C_3 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x2560 .f32) (f : v.ty.Contents (Elt F)) :
    v.read (Elt F) (v.writes (Elt F) f (kernelRun0_C c i arg2 harg2 arg3 harg3 arg4 harg4 arg5 harg5 arg6 harg6 arg7 harg7 arg8 harg8 arg9 harg9 hc1 hc2 hc3 hc4 x0 x1 x2 xs0 xs1).1)
      = tileOf i x1 x0 x2 := by
  rw [View.read_writes_eq_canon _ _ _ (View.cover_of_tiledL _ S512x2560.size (by sl_kernel_rfl))]
  unfold kernelRun0_C; dsimp only; sl_unfold_words
  rw [View.canon_unit_zero (S := S512x2560) hz2]
  unfold tileOf
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case C: the first statistics buffer holds the new running maximum. -/
theorem pieces_C_4 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S1x512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc1 hc2 hc3 hc4 x0 x1 x2 xs0 xs1).2.1)
      = k0_pay9 (maxStep i x1 x0 x2 xs0) := by
  rw [View.read_writes_eq_canon _ _ _ (View.cover_of_tiledL _ S1x512x1.size (by sl_kernel_rfl))]
  unfold kernelRun0_C; dsimp only; sl_unfold_words
  rw [View.canon_unit_zero (S := S1x512x1) hz3]
  unfold maxStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case C: the second statistics buffer holds the new running sum. -/
theorem pieces_C_5 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S1x512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc1 hc2 hc3 hc4 x0 x1 x2 xs0 xs1).2.2.1)
      = k0_pay10 (sumStep i x1 x0 x2 xs0 xs1) := by
  rw [View.read_writes_eq_canon _ _ _ (View.cover_of_tiledL _ S1x512x1.size (by sl_kernel_rfl))]
  unfold kernelRun0_C; dsimp only; sl_unfold_words
  rw [View.canon_unit_zero (S := S1x512x1) hz3]
  unfold sumStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case C: the first scratch column holds the new running maximum. -/
theorem pieces_C_S0 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc1 hc2 hc3 hc4 x0 x1 x2 xs0 xs1).2.2.2.1)
      = maxStep i x1 x0 x2 xs0 := by
  rw [View.read_writes_eq_canon _ _ _ (View.cover_of_tiledL _ S512x1.size (by sl_kernel_rfl))]
  unfold kernelRun0_C; dsimp only; sl_unfold_words
  rw [View.canon_unit_zero (S := S512x1) hz2]
  unfold maxStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case C: the second scratch column holds the new running sum. -/
theorem pieces_C_S1 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : condPlain i) (hc3 : ¬condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc1 hc2 hc3 hc4 x0 x1 x2 xs0 xs1).2.2.2.2.1)
      = sumStep i x1 x0 x2 xs0 xs1 := by
  rw [View.read_writes_eq_canon _ _ _ (View.cover_of_tiledL _ S512x1.size (by sl_kernel_rfl))]
  unfold kernelRun0_C; dsimp only; sl_unfold_words
  rw [View.canon_unit_zero (S := S512x1) hz2]
  unfold sumStep
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-! ### Case D -/

/-- Case D: the logits buffer holds the tile of logits. -/
theorem pieces_D_3 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x2560 .f32) (f : v.ty.Contents (Elt F)) :
    v.read (Elt F) (v.writes (Elt F) f (kernelRun0_D c i arg2 harg2 arg3 harg3 arg4 harg4 arg5 harg5 arg6 harg6 arg7 harg7 arg8 harg8 arg9 harg9 hc1 hc2 hc3 hc4 x0 x1 x2 xs0 xs1).1)
      = tileOf i x1 x0 x2 := by
  rw [View.read_writes_eq_canon _ _ _ (View.cover_of_tiledL _ S512x2560.size (by sl_kernel_rfl))]
  unfold kernelRun0_D; dsimp only; sl_unfold_words
  rw [View.canon_unit_zero (S := S512x2560) hz2]
  unfold tileOf
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case D: the first statistics buffer holds the new running maximum. -/
theorem pieces_D_4 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S1x512x1 .f32) (f : v.ty.Contents (Elt F)) :
    v.read (Elt F) (v.writes (Elt F) f (kernelRun0_D c i arg2 harg2 arg3 harg3 arg4 harg4 arg5 harg5 arg6 harg6 arg7 harg7 arg8 harg8 arg9 harg9 hc1 hc2 hc3 hc4 x0 x1 x2 xs0 xs1).2.1)
      = k0_pay9 (maxStepLast i x1 x0 x2 xs0) := by
  rw [View.read_writes_eq_canon _ _ _ (View.cover_of_tiledL _ S1x512x1.size (by sl_kernel_rfl))]
  unfold kernelRun0_D; dsimp only; sl_unfold_words
  rw [View.canon_unit_zero (S := S1x512x1) hz3]
  unfold maxStepLast
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case D: the second statistics buffer holds the new running sum. -/
theorem pieces_D_5 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S1x512x1 .f32) (f : v.ty.Contents (Elt F)) :
    v.read (Elt F) (v.writes (Elt F) f (kernelRun0_D c i arg2 harg2 arg3 harg3 arg4 harg4 arg5 harg5 arg6 harg6 arg7 harg7 arg8 harg8 arg9 harg9 hc1 hc2 hc3 hc4 x0 x1 x2 xs0 xs1).2.2.1)
      = k0_pay10 (sumStepLast i x1 x0 x2 xs0 xs1) := by
  rw [View.read_writes_eq_canon _ _ _ (View.cover_of_tiledL _ S1x512x1.size (by sl_kernel_rfl))]
  unfold kernelRun0_D; dsimp only; sl_unfold_words
  rw [View.canon_unit_zero (S := S1x512x1) hz3]
  unfold sumStepLast
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case D: the first scratch column holds the new running maximum. -/
theorem pieces_D_S0 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x1 .f32) (f : v.ty.Contents (Elt F)) :
    v.read (Elt F) (v.writes (Elt F) f (kernelRun0_D c i arg2 harg2 arg3 harg3 arg4 harg4 arg5 harg5 arg6 harg6 arg7 harg7 arg8 harg8 arg9 harg9 hc1 hc2 hc3 hc4 x0 x1 x2 xs0 xs1).2.2.2.1)
      = maxStepLast i x1 x0 x2 xs0 := by
  rw [View.read_writes_eq_canon _ _ _ (View.cover_of_tiledL _ S512x1.size (by sl_kernel_rfl))]
  unfold kernelRun0_D; dsimp only; sl_unfold_words
  rw [View.canon_unit_zero (S := S512x1) hz2]
  unfold maxStepLast
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

/-- Case D: the second scratch column holds the new running sum. -/
theorem pieces_D_S1 (c : Dev nD) (i : grid0.Coords) (arg2 : Memref sig .tc .vmem S512x512 .bf16) (harg2 : arg2.IsWhole) (arg3 : Memref sig .tc .vmem S2560x512 .f32) (harg3 : arg3.IsWhole) (arg4 : Memref sig .tc .vmem S512x1 .i32) (harg4 : arg4.IsWhole) (arg5 : Memref sig .tc .vmem S512x2560 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole)
    (hc1 : ¬condReset i) (hc2 : ¬condPlain i) (hc3 : condMasked i) (hc4 : condCopy i) (x0 : Vec F S512x512 .bf16) (x1 : Vec F S2560x512 .f32) (x2 : Vec F S512x1 .i32) (xs0 xs1 : Vec F S512x1 .f32)
    {sig' : RefSig} {κ' : Kind} {sp' : Space} (v : View sig' κ' sp' S512x1 .f32) (f : v.ty.Contents (Elt F)) :
    v.read (Elt F) (v.writes (Elt F) f (kernelRun0_D c i arg2 harg2 arg3 harg3 arg4 harg4 arg5 harg5 arg6 harg6 arg7 harg7 arg8 harg8 arg9 harg9 hc1 hc2 hc3 hc4 x0 x1 x2 xs0 xs1).2.2.2.2.1)
      = sumStepLast i x1 x0 x2 xs0 xs1 := by
  rw [View.read_writes_eq_canon _ _ _ (View.cover_of_tiledL _ S512x1.size (by sl_kernel_rfl))]
  unfold kernelRun0_D; dsimp only; sl_unfold_words
  rw [View.canon_unit_zero (S := S512x1) hz2]
  unfold sumStepLast
  simp only [View.readAt_eq_ld, harg2.read_unread, harg3.read_unread, harg4.read_unread, harg8.read_unread, harg9.read_unread,
    View.ld_unit_zero (S := S512x512) hz2, View.ld_unit_zero (S := S2560x512) hz2, View.ld_unit_zero (S := S512x1) hz2,
    View.readCov_unit_zero (S := S512x1) _ hz2]
  try rfl

end Cert.KernelIdeal.Hand

end
-- ==== Proof.Spec.lean ====
/-
  The mathematics both programs compute, stated once over the extended reals.

  Inputs: embeddings `x` (512 rows of 512), class weights `w` (100000 rows of 512), labels `lab` (512 words).
  Each row is scaled by `1 / max (‖row‖, ε)` (ε the reference's f32 word for 1e-12), `cosv b j` is the inner product of the
  scaled embedding row `b` with the scaled weight row `j`, the labelled column receives the additive angular margin
  (`margin`), and every entry is multiplied by the scale 30: that is `outv`, the logits both programs return.
  The loss is the mean over the rows of `logsumexp (row) - row[label]`; a row whose label is outside `[-100000, 100000)`
  reads the gather's fill value, which the extended reals render as `⊥`.
  Float literals stay as the words the programs print: the same word on both sides is never evaluated.
-/
import Idealize.ShloMosaic.PureOps.Ideal

noncomputable section

namespace Cert.Arc

open Idealize.ShloMosaic

/-- An f32 word read at the ideal instance. -/
abbrev lit (b : BitVec 32) : EReal := Ideal.ofBits .f32 b

/-- The reference's ε: the f32 word nearest 1e-12. -/
abbrev epsRef : EReal := lit 0x2B8CBCCC#32

/-- A row's sum of squares, as a sum started at the zero word. -/
def ssq (v : Fin 512 → EReal) : EReal := lit 0x00000000#32 + ∑ k : Fin 512, v k * v k

/-- The row's length, kept away from zero by ε. -/
def nrm (v : Fin 512 → EReal) : EReal := max (Ideal.sqrt (ssq v)) epsRef

/-- The row scaled to length one (or shorter, for a row shorter than ε). -/
def unitRow (v : Fin 512 → EReal) (k : Fin 512) : EReal := Ideal.div (v k) (nrm v)

/-- The cosine of embedding row `b` against class row `j`. -/
def cosv (x : Fin 512 → Fin 512 → EReal) (w : Fin 100000 → Fin 512 → EReal) (b : Fin 512) (j : Fin 100000) : EReal :=
  ∑ k : Fin 512, unitRow (x b) k * unitRow (w j) k

/-- The additive angular margin on a cosine `c`: `cos (θ + m)` written through `c` and `sin θ = √(max 0 (1 - c²))` where
    `θ + m` is still below π (`c` above the threshold word), and the linear fallback `c - mm` elsewhere. -/
def margin (c : EReal) : EReal :=
  if lit 0xBF60A940#32 < c then
    c * lit 0x3F60A940#32 - Ideal.sqrt (max (lit 0x00000000#32) (lit 0x3F800000#32 - c * c)) * lit 0x3EF57744#32
  else c - lit 0x3E757744#32

/-- Column `j` is row `b`'s labelled class. -/
def isLabel (lab : Fin 512 → BitVec 32) (b : Fin 512) (j : Fin 100000) : Prop := lab b = BitVec.ofNat 32 j.val

instance (lab : Fin 512 → BitVec 32) (b : Fin 512) (j : Fin 100000) : Decidable (isLabel lab b j) := by
  unfold isLabel; infer_instance

/-- The logits: the margin on the labelled column, the plain cosine elsewhere, times the scale 30. -/
def outv (x : Fin 512 → Fin 512 → EReal) (lab : Fin 512 → BitVec 32) (w : Fin 100000 → Fin 512 → EReal)
    (b : Fin 512) (j : Fin 100000) : EReal :=
  (if isLabel lab b j then margin (cosv x w b j) else cosv x w b j) * lit 0x41F00000#32

/-- The class columns of half `h` of the class axis (two halves of 51200 = 20 · 2560 columns; the second holds the last 48800). -/
def halfCols (h : Fin 2) : Finset (Fin 100000) := Finset.univ.filter fun j => j.val / 51200 = h.val

/-- The largest logit of row `b` among half `h`'s columns. -/
def halfMax (o : Fin 512 → Fin 100000 → EReal) (h : Fin 2) (b : Fin 512) : EReal := (halfCols h).sup (o b)

/-- The sum over half `h`'s columns of `exp (logit - that half's largest)`. -/
def halfSum (o : Fin 512 → Fin 100000 → EReal) (h : Fin 2) (b : Fin 512) : EReal :=
  ∑ j ∈ halfCols h, Ideal.exp (o b j - halfMax o h b)

/-- The index the gather reads in row `b`: the label, a negative one counted from the end of the class axis. -/
def pick (lab : Fin 512 → BitVec 32) (b : Fin 512) : BitVec 32 :=
  if (lab b).slt 0#32 then lab b + 100000#32 else lab b

/-- That index is inside the class axis. -/
def pickOk (lab : Fin 512 → BitVec 32) (b : Fin 512) : Prop := (0#32).sle (pick lab b) ∧ (pick lab b).sle 99999#32

instance (lab : Fin 512 → BitVec 32) (b : Fin 512) : Decidable (pickOk lab b) := by unfold pickOk; infer_instance

/-! ## The loss, in the two forms the programs compute it -/

/-- Row `b`'s log-sum-exp as assembled from the two halves' statistics: the larger of the two maxima plus the log of the
    two rescaled sums. -/
def lseHalves (o : Fin 512 → Fin 100000 → EReal) (b : Fin 512) : EReal :=
  max (halfMax o 0 b) (halfMax o 1 b)
    + Ideal.log (Ideal.exp (halfMax o 0 b - max (halfMax o 0 b) (halfMax o 1 b)) * halfSum o 0 b
        + Ideal.exp (halfMax o 1 b - max (halfMax o 0 b) (halfMax o 1 b)) * halfSum o 1 b)

/-- Row `b`'s largest logit over the whole class axis, the maximum started at `-∞`. -/
def rowMax (o : Fin 512 → Fin 100000 → EReal) (b : Fin 512) : EReal :=
  max (lit 0xFF800000#32) (Finset.univ.sup (o b))

/-- The log of the row's sum of `exp (logit - rowMax)`, the sum started at the zero word. -/
def lseShift (o : Fin 512 → Fin 100000 → EReal) (b : Fin 512) : EReal :=
  Ideal.log (lit 0x00000000#32 + ∑ j : Fin 100000, Ideal.exp (o b j - rowMax o b))

/-- The picked index as a column: its value below 100000 whenever `pickOk` holds. -/
def pickIdx (lab : Fin 512 → BitVec 32) (b : Fin 512) : Fin 100000 := ⟨(pick lab b).toNat % 100000, Nat.mod_lt _ (by decide)⟩

/-- Row `b`'s target logit: the logit at the picked column, or the gather's fill word outside the class axis. -/
def tgt (o : Fin 512 → Fin 100000 → EReal) (lab : Fin 512 → BitVec 32) (b : Fin 512) : EReal :=
  if pickOk lab b then o b (pickIdx lab b) else lit 0x7FC00000#32

/-- Row `b`'s target log-probability, shifted as the reference's log-softmax shifts it. -/
def tgtLogp (o : Fin 512 → Fin 100000 → EReal) (lab : Fin 512 → BitVec 32) (b : Fin 512) : EReal :=
  if pickOk lab b then (o b (pickIdx lab b) - rowMax o b) - lseShift o b else lit 0x7FC00000#32

/-- The loss as the kernel's program assembles it: the mean of `lseHalves - target logit`. -/
def lossHalves (o : Fin 512 → Fin 100000 → EReal) (lab : Fin 512 → BitVec 32) : EReal :=
  Ideal.div (lit 0x00000000#32 + ∑ b : Fin 512, (lseHalves o b - tgt o lab b)) (lit 0x44000000#32)

/-- The loss as the reference assembles it: minus the mean of the target log-probabilities. -/
def lossShift (o : Fin 512 → Fin 100000 → EReal) (lab : Fin 512 → BitVec 32) : EReal :=
  -(Ideal.div (lit 0x00000000#32 + ∑ b : Fin 512, tgtLogp o lab b) (lit 0x44000000#32))

/-- The kernel's ε²: the value its squared-norm floor denotes, the square of the reference's ε. -/
abbrev epsSq : EReal := ((5316911940649 / 5316911983139663491615228241121378304 : ℝ) : EReal)

/-- An array of rank 2 read as rows. -/
abbrev rows {α : Type} {n0 n1 : Nat} (f : (⟨2, ![n0, n1]⟩ : Shape).Idx → α) (a : Fin n0) (k : Fin n1) : α :=
  f (fun d => match d with | ⟨0, _⟩ => a | ⟨1, _⟩ => k)

/-- An array of rank 1 read by its one coordinate. -/
abbrev row1 {α : Type} {n : Nat} (f : (⟨1, ![n]⟩ : Shape).Idx → α) (a : Fin n) : α :=
  f (fun d => match d with | ⟨0, _⟩ => a)

end Cert.Arc

end
-- ==== Proof.TileValue.lean ====
/-
  The body's payloads read at an index, at the ideal values, for arbitrary contents of the three buffers.

  The tile of logits at (b, jj) is the cosine of embedding row b against row jj of the weights buffer, each weights row
  scaled by the reciprocal square root of its squared length floored at ε², with the additive angular margin on the lane
  whose class column is row b's label, times the scale. The target cosine the margin is computed from is a sum over the
  tile's lanes of which at most one term is not the exact zero (the lanes' column words are pairwise different), so on the
  label's lane it is that lane's cosine, whatever the contents. The running maximum and running sum after a tile are the
  online-softmax updates over the tile's lanes; at the last tile the lanes past the class axis' end read the fill value.
  From these readings: at a point that is not the last the weights buffer does not depend on what it held past the array's
  end, and at the last point neither the part of the logits tile that is written back nor the masked updates do.
-/
import proofs.«402648_j62706522521602_3_alg».proof.Proof.IData
import proofs.«402648_j62706522521602_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe
open Idealize.SL.Sem
open Cert.Arc

/-- The class column that lane jj of the tile at grid coordinates i holds. -/
def colOf (i : grid0.Coords) (jj : Fin 2560) : ℕ := 2560 * (20 * (i 0).val + (i 1).val) + jj.val

/-- Row jj of weights buffer W scaled by the reciprocal square root of its squared length floored at ε². -/
def wUnit (W : Vec Ideal S2560x512 .f32) (jj : Fin 2560) (k : Fin 512) : EReal :=
  rows W jj k * Ideal.rsqrt (max (ssq (rows W jj)) epsSq)

/-- The tile's cosine of embedding row b against buffer row jj. -/
def cosT (W : Vec Ideal S2560x512 .f32) (X : Vec Ideal S512x512 .bf16) (b : Fin 512) (jj : Fin 2560) : EReal :=
  ∑ k : Fin 512, rows X b k * wUnit W jj k

/-- The tile's logit at (b, jj): the margin where the label is this lane's column, times the scale. -/
def tileAt (i : grid0.Coords) (W : Vec Ideal S2560x512 .f32) (X : Vec Ideal S512x512 .bf16) (L : Vec Ideal S512x1 .i32)
    (b : Fin 512) (jj : Fin 2560) : EReal :=
  (if rows L b 0 = BitVec.ofNat 32 (colOf i jj) then margin (cosT W X b jj) else cosT W X b jj) * lit 0x41F00000#32

/-- The same with the lanes past the class axis' end at the fill value. -/
def tileMasked (i : grid0.Coords) (W : Vec Ideal S2560x512 .f32) (X : Vec Ideal S512x512 .bf16) (L : Vec Ideal S512x1 .i32)
    (b : Fin 512) (jj : Fin 2560) : EReal :=
  if colOf i jj < 100000 then tileAt i W X L b jj else ⊥

namespace TV

/-! ## Layout operations and lane reductions read at coordinates -/

section Layout
variable {α : Type}

/-- A rank-2 array read as rows is the array at the index of those coordinates. -/
theorem rows_ix2 {n0 n1 : ℕ} (f : (⟨2, ![n0, n1]⟩ : Shape).Idx → α) (a : Fin n0) (k : Fin n1) :
    rows f a k = f (ValueIdx.ix2 a k) :=
  congrArg f (funext fun d => by match d with | ⟨0, _⟩ => rfl | ⟨1, _⟩ => rfl)

/-- A vector `[a]` cast to the column `[a, 1]` reads, at `(p, z)`, the operand at `p`. -/
theorem shapeCast_col_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ValueIdx.ix2 p z) = x (ValueIdx.ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-- The sum along the lanes of a rank-2 array, at row `p`: the sum over the lane coordinate. -/
theorem laneSum_apply {a n : ℕ} (src : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ValueIdx.ix1 p) = ∑ k : Fin n, src (ValueIdx.ix2 p k) := by
  refine (Ideal.multiReduction_add_single src 0x00000000#32 h hφ hacc (ValueIdx.ix1 p)).trans ?_
  refine Finset.sum_congr rfl fun k _ => congrArg src (funext fun d => Fin.ext ?_)
  match d with
  | ⟨0, _⟩ => rfl
  | ⟨1, _⟩ => rfl

/-- The word of `-∞` is the bottom of the extended reals. -/
theorem ofBits_negInf : Ideal.ofBits .f32 0xFF800000#32 = ⊥ := by simp [Ideal.ofBits, Ideal.ieee]

/-- The maximum along the lanes of a rank-2 array started at `-∞`, at row `p`: the supremum over the lane coordinate. -/
theorem laneMax_apply {a n : ℕ} (src : FVec Ideal ⟨2, ![a, n]⟩ .f32) (h : (⟨2, ![a, n]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ValueIdx.ix1 p)
      = Finset.univ.sup fun k : Fin n => src (ValueIdx.ix2 p k) := by
  refine (Ideal.multiReduction_maximumf_single src 0xFF800000#32 h hφ hacc (ValueIdx.ix1 p)).trans ?_
  have e : (src ∘ h.lift (ValueIdx.ix1 p)) = fun k : Fin n => src (ValueIdx.ix2 p k) :=
    funext fun k => congrArg src (funext fun d => Fin.ext (by
      match d with
      | ⟨0, _⟩ => rfl
      | ⟨1, _⟩ => rfl))
  rw [e]
  show Finset.fold max (Ideal.ofBits .f32 0xFF800000#32) _ _ = _
  rw [ofBits_negInf]
  rfl

/-! ## The cosines: the product of the embeddings with the scaled weights -/

theorem lhs_cos_0 (i : S512x2560.Idx) (q : dot_S512x512_S2560x512_S512x2560_1_1_0_0_n_n.contr.Idx) :
    (dot_S512x512_S2560x512_S512x2560_1_1_0_0_n_n.lhsIdx i q 0).val = (i 0).val := by
  unfold DotDims.lhsIdx
  rw [dif_neg (show ¬(0 : Fin S512x512.rank) ∈ dot_S512x512_S2560x512_S512x2560_1_1_0_0_n_n.lhsBatch by decide), dif_pos (show (0 : Fin S512x512.rank) ∈ dot_S512x512_S2560x512_S512x2560_1_1_0_0_n_n.lhsNonContracting by decide)]
  rfl
theorem lhs_cos_1 (i : S512x2560.Idx) (q : dot_S512x512_S2560x512_S512x2560_1_1_0_0_n_n.contr.Idx) :
    (dot_S512x512_S2560x512_S512x2560_1_1_0_0_n_n.lhsIdx i q 1).val = (q ⟨0, by decide⟩).val :=
  dot_S512x512_S2560x512_S512x2560_1_1_0_0_n_n.lhsIdx_val_of_single rfl i q
theorem rhs_cos_0 (i : S512x2560.Idx) (q : dot_S512x512_S2560x512_S512x2560_1_1_0_0_n_n.contr.Idx) :
    (dot_S512x512_S2560x512_S512x2560_1_1_0_0_n_n.rhsIdx i q 0).val = (i 1).val := by
  unfold DotDims.rhsIdx
  rw [dif_neg (show ¬(0 : Fin S2560x512.rank) ∈ dot_S512x512_S2560x512_S512x2560_1_1_0_0_n_n.rhsBatch by decide), dif_pos (show (0 : Fin S2560x512.rank) ∈ dot_S512x512_S2560x512_S512x2560_1_1_0_0_n_n.rhsNonContracting by decide)]
  rfl
theorem rhs_cos_1 (i : S512x2560.Idx) (q : dot_S512x512_S2560x512_S512x2560_1_1_0_0_n_n.contr.Idx) :
    (dot_S512x512_S2560x512_S512x2560_1_1_0_0_n_n.rhsIdx i q 1).val = (q ⟨0, by decide⟩).val :=
  dot_S512x512_S2560x512_S512x2560_1_1_0_0_n_n.rhsIdx_val_of_single rfl i q

/-- The kernel's ε² is the squared-norm floor of the specification. -/
theorem epsSq_named : Named.named (F := Ideal) κ "eps_sq" (φ := .f32) 0x179ABE15#32 = epsSq :=
  IdealRules.named_const.ideal_named_scalar _ _ _ _ rfl

/-- The kernel's fill value is the bottom of the extended reals. -/
theorem negFill_named : Named.named (F := Ideal) κ "neg_fill" (φ := .f32) 0xFF333332#32 = (⊥ : EReal) :=
  IdealRules.named_const.ideal_named_scalar _ _ _ _ rfl

/-- The zero word is the extended real zero. -/
theorem lit_zero : lit 0x00000000#32 = 0 := Ideal.ofBits_zero_f32

/-- The scaled weights at (jj, k). -/
theorem wScaled_apply (W : Vec Ideal S2560x512 .f32) (jj : Fin 2560) (k : Fin 512) :
    (mulf (F := Ideal) W (broadcastTo S2560x512 (rsqrt (maximumf (shapeCast S2560x1 (multiReduction .add [1] S2560 (mulf (F := Ideal) W W) 0x00000000#32 reduces_S2560x512_S2560 (.inl rfl) rfl) shapeCasts_S2560_S2560x1) (broadcast S2560x1 (Named.named κ "eps_sq" 0x179ABE15#32)))) broadcasts_S2560x1_S2560x512)) (ValueIdx.ix2 jj k)
      = wUnit W jj k := by
  show W (ValueIdx.ix2 jj k) * _ = _
  unfold wUnit
  rw [rows_ix2]
  refine congrArg (W (ValueIdx.ix2 jj k) * ·) ?_
  refine (broadcastTo_col_apply _ broadcasts_S2560x1_S2560x512 jj k).trans ?_
  show Ideal.rsqrt (max (shapeCast S2560x1 _ shapeCasts_S2560_S2560x1 (ValueIdx.ix2 jj (0 : Fin 1))) (Named.named (F := Ideal) κ "eps_sq" (φ := .f32) 0x179ABE15#32)) = _
  rw [epsSq_named]
  refine congrArg (fun z => Ideal.rsqrt (max z epsSq)) ?_
  refine (shapeCast_col_apply _ shapeCasts_S2560_S2560x1 jj (0 : Fin 1)).trans ?_
  refine (laneSum_apply _ reduces_S2560x512_S2560 (.inl rfl) rfl jj).trans ?_
  unfold ssq
  rw [lit_zero, zero_add]
  refine Finset.sum_congr rfl fun k' _ => ?_
  show W (ValueIdx.ix2 jj k') * W (ValueIdx.ix2 jj k') = _
  rw [rows_ix2]

/-- The cosines' block at (b, jj). -/
theorem cos_apply (W : Vec Ideal S2560x512 .f32) (X : Vec Ideal S512x512 .bf16) (b : Fin 512) (jj : Fin 2560) :
    k0_pay13 (F := Ideal) W X (ValueIdx.ix2 b jj) = cosT W X b jj := by
  unfold k0_pay13
  refine (Ideal.matmul_constant_zero_apply dot_S512x512_S2560x512_S512x2560_1_1_0_0_n_n none _ _ (ValueIdx.ix2 b jj)).trans ?_
  rw [← Equiv.sum_comp (ValueIdx.contrEquiv1 dot_S512x512_S2560x512_S512x2560_1_1_0_0_n_n 512 rfl rfl).symm]
  unfold cosT
  refine Finset.sum_congr rfl fun k _ => ?_
  have hk := ValueIdx.contrEquiv1_symm_val dot_S512x512_S2560x512_S512x2560_1_1_0_0_n_n 512 rfl rfl k
  have el : dot_S512x512_S2560x512_S512x2560_1_1_0_0_n_n.lhsIdx (ValueIdx.ix2 b jj) ((ValueIdx.contrEquiv1 dot_S512x512_S2560x512_S512x2560_1_1_0_0_n_n 512 rfl rfl).symm k) = ValueIdx.ix2 b k := funext fun a => Fin.ext (by
    match a with
    | ⟨0, _⟩ => exact lhs_cos_0 _ _
    | ⟨1, _⟩ => exact (lhs_cos_1 _ _).trans hk)
  have er : dot_S512x512_S2560x512_S512x2560_1_1_0_0_n_n.rhsIdx (ValueIdx.ix2 b jj) ((ValueIdx.contrEquiv1 dot_S512x512_S2560x512_S512x2560_1_1_0_0_n_n 512 rfl rfl).symm k) = ValueIdx.ix2 jj k := funext fun a => Fin.ext (by
    match a with
    | ⟨0, _⟩ => exact rhs_cos_0 _ _
    | ⟨1, _⟩ => exact (rhs_cos_1 _ _).trans hk)
  rw [el, er, shapeCast_self, rows_ix2]
  refine congrArg (X (ValueIdx.ix2 b k) * ·) ?_
  exact wScaled_apply W jj k

/-! ## The lanes' column words, and the target cosine on the label's lane -/

theorem colOf_lt (i : grid0.Coords) (jj : Fin 2560) : colOf i jj < 102400 := by
  unfold colOf
  have h0 : (i 0).val < 2 := (i 0).isLt
  have h1 : (i 1).val < 20 := (i 1).isLt
  have := jj.isLt
  omega

/-- The lane's class column as a 32-bit word. -/
theorem colWord_apply (i : grid0.Coords) (b : Fin 512) (jj : Fin 2560) :
    k0_pay14 i (ValueIdx.ix2 b jj) = BitVec.ofNat 32 (colOf i jj) := by
  unfold k0_pay14
  show IntOp.addi (iota .tc S512x2560 32 [1] iota_S512x2560_d1_w32 (ValueIdx.ix2 b jj))
      (Scalar.muli (Scalar.addi (Scalar.muli (BitVec.ofNat 32 (i 0).val) 20#32) (BitVec.ofNat 32 (i 1).val)) 2560#32) = _
  rw [iota_single_apply]
  show BitVec.ofNat 32 jj.val + (BitVec.ofNat 32 (i 0).val * 20#32 + BitVec.ofNat 32 (i 1).val) * 2560#32 = _
  unfold colOf
  rw [BitVec.ofNat_add, BitVec.ofNat_mul, BitVec.ofNat_add, BitVec.ofNat_mul]
  rw [BitVec.add_comm (BitVec.ofNat 32 jj.val), BitVec.mul_comm 2560#32, BitVec.mul_comm 20#32]

/-- Different lanes hold different column words. -/
theorem colWord_inj (i : grid0.Coords) (jj jj' : Fin 2560)
    (h : BitVec.ofNat 32 (colOf i jj) = BitVec.ofNat 32 (colOf i jj')) : jj = jj' := by
  have h1 := colOf_lt i jj
  have h2 := colOf_lt i jj'
  have h3 := congrArg BitVec.toNat h
  simp only [BitVec.toNat_ofNat] at h3
  rw [Nat.mod_eq_of_lt (by omega), Nat.mod_eq_of_lt (by omega)] at h3
  unfold colOf at h3
  exact Fin.ext (by omega)

/-- A select on an equality of words is the `if` on it. -/
theorem select_cmpi_eq {α : Type} (x y : BitVec 32) (a b : α) :
    Scalar.select (IntOp.cmpi .eq x y) a b = if x = y then a else b := by
  by_cases h : x = y
  · subst h
    simp [Scalar.select, IntOp.cmpi]
  · have hb : (x == y) = false := beq_eq_false_iff_ne.mpr h
    simp [Scalar.select, IntOp.cmpi, hb, h]

/-- A select on "greater than" of extended reals is the `if` on it. -/
theorem select_cmpf_ogt {α : Type} (x y : EReal) (a b : α) :
    Scalar.select (FloatOps.cmpf (F := Ideal) (φ := .f32) .ogt x y) a b = if y < x then a else b := by
  show Scalar.select (Ideal.cmp .ogt x y) a b = _
  unfold Scalar.select Ideal.cmp
  by_cases h : y < x
  · simp [h]
  · simp [h]

/-- The lane's mask bit: the lane's column word against row b's label. -/
theorem onLabel_apply (i : grid0.Coords) (L : Vec Ideal S512x1 .i32) (b : Fin 512) (jj : Fin 2560) :
    k0_pay15 (F := Ideal) i L (ValueIdx.ix2 b jj) = IntOp.cmpi .eq (BitVec.ofNat 32 (colOf i jj)) (L (ValueIdx.ix2 b 0)) := by
  unfold k0_pay15
  show IntOp.cmpi .eq (k0_pay14 i (ValueIdx.ix2 b jj))
      (broadcastTo S512x2560 (shapeCast S512x1 L shapeCasts_S512x1_S512x1) broadcasts_S512x1_S512x2560 (ValueIdx.ix2 b jj)) = _
  rw [colWord_apply, shapeCast_self, broadcastTo_col_apply]

/-- The target cosine of row b: the sum over the lanes of the cosine where the lane's column is the label, the exact zero
    elsewhere. -/
theorem tcos_apply (i : grid0.Coords) (W : Vec Ideal S2560x512 .f32) (X : Vec Ideal S512x512 .bf16) (L : Vec Ideal S512x1 .i32)
    (b : Fin 512) :
    k0_pay16 (F := Ideal) i W X L (ValueIdx.ix2 b 0)
      = ∑ jj : Fin 2560, if BitVec.ofNat 32 (colOf i jj) = L (ValueIdx.ix2 b 0) then cosT W X b jj else 0 := by
  unfold k0_pay16
  refine (shapeCast_col_apply _ shapeCasts_S512_S512x1 b 0).trans ?_
  refine (laneSum_apply _ reduces_S512x2560_S512 (.inl rfl) rfl b).trans ?_
  refine Finset.sum_congr rfl fun jj _ => ?_
  show Scalar.select (k0_pay15 (F := Ideal) i L (ValueIdx.ix2 b jj)) (k0_pay13 (F := Ideal) W X (ValueIdx.ix2 b jj))
      (Ideal.ofBits .f32 0x00000000#32) = _
  rw [onLabel_apply, cos_apply, select_cmpi_eq, Ideal.ofBits_zero_f32]

/-- On the label's lane the target cosine is that lane's cosine: the other lanes add the exact zero. -/
theorem tcos_of_label (i : grid0.Coords) (W : Vec Ideal S2560x512 .f32) (X : Vec Ideal S512x512 .bf16) (L : Vec Ideal S512x1 .i32)
    (b : Fin 512) (jj : Fin 2560) (h : L (ValueIdx.ix2 b 0) = BitVec.ofNat 32 (colOf i jj)) :
    k0_pay16 (F := Ideal) i W X L (ValueIdx.ix2 b 0) = cosT W X b jj := by
  rw [tcos_apply, Finset.sum_eq_single jj]
  · rw [if_pos h.symm]
  · intro jj' _ hne
    rw [if_neg]
    intro h'
    exact hne (colWord_inj i jj' jj (h'.trans h))
  · intro hn
    exact absurd (Finset.mem_univ jj) hn

/-! ## The tile of logits -/

/-- A square root at an index is the square root of the element. -/
theorem sqrt_apply {s : Shape} {φ : FTy} (a : FVec Ideal s φ) (i : s.Idx) : sqrt a i = Ideal.sqrt (a i) := rfl

/-- The sine factor of row b's target angle. -/
theorem sinT_apply (i : grid0.Coords) (W : Vec Ideal S2560x512 .f32) (X : Vec Ideal S512x512 .bf16) (L : Vec Ideal S512x1 .i32)
    (b : Fin 512) :
    k0_pay17 (F := Ideal) i W X L (ValueIdx.ix2 b 0)
      = Ideal.sqrt (max (lit 0x00000000#32) (lit 0x3F800000#32
          - k0_pay16 (F := Ideal) i W X L (ValueIdx.ix2 b 0) * k0_pay16 (F := Ideal) i W X L (ValueIdx.ix2 b 0))) := by
  unfold k0_pay17
  refine (sqrt_apply _ _).trans (congrArg Ideal.sqrt ?_)
  refine (ValueIdx.maximumf_apply _ _ _).trans (congrArg (max (lit 0x00000000#32)) ?_)
  exact ValueIdx.subf_apply _ _ _

/-- The cosine factor of row b's target angle. -/
theorem cosM_apply (i : grid0.Coords) (W : Vec Ideal S2560x512 .f32) (X : Vec Ideal S512x512 .bf16) (L : Vec Ideal S512x1 .i32)
    (b : Fin 512) :
    k0_pay18 (F := Ideal) i W X L (ValueIdx.ix2 b 0) = k0_pay16 (F := Ideal) i W X L (ValueIdx.ix2 b 0) * lit 0x3F60A940#32 := rfl

/-- The stored tile at (b, jj), over whatever the mask, the cosines and the row's three margin factors are. -/
theorem pay1_apply (v15 : FVec Ideal S512x2560 .f32) (v25 : IVec S512x2560 1) (v29 v35 v37 : FVec Ideal S512x1 .f32) (s : Ideal .f32)
    (b : Fin 512) (jj : Fin 2560) :
    k0_pay1 (F := Ideal) v15 v25 v29 v35 v37 s (ValueIdx.ix2 b jj)
      = Scalar.select (v25 (ValueIdx.ix2 b jj))
          (Scalar.select (FloatOps.cmpf (F := Ideal) (φ := .f32) .ogt (v29 (ValueIdx.ix2 b 0)) (lit 0xBF60A940#32))
            (v37 (ValueIdx.ix2 b 0) - v35 (ValueIdx.ix2 b 0) * s) (v29 (ValueIdx.ix2 b 0) - lit 0x3E757744#32))
          (v15 (ValueIdx.ix2 b jj)) * lit 0x41F00000#32 := by
  unfold k0_pay1
  show Scalar.select (v25 (ValueIdx.ix2 b jj))
      (broadcastTo S512x2560 (shapeCast S512x1 _ shapeCasts_S512x1_S512x1) broadcasts_S512x1_S512x2560 (ValueIdx.ix2 b jj))
      (v15 (ValueIdx.ix2 b jj)) * lit 0x41F00000#32 = _
  rw [shapeCast_self, broadcastTo_col_apply]
  rfl

end TV

open TV

theorem tileOf_apply (i : grid0.Coords) (W : Vec Ideal S2560x512 .f32) (X : Vec Ideal S512x512 .bf16) (L : Vec Ideal S512x1 .i32)
    (b : Fin 512) (jj : Fin 2560) :
    tileOf (F := Ideal) i W X L (ValueIdx.ix2 b jj) = tileAt i W X L b jj := by
  unfold tileOf tileAt
  rw [pay1_apply, onLabel_apply, select_cmpi_eq, cos_apply, rows_ix2]
  refine congrArg (· * lit 0x41F00000#32) ?_
  by_cases h : L (ValueIdx.ix2 b 0) = BitVec.ofNat 32 (colOf i jj)
  · rw [if_pos h.symm, if_pos h, cosM_apply, sinT_apply, tcos_of_label i W X L b jj h, select_cmpf_ogt]
    rfl
  · rw [if_neg (fun h' => h h'.symm), if_neg h]

namespace TV

/-! ## The running maximum and running sum after an ordinary tile -/

/-- An exponential at an index is the exponential of the element. -/
theorem exp_apply {s : Shape} {φ : FTy} (a : FVec Ideal s φ) (i : s.Idx) : exp a i = Ideal.exp (a i) := rfl

/-- The running maximum over whatever the tile's inputs are: the maximum before against the tile's row maximum. -/
theorem pay2_apply (v15 : FVec Ideal S512x2560 .f32) (v25 : IVec S512x2560 1) (v29 v35 v37 : FVec Ideal S512x1 .f32) (s : Ideal .f32)
    (M : Vec Ideal S512x1 .f32) (b : Fin 512) :
    k0_pay2 (F := Ideal) v15 v25 v29 v35 v37 s M (ValueIdx.ix2 b 0)
      = max (M (ValueIdx.ix2 b 0)) (Finset.univ.sup fun jj : Fin 2560 => k0_pay1 (F := Ideal) v15 v25 v29 v35 v37 s (ValueIdx.ix2 b jj)) := by
  unfold k0_pay2
  refine (ValueIdx.maximumf_apply _ _ _).trans ?_
  refine congrArg (max (M (ValueIdx.ix2 b 0))) ?_
  refine (shapeCast_col_apply _ shapeCasts_S512_S512x1 b 0).trans ?_
  exact laneMax_apply _ reduces_S512x2560_S512 (.inl rfl) rfl b

/-- The running sum over whatever the tile's inputs are: the sum before rescaled to the new maximum, plus the tile's row sum
    of exponentials. -/
theorem pay4_apply (v15 : FVec Ideal S512x2560 .f32) (v25 : IVec S512x2560 1) (v29 v35 v37 : FVec Ideal S512x1 .f32) (s : Ideal .f32)
    (M M' S : Vec Ideal S512x1 .f32) (b : Fin 512) :
    k0_pay4 (F := Ideal) v15 v25 v29 v35 v37 s M M' S (ValueIdx.ix2 b 0)
      = Ideal.exp (M' (ValueIdx.ix2 b 0) - k0_pay2 (F := Ideal) v15 v25 v29 v35 v37 s M (ValueIdx.ix2 b 0)) * S (ValueIdx.ix2 b 0)
        + ∑ jj : Fin 2560, Ideal.exp (k0_pay1 (F := Ideal) v15 v25 v29 v35 v37 s (ValueIdx.ix2 b jj)
            - k0_pay2 (F := Ideal) v15 v25 v29 v35 v37 s M (ValueIdx.ix2 b 0)) := by
  unfold k0_pay4
  rw [shapeCast_self]
  refine (ValueIdx.addf_apply _ _ _).trans ?_
  refine congrArg₂ (· + ·) ?_ ?_
  · refine (ValueIdx.mulf_apply _ _ _).trans ?_
    refine congrArg (· * S (ValueIdx.ix2 b 0)) ?_
    refine (exp_apply _ _).trans ?_
    exact congrArg Ideal.exp (ValueIdx.subf_apply _ _ _)
  · refine (shapeCast_col_apply _ shapeCasts_S512_S512x1 b 0).trans ?_
    refine (laneSum_apply _ reduces_S512x2560_S512 (.inl rfl) rfl b).trans ?_
    refine Finset.sum_congr rfl fun jj _ => ?_
    refine (exp_apply _ _).trans ?_
    refine congrArg Ideal.exp ?_
    refine (ValueIdx.subf_apply _ _ _).trans ?_
    exact congrArg (k0_pay1 (F := Ideal) v15 v25 v29 v35 v37 s (ValueIdx.ix2 b jj) - ·)
      (broadcastTo_col_apply _ broadcasts_S512x1_S512x2560 b jj)

end TV

theorem maxStep_apply (i : grid0.Coords) (W : Vec Ideal S2560x512 .f32) (X : Vec Ideal S512x512 .bf16) (L : Vec Ideal S512x1 .i32)
    (M : Vec Ideal S512x1 .f32) (b : Fin 512) :
    maxStep (F := Ideal) i W X L M (ValueIdx.ix2 b 0)
      = max (M (ValueIdx.ix2 b 0)) (Finset.univ.sup fun jj : Fin 2560 => tileAt i W X L b jj) := by
  unfold maxStep k0_pay3
  rw [shapeCast_self, pay2_apply]
  refine congrArg (max (M (ValueIdx.ix2 b 0))) (congrArg (Finset.sup Finset.univ) (funext fun jj => ?_))
  exact tileOf_apply i W X L b jj

theorem sumStep_apply (i : grid0.Coords) (W : Vec Ideal S2560x512 .f32) (X : Vec Ideal S512x512 .bf16) (L : Vec Ideal S512x1 .i32)
    (M S : Vec Ideal S512x1 .f32) (b : Fin 512) :
    sumStep (F := Ideal) i W X L M S (ValueIdx.ix2 b 0)
      = Ideal.exp (M (ValueIdx.ix2 b 0) - maxStep (F := Ideal) i W X L M (ValueIdx.ix2 b 0)) * S (ValueIdx.ix2 b 0)
        + (lit 0x00000000#32 + ∑ jj : Fin 2560, Ideal.exp (tileAt i W X L b jj - maxStep (F := Ideal) i W X L M (ValueIdx.ix2 b 0))) := by
  have hmax : maxStep (F := Ideal) i W X L M (ValueIdx.ix2 b 0)
      = k0_pay2 (F := Ideal) (k0_pay13 W X) (k0_pay15 i L) (k0_pay16 i W X L) (k0_pay17 i W X L) (k0_pay18 i W X L) sinWord M (ValueIdx.ix2 b 0) := by
    unfold maxStep k0_pay3
    rw [shapeCast_self]
  rw [hmax]
  unfold sumStep
  rw [pay4_apply, lit_zero, zero_add]
  refine congrArg (_ + ·) (Finset.sum_congr rfl fun jj _ => ?_)
  refine congrArg (fun z => Ideal.exp (z - _)) ?_
  exact tileOf_apply i W X L b jj

namespace TV

/-! ## The masked last tile -/

/-- A select on "the column word is below the class axis' end", for a column this small, is the `if` on the column. -/
theorem select_slt_col {α : Type} (n : ℕ) (hn : n < 102400) (a b : α) :
    Scalar.select (IntOp.cmpi .slt (BitVec.ofNat 32 n) 100000#32) a b = if n < 100000 then a else b := by
  have hx : (BitVec.ofNat 32 n).toNat = n := by
    rw [BitVec.toNat_ofNat]; exact Nat.mod_eq_of_lt (by omega)
  have hxi : (BitVec.ofNat 32 n).toInt = (n : Int) := by
    rw [BitVec.toInt_eq_toNat_of_lt (by rw [hx]; omega), hx]
  have hyi : (100000#32 : BitVec 32).toInt = 100000 := by decide
  have hs : (BitVec.ofNat 32 n).slt 100000#32 = decide (n < 100000) := by
    rw [BitVec.slt_eq_decide, hxi, hyi]
    exact decide_eq_decide.mpr (by omega)
  by_cases h : n < 100000
  · simp [Scalar.select, IntOp.cmpi, hs, h]
  · simp [Scalar.select, IntOp.cmpi, hs, h]

/-- The masked tile over whatever the tile's inputs are: the tile where the lane's column word is below the class axis'
    end, the fill value past it. -/
theorem pay5_apply (v15 : FVec Ideal S512x2560 .f32) (v21 : IVec S512x2560 32) (v25 : IVec S512x2560 1)
    (v29 v35 v37 : FVec Ideal S512x1 .f32) (s : Ideal .f32) (b : Fin 512) (jj : Fin 2560) :
    k0_pay5 (F := Ideal) v15 v21 v25 v29 v35 v37 s (ValueIdx.ix2 b jj)
      = Scalar.select (IntOp.cmpi .slt (v21 (ValueIdx.ix2 b jj)) 100000#32)
          (k0_pay1 (F := Ideal) v15 v25 v29 v35 v37 s (ValueIdx.ix2 b jj)) (⊥ : EReal) := by
  unfold k0_pay5
  refine (ValueIdx.select_apply _ _ _ _).trans ?_
  exact congrArg (Scalar.select _ _) negFill_named

/-- The masked tile at (b, jj). -/
theorem maskedOf_apply (i : grid0.Coords) (W : Vec Ideal S2560x512 .f32) (X : Vec Ideal S512x512 .bf16) (L : Vec Ideal S512x1 .i32)
    (b : Fin 512) (jj : Fin 2560) :
    k0_pay5 (F := Ideal) (k0_pay13 W X) (k0_pay14 i) (k0_pay15 i L) (k0_pay16 i W X L) (k0_pay17 i W X L) (k0_pay18 i W X L)
        sinWord (ValueIdx.ix2 b jj) = tileMasked i W X L b jj := by
  rw [pay5_apply, colWord_apply, select_slt_col _ (colOf_lt i jj)]
  unfold tileMasked
  exact if_congr Iff.rfl (tileOf_apply i W X L b jj) rfl

/-- The running maximum through the mask, over whatever the tile's inputs are. -/
theorem pay6_apply (v15 : FVec Ideal S512x2560 .f32) (v21 : IVec S512x2560 32) (v25 : IVec S512x2560 1)
    (v29 v35 v37 : FVec Ideal S512x1 .f32) (s : Ideal .f32) (M : Vec Ideal S512x1 .f32) (b : Fin 512) :
    k0_pay6 (F := Ideal) v15 v21 v25 v29 v35 v37 s M (ValueIdx.ix2 b 0)
      = max (M (ValueIdx.ix2 b 0)) (Finset.univ.sup fun jj : Fin 2560 => k0_pay5 (F := Ideal) v15 v21 v25 v29 v35 v37 s (ValueIdx.ix2 b jj)) := by
  unfold k0_pay6
  refine (ValueIdx.maximumf_apply _ _ _).trans ?_
  refine congrArg (max (M (ValueIdx.ix2 b 0))) ?_
  refine (shapeCast_col_apply _ shapeCasts_S512_S512x1 b 0).trans ?_
  exact laneMax_apply _ reduces_S512x2560_S512 (.inl rfl) rfl b

/-- The running sum through the mask, over whatever the tile's inputs are. -/
theorem pay8_apply (v15 : FVec Ideal S512x2560 .f32) (v21 : IVec S512x2560 32) (v25 : IVec S512x2560 1)
    (v29 v35 v37 : FVec Ideal S512x1 .f32) (s : Ideal .f32) (M M' S : Vec Ideal S512x1 .f32) (b : Fin 512) :
    k0_pay8 (F := Ideal) v15 v21 v25 v29 v35 v37 s M M' S (ValueIdx.ix2 b 0)
      = Ideal.exp (M' (ValueIdx.ix2 b 0) - k0_pay6 (F := Ideal) v15 v21 v25 v29 v35 v37 s M (ValueIdx.ix2 b 0)) * S (ValueIdx.ix2 b 0)
        + ∑ jj : Fin 2560, Ideal.exp (k0_pay5 (F := Ideal) v15 v21 v25 v29 v35 v37 s (ValueIdx.ix2 b jj)
            - k0_pay6 (F := Ideal) v15 v21 v25 v29 v35 v37 s M (ValueIdx.ix2 b 0)) := by
  unfold k0_pay8
  rw [shapeCast_self]
  refine (ValueIdx.addf_apply _ _ _).trans ?_
  refine congrArg₂ (· + ·) ?_ ?_
  · refine (ValueIdx.mulf_apply _ _ _).trans ?_
    refine congrArg (· * S (ValueIdx.ix2 b 0)) ?_
    refine (exp_apply _ _).trans ?_
    exact congrArg Ideal.exp (ValueIdx.subf_apply _ _ _)
  · refine (shapeCast_col_apply _ shapeCasts_S512_S512x1 b 0).trans ?_
    refine (laneSum_apply _ reduces_S512x2560_S512 (.inl rfl) rfl b).trans ?_
    refine Finset.sum_congr rfl fun jj _ => ?_
    refine (exp_apply _ _).trans ?_
    refine congrArg Ideal.exp ?_
    refine (ValueIdx.subf_apply _ _ _).trans ?_
    exact congrArg (k0_pay5 (F := Ideal) v15 v21 v25 v29 v35 v37 s (ValueIdx.ix2 b jj) - ·)
      (broadcastTo_col_apply _ broadcasts_S512x1_S512x2560 b jj)

end TV

theorem maxStepLast_apply (i : grid0.Coords) (W : Vec Ideal S2560x512 .f32) (X : Vec Ideal S512x512 .bf16) (L : Vec Ideal S512x1 .i32)
    (M : Vec Ideal S512x1 .f32) (b : Fin 512) :
    maxStepLast (F := Ideal) i W X L M (ValueIdx.ix2 b 0)
      = max (M (ValueIdx.ix2 b 0)) (Finset.univ.sup fun jj : Fin 2560 => tileMasked i W X L b jj) := by
  unfold maxStepLast k0_pay7
  rw [shapeCast_self, pay6_apply]
  refine congrArg (max (M (ValueIdx.ix2 b 0))) (congrArg (Finset.sup Finset.univ) (funext fun jj => ?_))
  exact maskedOf_apply i W X L b jj

theorem sumStepLast_apply (i : grid0.Coords) (W : Vec Ideal S2560x512 .f32) (X : Vec Ideal S512x512 .bf16) (L : Vec Ideal S512x1 .i32)
    (M S : Vec Ideal S512x1 .f32) (b : Fin 512) :
    sumStepLast (F := Ideal) i W X L M S (ValueIdx.ix2 b 0)
      = Ideal.exp (M (ValueIdx.ix2 b 0) - maxStepLast (F := Ideal) i W X L M (ValueIdx.ix2 b 0)) * S (ValueIdx.ix2 b 0)
        + (lit 0x00000000#32 + ∑ jj : Fin 2560, Ideal.exp (tileMasked i W X L b jj - maxStepLast (F := Ideal) i W X L M (ValueIdx.ix2 b 0))) := by
  have hmax : maxStepLast (F := Ideal) i W X L M (ValueIdx.ix2 b 0)
      = k0_pay6 (F := Ideal) (k0_pay13 W X) (k0_pay14 i) (k0_pay15 i L) (k0_pay16 i W X L) (k0_pay17 i W X L) (k0_pay18 i W X L) sinWord M (ValueIdx.ix2 b 0) := by
    unfold maxStepLast k0_pay7
    rw [shapeCast_self]
  rw [hmax]
  unfold sumStepLast
  rw [pay8_apply, lit_zero, zero_add]
  refine congrArg (_ + ·) (Finset.sum_congr rfl fun jj _ => ?_)
  refine congrArg (fun z => Ideal.exp (z - _)) ?_
  exact maskedOf_apply i W X L b jj

/-! ## The reset values -/

/-- The reset values: the running maximum starts at the fill value, the running sum at zero. -/
theorem resetMax_apply (y : S512x1.Idx) : k0_pay11 (F := Ideal) y = ⊥ := by
  unfold k0_pay11
  rw [shapeCast_self]
  exact negFill_named

theorem resetSum_apply (y : S512x1.Idx) : k0_pay12 (F := Ideal) y = lit 0x00000000#32 := by
  unfold k0_pay12
  rw [shapeCast_self]
  rfl

namespace TV

/-! ## Locality at the clipped last tile -/

/-- The flattened point is the class tile: 20 · h + c = t. -/
theorem tile_of_point : ∀ t : Fin cfg0.N, 20 * (grid0.coords t 0).val + (grid0.coords t 1).val = t.val :=
  (by decide +kernel : ∀ t : Fin grid0.N, 20 * (grid0.coords t 0).val + (grid0.coords t 1).val = t.val)

/-- The class column of lane jj at point t. -/
theorem colOf_point (t : Fin cfg0.N) (jj : Fin 2560) : colOf (grid0.coords t) jj = 2560 * t.val + jj.val := by
  unfold colOf
  rw [tile_of_point t]

/-- How many weights rows the fetch at point t moves: all of the block but at the last point, where 160 rows are inside
    the array. -/
theorem wrows_moved : ∀ t : Fin cfg0.N, win0_1.xsize (grid0.coords t) ⟨0, by decide⟩ = if t.val = 39 then 160 else 2560 :=
  (by decide +kernel : ∀ t : Fin grid0.N, win0_1.xsize (grid0.coords t) ⟨0, by decide⟩ = if t.val = 39 then 160 else 2560)

/-- Every fetch moves whole rows. -/
theorem wcols_moved : ∀ t : Fin cfg0.N, win0_1.xsize (grid0.coords t) ⟨1, by decide⟩ = 512 :=
  (by decide +kernel : ∀ t : Fin grid0.N, win0_1.xsize (grid0.coords t) ⟨1, by decide⟩ = 512)

/-- How many lanes of the logits tile the write-back at point t moves. -/
theorem lanes_moved : ∀ t : Fin cfg0.N, win0_3.xsize (grid0.coords t) ⟨1, by decide⟩ = if t.val = 39 then 160 else 2560 :=
  (by decide +kernel : ∀ t : Fin grid0.N, win0_3.xsize (grid0.coords t) ⟨1, by decide⟩ = if t.val = 39 then 160 else 2560)

/-- A weights row whose class column is inside the class axis is one the fetch moves. -/
theorem moved_of_col (t : Fin cfg0.N) (jj : Fin 2560) (k : Fin 512) (h : colOf (grid0.coords t) jj < 100000) :
    win0_1.moved (grid0.coords t) (ValueIdx.ix2 jj k) = true := by
  rw [colOf_point] at h
  refine (win0_1.moved_iff (grid0.coords t) (ValueIdx.ix2 jj k)).mpr fun a => ?_
  match a with
  | ⟨0, _⟩ =>
    refine lt_of_lt_of_eq ?_ (wrows_moved t).symm
    show jj.val < _
    have := jj.isLt
    split <;> omega
  | ⟨1, _⟩ =>
    refine lt_of_lt_of_eq ?_ (wcols_moved t).symm
    exact k.isLt

end TV

variable (m : (ℓ : Loc nD τ sig) → Buf (Elt Ideal) ℓ)

namespace TV

/-- On the rows whose class column is inside the class axis the weights buffer holds the fetched block, whatever it held
    before. -/
theorem wfill_row (c : Dev nD) (t : Fin cfg0.N) (d : Vec Ideal S2560x512 .f32) (jj : Fin 2560) (k : Fin 512)
    (h : colOf (grid0.coords t) jj < 100000) :
    wfill m c t d (ValueIdx.ix2 jj k) = wblk m c t (ValueIdx.ix2 jj k) := by
  have hm := moved_of_col t jj k h
  unfold wblk wfill Pipeline.Window.fill
  rw [dif_pos hm, dif_pos hm]

/-- The tile's logit at lane jj reads the weights buffer on row jj only. -/
theorem tileAt_congr (i : grid0.Coords) (W W' : Vec Ideal S2560x512 .f32) (X : Vec Ideal S512x512 .bf16) (L : Vec Ideal S512x1 .i32)
    (b : Fin 512) (jj : Fin 2560) (h : ∀ k, W (ValueIdx.ix2 jj k) = W' (ValueIdx.ix2 jj k)) :
    tileAt i W X L b jj = tileAt i W' X L b jj := by
  have hr : rows W jj = rows W' jj := funext fun k => by rw [rows_ix2, rows_ix2, h k]
  have hu : wUnit W jj = wUnit W' jj := by
    funext k
    unfold wUnit
    rw [hr]
  have hc : cosT W X b jj = cosT W' X b jj := by
    unfold cosT
    rw [hu]
  unfold tileAt
  rw [hc]

/-- The tile's logits on the lanes inside the class axis do not see what the weights buffer held past the array's end. -/
theorem tileAt_local (c : Dev nD) (t : Fin cfg0.N) (d : Vec Ideal S2560x512 .f32) (b : Fin 512) (jj : Fin 2560)
    (h : colOf (grid0.coords t) jj < 100000) :
    tileAt (grid0.coords t) (wfill m c t d) (xblk m c t) (lblk m c t) b jj
      = tileAt (grid0.coords t) (wblk m c t) (xblk m c t) (lblk m c t) b jj :=
  tileAt_congr _ _ _ _ _ b jj fun k => wfill_row m c t d jj k h

/-- Nor does the masked tile, on any lane. -/
theorem tileMasked_local (c : Dev nD) (t : Fin cfg0.N) (d : Vec Ideal S2560x512 .f32) (b : Fin 512) (jj : Fin 2560) :
    tileMasked (grid0.coords t) (wfill m c t d) (xblk m c t) (lblk m c t) b jj
      = tileMasked (grid0.coords t) (wblk m c t) (xblk m c t) (lblk m c t) b jj := by
  unfold tileMasked
  by_cases h : colOf (grid0.coords t) jj < 100000
  · rw [if_pos h, if_pos h]
    exact tileAt_local m c t d b jj h
  · rw [if_neg h, if_neg h]

end TV

theorem wfill_eq_of_ne_last (c : Dev nD) (t : Fin cfg0.N) (ht : t.val ≠ 39) (d : Vec Ideal S2560x512 .f32) :
    wfill m c t d = wblk m c t := by
  funext y
  obtain ⟨jj, k, rfl⟩ : ∃ (jj : Fin 2560) (k : Fin 512), y = ValueIdx.ix2 jj k := ⟨y 0, y 1, ValueIdx.eq_ix2 y⟩
  refine wfill_row m c t d jj k ?_
  rw [colOf_point]
  have h40 : t.val < 40 := lt_of_lt_of_eq t.isLt N_0
  have := jj.isLt
  omega

namespace TV

/-- The tile's logits on the lanes the write-back moves do not see what the weights buffer held past the array's end. -/
theorem tileOf_local (c : Dev nD) (t : Fin cfg0.N) (d : Vec Ideal S2560x512 .f32) (y : S512x2560.Idx)
    (hy : (y 1).val < if t.val = 39 then 160 else 2560) :
    tileOf (grid0.coords t) (wfill m c t d) (xblk m c t) (lblk m c t) y
      = tileOf (grid0.coords t) (wblk m c t) (xblk m c t) (lblk m c t) y := by
  obtain ⟨b, jj, rfl⟩ : ∃ (b : Fin 512) (jj : Fin 2560), y = ValueIdx.ix2 b jj := ⟨y 0, y 1, ValueIdx.eq_ix2 y⟩
  rw [tileOf_apply, tileOf_apply]
  refine tileAt_local m c t d b jj ?_
  rw [colOf_point]
  have h40 : t.val < 40 := lt_of_lt_of_eq t.isLt N_0
  have hjj : jj.val < if t.val = 39 then 160 else 2560 := hy
  have := jj.isLt
  split at hjj <;> omega

end TV

theorem tile_cut_local (c : Dev nD) (t : Fin cfg0.N) (d : Vec Ideal S2560x512 .f32) :
    win0_3.cut (grid0.coords t) (tileOf (grid0.coords t) (wfill m c t d) (xblk m c t) (lblk m c t))
      = win0_3.cut (grid0.coords t) (tileOf (grid0.coords t) (wblk m c t) (xblk m c t) (lblk m c t)) := by
  funext j
  exact tileOf_local m c t d (win0_3.xinj (grid0.coords t) j) (lt_of_lt_of_eq (j ⟨1, (by decide : (1 : ℕ) < 2)⟩).isLt (lanes_moved t))

theorem maxStepLast_local (c : Dev nD) (t : Fin cfg0.N) (ht : t.val = 39) (d : Vec Ideal S2560x512 .f32) (M : Vec Ideal S512x1 .f32) :
    maxStepLast (grid0.coords t) (wfill m c t d) (xblk m c t) (lblk m c t) M
      = maxStepLast (grid0.coords t) (wblk m c t) (xblk m c t) (lblk m c t) M := by
  funext y
  obtain ⟨b, z, rfl⟩ : ∃ (b : Fin 512) (z : Fin 1), y = ValueIdx.ix2 b z := ⟨y 0, y 1, ValueIdx.eq_ix2 y⟩
  obtain rfl : z = 0 := Subsingleton.elim _ _
  rw [maxStepLast_apply, maxStepLast_apply]
  refine congrArg (max (M (ValueIdx.ix2 b 0))) (congrArg (Finset.sup Finset.univ) (funext fun jj => ?_))
  exact tileMasked_local m c t d b jj

theorem sumStepLast_local (c : Dev nD) (t : Fin cfg0.N) (ht : t.val = 39) (d : Vec Ideal S2560x512 .f32) (M S : Vec Ideal S512x1 .f32) :
    sumStepLast (grid0.coords t) (wfill m c t d) (xblk m c t) (lblk m c t) M S
      = sumStepLast (grid0.coords t) (wblk m c t) (xblk m c t) (lblk m c t) M S := by
  funext y
  obtain ⟨b, z, rfl⟩ : ∃ (b : Fin 512) (z : Fin 1), y = ValueIdx.ix2 b z := ⟨y 0, y 1, ValueIdx.eq_ix2 y⟩
  obtain rfl : z = 0 := Subsingleton.elim _ _
  rw [sumStepLast_apply, sumStepLast_apply, maxStepLast_local m c t ht d M]
  refine congrArg (_ + ·) (congrArg (lit 0x00000000#32 + ·) (Finset.sum_congr rfl fun jj _ => ?_))
  rw [tileMasked_local m c t d b jj]

end Cert.KernelIdeal.Hand

end
-- ==== Proof.IFrame.lean ====
/-
  The body obligation of the kernel's pipeline at every grid point, the frame run, and the frame claim.

  At a point the pipeline hands the body the three input buffers at their blocks (the weights' buffer holding, at the last
  tile, words nothing names on the rows past the array's end), the logits buffer at anything, the two statistics buffers at
  what they held, and the invariant: the two scratch columns at what the tile before left. The body's case at the point is
  read off the point's number; its run applies; and what it leaves is what the proof data names: the logits tile on the
  columns inside the array, the running maximum and running sum in the scratch columns, and at the last tile of a half
  their copies in the statistics buffers. At the last tile of all, where the weights buffer's tail is unnamed, the masked
  update does not read the columns that tail feeds, which is what the four locality facts say.
-/
import proofs.«402648_j62706522521602_3_alg».proof.Proof.IPieces
import proofs.«402648_j62706522521602_3_alg».proof.Proof.TileValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Generic

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The scratch columns after each point, case by case -/

/-- At the first tile of a half: the update of the reset values. -/
theorem scr_first (c : Dev nD) (t : Fin cfg0.N) (h0 : t.val % 20 = 0) :
    scr m c t.val t.isLt
      = (maxStep (grid0.coords t) (wblk m c t) (xblk m c t) (lblk m c t) (k0_pay11 (F := F)),
         sumStep (grid0.coords t) (wblk m c t) (xblk m c t) (lblk m c t) (k0_pay11 (F := F)) (k0_pay12 (F := F))) := by
  obtain ⟨n, hn⟩ := t
  cases n with
  | zero => rfl
  | succ n => exact (if_pos h0).trans rfl

/-- At a tile that is neither the first of a half nor the last of all: the update of what the tile before left. -/
theorem scr_inner (c : Dev nD) (t : Fin cfg0.N) (h0 : ¬t.val % 20 = 0) (h39 : ¬t.val = 39) :
    scr m c t.val t.isLt
      = (maxStep (grid0.coords t) (wblk m c t) (xblk m c t) (lblk m c t) (scr m c (t.val - 1) (Nat.lt_of_le_of_lt (Nat.sub_le _ _) t.isLt)).1,
         sumStep (grid0.coords t) (wblk m c t) (xblk m c t) (lblk m c t) (scr m c (t.val - 1) (Nat.lt_of_le_of_lt (Nat.sub_le _ _) t.isLt)).1
           (scr m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h39).trans rfl)

/-- At the last tile of all: the masked update of what the tile before left. -/
theorem scr_last (c : Dev nD) (t : Fin cfg0.N) (h39 : t.val = 39) :
    scr m c t.val t.isLt
      = (maxStepLast (grid0.coords t) (wblk m c t) (xblk m c t) (lblk m c t) (scr m c (t.val - 1) (Nat.lt_of_le_of_lt (Nat.sub_le _ _) t.isLt)).1,
         sumStepLast (grid0.coords t) (wblk m c t) (xblk m c t) (lblk m c t) (scr m c (t.val - 1) (Nat.lt_of_le_of_lt (Nat.sub_le _ _) t.isLt)).1
           (scr m c (t.val - 1) (Nat.lt_of_le_of_lt (Nat.sub_le _ _) t.isLt)).2) := by
  obtain ⟨n, hn⟩ := t
  cases n with
  | zero => exact absurd (show (0 : ℕ) = 39 from h39) (by decide)
  | succ n =>
    have h39' : n + 1 = 39 := h39
    exact (if_neg (by omega : ¬(n + 1) % 20 = 0)).trans ((if_pos h39').trans rfl)

/-! ## The invariant, point by point -/

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((scr m c n hn).1) ∗ owns (c : Thread nD τ) scSum fullShare ((scr m c n hn).2)) ∗ (∃ r, prngReg c r)) := rfl

theorem PhiS_pos (c : Dev nD) (n : ℕ) (h : n ≤ cfg0.N) (hz : n ≠ 0) :
    PhiS m c n h = iprop(iprop(owns (c : Thread nD τ) scMax fullShare ((scr m c (n - 1) (by omega)).1) ∗ owns (c : Thread nD τ) scSum fullShare ((scr m c (n - 1) (by omega)).2)) ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- Whatever the point, the invariant holds the two scratch columns at some contents and the generator register. -/
theorem PhiS_any (c : Dev nD) (n : ℕ) (h : n ≤ cfg0.N) :
    PhiS m c n h ⊢ iprop(iprop((∃ d, owns (c : Thread nD τ) scMax fullShare d) ∗ (∃ d, owns (c : Thread nD τ) scSum fullShare d)) ∗ (∃ r, prngReg c r)) := by
  cases n with
  | zero => rw [PhiS_zero m c 0 h rfl, PhiA0_eq]; exact Idealize.SL.BI.Entails.refl _
  | succ n =>
    rw [PhiS_succ]
    iintro ⟨⟨HS0, HS1⟩, Hg⟩
    isplitl [HS0 HS1]
    · isplitl [HS0]
      · iexists _; iexact HS0
      · iexists _; iexact HS1
    iexact Hg

/-! ## What the body finds in each staging buffer -/

theorem fetch0_3 : ∀ t : Fin cfg0.N, (cfg0.win 3).fetch t = false := by decide +kernel

/-- The embeddings' and the labels' buffers hold their blocks at every point. -/
theorem before0 (c : Dev nD) (t : Fin cfg0.N) (d) : (dats m 0 c).before 0 t d = iblk m c 0 t :=
  before0_0_of m (dats m 0 c) (A_eq m c 0) (after0_0 m c) t d
theorem before2 (c : Dev nD) (t : Fin cfg0.N) (d) : (dats m 0 c).before 2 t d = iblk m c 2 t :=
  before0_2_of m (dats m 0 c) (A_eq m c 2) (after0_2 m c) t d
/-- The weights' buffer is fetched into at every point: its block on the rows inside the array, what it held elsewhere. -/
theorem before1 (c : Dev nD) (t : Fin cfg0.N) (d) : (dats m 0 c).before 1 t d = wfill m c t d := by
  rw [Dat.before_fetched (dats m 0 c) 1 t (fetch0_1 t) d]
  unfold Dat.fetched Dat.blockOf wfill iblk
  rw [A_eq m c 1]
  try rfl
/-- The logits' buffer is written back at every point: the body finds it at anything. -/
theorem before3 (c : Dev nD) (t : Fin cfg0.N) (d) : (dats m 0 c).before 3 t d = d :=
  Dat.before_out_reset (dats m 0 c) 3 rfl t (by
    by_cases h0 : t.val = 0
    · exact .inl h0
    · exact .inr ⟨h0, flush0_3 _⟩) d

/-! ## What the obligation asks of each staging buffer after the body -/

theorem leaves0 (c : Dev nD) (t : Fin cfg0.N) :
    (dats m 0 c).leaves 0 t = owns (c : Thread nD τ) (ms0 t) fullShare (iblk m c 0 t) := by
  unfold Dat.leaves; rw [liveAt0 t]; simp only [after0_0]; try rfl
theorem leaves2 (c : Dev nD) (t : Fin cfg0.N) :
    (dats m 0 c).leaves 2 t = owns (c : Thread nD τ) (ms2 t) fullShare (iblk m c 2 t) := by
  unfold Dat.leaves; rw [liveAt2 t]; simp only [after0_2]; try rfl
/-- The weights' window is loose: its buffer is stated on the rows inside the array, where it holds the block. -/
theorem leaves1 (c : Dev nD) (t : Fin cfg0.N) :
    (dats m 0 c).leaves 1 t = iprop(∃ d, owns (c : Thread nD τ) (ms1 t) fullShare (wfill m c t d)) := by
  unfold Dat.leaves; rw [liveAt1 t]; simp only [after0_1]
  have h : win0_1.cut (grid0.coords t) (wblk m c t) = iblk m c 1 t := win0_1.cut_fill _ _ _
  show iprop(∃ d, owns (c : Thread nD τ) (ms1 t) fullShare (win0_1.fill (grid0.coords t) d (win0_1.cut (grid0.coords t) (wblk m c t)))) = _
  rw [h]; rfl
/-- The logits' window is loose: its buffer is stated on the columns inside the array, where it holds the tile. -/
theorem leaves3 (c : Dev nD) (t : Fin cfg0.N) :
    (dats m 0 c).leaves 3 t = iprop(∃ d, owns (c : Thread nD τ) (ms3 t) fullShare (win0_3.fill (grid0.coords t) d (win0_3.cut (grid0.coords t) (tileOf (grid0.coords t) (wblk m c t) (xblk m c t) (lblk m c t))))) := by
  unfold Dat.leaves; rw [liveAt3 t]; simp only [after0_3]; try rfl
/-- The statistics' buffers: handed back as found where the scratch columns are not copied out, -/
theorem leaves4_idle (c : Dev nD) (t : Fin cfg0.N) (h : ¬condCopy (grid0.coords t)) :
    (dats m 0 c).leaves 4 t = iprop(∃ d, owns (c : Thread nD τ) (ms4 t) fullShare ((dats m 0 c).before 4 t d)) :=
  Dat.leaves_idle (dats m 0 c) 4 t (idleAt4 t h) (noFlush4 t h)
theorem leaves5_idle (c : Dev nD) (t : Fin cfg0.N) (h : ¬condCopy (grid0.coords t)) :
    (dats m 0 c).leaves 5 t = iprop(∃ d, owns (c : Thread nD τ) (ms5 t) fullShare ((dats m 0 c).before 5 t d)) :=
  Dat.leaves_idle (dats m 0 c) 5 t (idleAt5 t h) (noFlush5 t h)
/-- and at the copies where they are. -/
theorem leaves4_live (c : Dev nD) (t : Fin cfg0.N) (h : condCopy (grid0.coords t)) :
    (dats m 0 c).leaves 4 t = owns (c : Thread nD τ) (ms4 t) fullShare (k0_pay9 (scr m c t.val t.isLt).1) := by
  unfold Dat.leaves; rw [liveAt4 t h]; simp only [after0_4]; try rfl
theorem leaves5_live (c : Dev nD) (t : Fin cfg0.N) (h : condCopy (grid0.coords t)) :
    (dats m 0 c).leaves 5 t = owns (c : Thread nD τ) (ms5 t) fullShare (k0_pay10 (scr m c t.val t.isLt).2) := by
  unfold Dat.leaves; rw [liveAt5 t h]; simp only [after0_5]; try rfl

/-! ## The body obligation, at a generic point -/

/-- What the body is called with at point `t`: the invariant, nothing owed, and each window's current buffer at what it
    then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns: the invariant at the next point, nothing owed, and each buffer at what the body leaves, a loose window's
    stated only where its transfers move. -/
def bodyPostLoose (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

/-! The four facts about the rows of the weights' buffer past the array's end: away from the last tile there are none; at the
last tile the logits' columns inside the array, and the masked maximum and sum, do not depend on them. -/
variable (h_wfill : ∀ (c : Dev nD) (t : Fin cfg0.N), t.val ≠ 39 → ∀ d : Vec F S2560x512 .f32, wfill m c t d = wblk m c t)
  (h_tile : ∀ (c : Dev nD) (t : Fin cfg0.N) (d : Vec F S2560x512 .f32),
    win0_3.cut (grid0.coords t) (tileOf (grid0.coords t) (wfill m c t d) (xblk m c t) (lblk m c t))
      = win0_3.cut (grid0.coords t) (tileOf (grid0.coords t) (wblk m c t) (xblk m c t) (lblk m c t)))
  (h_max : ∀ (c : Dev nD) (t : Fin cfg0.N), t.val = 39 → ∀ (d : Vec F S2560x512 .f32) (M : Vec F S512x1 .f32),
    maxStepLast (grid0.coords t) (wfill m c t d) (xblk m c t) (lblk m c t) M = maxStepLast (grid0.coords t) (wblk m c t) (xblk m c t) (lblk m c t) M)
  (h_sum : ∀ (c : Dev nD) (t : Fin cfg0.N), t.val = 39 → ∀ (d : Vec F S2560x512 .f32) (M S : Vec F S512x1 .f32),
    sumStepLast (grid0.coords t) (wfill m c t d) (xblk m c t) (lblk m c t) M S = sumStepLast (grid0.coords t) (wblk m c t) (xblk m c t) (lblk m c t) M S)

include h_wfill h_tile h_max h_sum in
set_option maxHeartbeats 4800000 in
/-- The body at any point. The point's number says which case it is in; the invariant hands the body the scratch columns at
    what the tile before left (at anything where the body resets them first); the case's run applies; and each stored buffer
    is read back as the proof data names it. -/
theorem sound_body (c : Dev nD) (t : Fin cfg0.N) :
    bodyPre m c t ⊢ wp frame (wpE (defs₀ (F := F)) Variants.none c none) Set.univ (bodyAt0 t) (fun _ => bodyPostLoose m c t) := by
  unfold bodyPre bodyPostLoose bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 40 := lt_of_lt_of_eq t.isLt (show cfg0.N = 40 from N_0)
  by_cases h39 : t.val = 39
  · -- the last tile of all
    have hz : t.val ≠ 0 := by omega
    have hc1 : ¬condReset (grid0.coords t) := fun h => by have := (hcondReset t).mp h; omega
    have hc2 : ¬condPlain (grid0.coords t) := fun h => (hcondPlain t).mp h h39
    have hc3 : condMasked (grid0.coords t) := (hcondMasked t).mpr h39
    have hc4 : condCopy (grid0.coords t) := (hcondCopy t).mpr (by omega)
    rw [leaves4_live m c t hc4, leaves5_live m c t hc4, scr_last m c t h39]
    rw [PhiS_castSucc m c t, PhiS_pos m c _ _ hz]
    iintro ⟨⟨⟨HS0, HS1⟩, Hg⟩, Ho, ⟨%d0, H0⟩, ⟨%d1, H1⟩, ⟨%d2, H2⟩, H3, ⟨%d4, H4⟩, ⟨%d5, H5⟩⟩
    iapply ((kernelRun0_D c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wfill m c t d1) (iblk m c 2 t) (scr m c (t.val - 1) (Nat.lt_of_le_of_lt (Nat.sub_le _ _) t.isLt)).1 (scr m c (t.val - 1) (Nat.lt_of_le_of_lt (Nat.sub_le _ _) t.isLt)).2).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact (pieces_D_S0 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wfill m c t d1) (iblk m c 2 t) (scr m c (t.val - 1) (Nat.lt_of_le_of_lt (Nat.sub_le _ _) t.isLt)).1 (scr m c (t.val - 1) (Nat.lt_of_le_of_lt (Nat.sub_le _ _) t.isLt)).2 scMax.view es0).trans (h_max c t h39 d1 _)
        · unfold owns; iexists _; isplitr
          swap; · iexact HS1
          ipureintro; exact (pieces_D_S1 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wfill m c t d1) (iblk m c 2 t) (scr m c (t.val - 1) (Nat.lt_of_le_of_lt (Nat.sub_le _ _) t.isLt)).1 (scr m c (t.val - 1) (Nat.lt_of_le_of_lt (Nat.sub_le _ _) t.isLt)).2 scSum.view es1).trans (h_sum c t h39 d1 _ _)
      iexact Hg
    isplitl [Ho]; · iexact Ho
    isplitl [H0]; · iexact H0
    isplitl [H1]; · iexists d1; iexact H1
    isplitl [H2]; · iexact H2
    isplitl [H3]
    · iexists (tileOf (grid0.coords t) (wfill m c t d1) (xblk m c t) (lblk m c t))
      unfold owns; iexists _; isplitr
      swap; · iexact H3
      ipureintro
      rw [← h_tile c t d1, Window.fill_cut]
      exact pieces_D_3 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wfill m c t d1) (iblk m c 2 t) (scr m c (t.val - 1) (Nat.lt_of_le_of_lt (Nat.sub_le _ _) t.isLt)).1 (scr m c (t.val - 1) (Nat.lt_of_le_of_lt (Nat.sub_le _ _) t.isLt)).2 (ms3 t).view e3
    isplitl [H4]
    · unfold owns; iexists _; isplitr
      swap; · iexact H4
      ipureintro; exact (pieces_D_4 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wfill m c t d1) (iblk m c 2 t) (scr m c (t.val - 1) (Nat.lt_of_le_of_lt (Nat.sub_le _ _) t.isLt)).1 (scr m c (t.val - 1) (Nat.lt_of_le_of_lt (Nat.sub_le _ _) t.isLt)).2 (ms4 t).view e4).trans (congrArg k0_pay9 (h_max c t h39 d1 _))
    · unfold owns; iexists _; isplitr
      swap; · iexact H5
      ipureintro; exact (pieces_D_5 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wfill m c t d1) (iblk m c 2 t) (scr m c (t.val - 1) (Nat.lt_of_le_of_lt (Nat.sub_le _ _) t.isLt)).1 (scr m c (t.val - 1) (Nat.lt_of_le_of_lt (Nat.sub_le _ _) t.isLt)).2 (ms5 t).view e5).trans (congrArg k0_pay10 (h_sum c t h39 d1 _ _))
  · have hw : ∀ d, wfill m c t d = wblk m c t := fun d => h_wfill c t h39 d
    simp only [hw]
    have hc2 : condPlain (grid0.coords t) := (hcondPlain t).mpr h39
    have hc3 : ¬condMasked (grid0.coords t) := fun h => h39 ((hcondMasked t).mp h)
    by_cases h0 : t.val % 20 = 0
    · -- the first tile of a half
      have hc1 : condReset (grid0.coords t) := (hcondReset t).mpr h0
      have hc4 : ¬condCopy (grid0.coords t) := fun h => by have := (hcondCopy t).mp h; omega
      rw [leaves4_idle m c t hc4, leaves5_idle m c t hc4, scr_first m c t h0]
      rw [PhiS_castSucc m c t]
      iintro ⟨HΦ, Ho, ⟨%d0, H0⟩, ⟨%d1, H1⟩, ⟨%d2, H2⟩, H3, ⟨%d4, H4⟩, ⟨%d5, H5⟩⟩
      ihave HΦ' := (PhiS_any m c t.val (Nat.le_of_lt t.isLt)) $$ HΦ
      icases HΦ' with ⟨⟨HS0, HS1⟩, Hg⟩
      iapply ((kernelRun0_A c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t)).2.2.2 ((dats m 0 c).before 4 t d4) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact pieces_A_S0 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) scMax.view es0
          · unfold owns; iexists _; isplitr
            swap; · iexact HS1
            ipureintro; exact pieces_A_S1 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) scSum.view es1
        iexact Hg
      isplitl [Ho]; · iexact Ho
      isplitl [H0]; · iexact H0
      isplitl [H1]; · iexists d1; iexact H1
      isplitl [H2]; · iexact H2
      isplitl [H3]
      · iexists (tileOf (grid0.coords t) (wblk m c t) (xblk m c t) (lblk m c t))
        unfold owns; iexists _; isplitr
        swap; · iexact H3
        ipureintro
        rw [Window.fill_cut]
        exact pieces_A_3 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (ms3 t).view e3
      isplitl [H4]; · iexists d4; iexact H4
      iexists d5; iexact H5
    · have hz : t.val ≠ 0 := fun h => h0 (by rw [h])
      have hc1 : ¬condReset (grid0.coords t) := fun h => h0 ((hcondReset t).mp h)
      by_cases h19 : t.val % 20 = 19
      · -- the last tile of the first half
        have hc4 : condCopy (grid0.coords t) := (hcondCopy t).mpr h19
        rw [leaves4_live m c t hc4, leaves5_live m c t hc4, scr_inner m c t h0 h39]
        rw [PhiS_castSucc m c t, PhiS_pos m c _ _ hz]
        iintro ⟨⟨⟨HS0, HS1⟩, Hg⟩, Ho, ⟨%d0, H0⟩, ⟨%d1, H1⟩, ⟨%d2, H2⟩, H3, ⟨%d4, H4⟩, ⟨%d5, H5⟩⟩
        iapply ((kernelRun0_C c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact pieces_C_S0 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 scMax.view es0
            · unfold owns; iexists _; isplitr
              swap; · iexact HS1
              ipureintro; exact pieces_C_S1 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 scSum.view es1
          iexact Hg
        isplitl [Ho]; · iexact Ho
        isplitl [H0]; · iexact H0
        isplitl [H1]; · iexists d1; iexact H1
        isplitl [H2]; · iexact H2
        isplitl [H3]
        · iexists (tileOf (grid0.coords t) (wblk m c t) (xblk m c t) (lblk m c t))
          unfold owns; iexists _; isplitr
          swap; · iexact H3
          ipureintro
          rw [Window.fill_cut]
          exact pieces_C_3 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 (ms3 t).view e3
        isplitl [H4]
        · unfold owns; iexists _; isplitr
          swap; · iexact H4
          ipureintro; exact pieces_C_4 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 (ms4 t).view e4
        · unfold owns; iexists _; isplitr
          swap; · iexact H5
          ipureintro; exact pieces_C_5 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 (ms5 t).view e5
      · -- a tile strictly inside a half
        have hc4 : ¬condCopy (grid0.coords t) := fun h => h19 ((hcondCopy t).mp h)
        rw [leaves4_idle m c t hc4, leaves5_idle m c t hc4, scr_inner m c t h0 h39]
        rw [PhiS_castSucc m c t, PhiS_pos m c _ _ hz]
        iintro ⟨⟨⟨HS0, HS1⟩, Hg⟩, Ho, ⟨%d0, H0⟩, ⟨%d1, H1⟩, ⟨%d2, H2⟩, H3, ⟨%d4, H4⟩, ⟨%d5, H5⟩⟩
        iapply ((kernelRun0_B c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2).2.2.2 ((dats m 0 c).before 4 t d4) ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact pieces_B_S0 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 scMax.view es0
            · unfold owns; iexists _; isplitr
              swap; · iexact HS1
              ipureintro; exact pieces_B_S1 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 scSum.view es1
          iexact Hg
        isplitl [Ho]; · iexact Ho
        isplitl [H0]; · iexact H0
        isplitl [H1]; · iexists d1; iexact H1
        isplitl [H2]; · iexact H2
        isplitl [H3]
        · iexists (tileOf (grid0.coords t) (wblk m c t) (xblk m c t) (lblk m c t))
          unfold owns; iexists _; isplitr
          swap; · iexact H3
          ipureintro
          rw [Window.fill_cut]
          exact pieces_B_3 c (grid0.coords t) (ms0 t) (hs0 t) (ms1 t) (hs1 t) (ms2 t) (hs2 t) (ms3 t) (hs3 t) (ms4 t) (hs4 t) (ms5 t) (hs5 t) scMax (Memref.isWhole_whole _) scSum (Memref.isWhole_whole _) hc1 hc2 hc3 hc4 (iblk m c 0 t) (wblk m c t) (iblk m c 2 t) (scr m c (t.val - 1) (Nat.lt_of_le_of_lt (Nat.sub_le _ _) t.isLt)).1 (scr m c (t.val - 1) (Nat.lt_of_le_of_lt (Nat.sub_le _ _) t.isLt)).2 (ms3 t).view e3
        isplitl [H4]; · iexists d4; iexact H4
        iexists d5; iexact H5

include h_wfill h_tile h_max h_sum in
/-- The library's body obligation, at every point. -/
theorem body_obligation_of (c : Dev nD) : BodyObligationLoose (dats (F := F) m 0 c) (defs₀ (F := F)) Variants.none () Set.univ := fun t => by
  rw [bigSep_W0, bigSep_W0]
  exact sound_body m h_wfill h_tile h_max h_sum c t

/-! ## Into and out of the region -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch columns hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

end Generic

/-! ## The run and the frame, at the ideal instance -/

variable (m : (ℓ : Loc nD τ sig) → Buf (Elt Ideal) ℓ) (ρ : Dev nD → PrngReg)

/-- The body obligation at the ideal instance: the four locality facts are the tile's and the masked update's value lemmas. -/
theorem body_obligation (c : Dev nD) : BodyObligationLoose (dats (F := Ideal) m 0 c) (defs₀ (F := Ideal)) Variants.none () Set.univ :=
  body_obligation_of m (fun c t ht d => wfill_eq_of_ne_last m c t ht d) (fun c t d => tile_cut_local m c t d)
    (fun c t ht d M => maxStepLast_local m c t ht d M) (fun c t ht d M S => sumStepLast_local m c t ht d M S) c

set_option backward.isDefEq.respectTransparency.types false in
/-- At the compiled mesh, from any memory with zero counters: every weakly fair execution of @main on the TensorCores
    terminates, and every final state has every array of the pipeline at what the library computes from the proof data and
    every other unscoped buffer as the lines after the region leave it. -/
theorem run_main : θ_run defs (onTc (τ := τ) (main (F := Ideal))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- info: 'Cert.KernelIdeal.Hand.run_main' depends on axioms: [propext, Classical.choice, Quot.sound] -/
#guard_msgs in #print axioms run_main

/-- The frame claim of the idealized kernel: the three argument arrays end as they were launched. -/
theorem frame_ideal : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- info: 'Cert.KernelIdeal.Hand.frame_ideal' depends on axioms: [propext, Classical.choice, Quot.sound] -/
#guard_msgs in #print axioms frame_ideal

end Cert.KernelIdeal.Hand

end
-- ==== Proof.Algebra.lean ====
/-
  The algebra under the two programs, over the extended reals, on the shared specification.

  Three facts are proved here.
  (1) For a real row, the product with the reciprocal square root of the sum of squares floored at ε² is the quotient by the
      length floored at ε: the square root is monotone, so it passes through the maximum, and √(ε²) = ε.
  (2) Real inputs give real logits: every operation on the way (sums, products, differences, the quotient by a positive length,
      the root of a maximum with zero, the choice between the margin and the plain cosine) keeps a real a real, and the words
      of the margin and of the scale have finite patterns.
  (3) On real logits the two assemblies of the loss agree. For reals M₀, M₁, M and a real row r,
        M + log (e^(M₀-M) · Σ_{first half} e^(r j - M₀) + e^(M₁-M) · Σ_{second half} e^(r j - M₁)) = log Σ_j e^(r j),
      and likewise a + log Σ_j e^(r j - a) = log Σ_j e^(r j) for every real a; so inside the class axis a row contributes
      L - t to the first sum and t - L to the second (L the row's log-sum-exp, t the target logit). Outside it the target is ⊥,
      the first term is L - ⊥ = ⊤ and the second is ⊥. No term of the second sum is ⊤, so negation passes through that sum,
      and through the product with 1/512.
-/
import proofs.«402648_j62706522521602_3_alg».proof.Proof.Spec

noncomputable section

namespace Cert.Arc

open Idealize.ShloMosaic

/-! ## The literal words -/

private theorem lit_zero : lit 0x00000000#32 = 0 := by simp [Ideal.ofBits, Ideal.ieee]

private theorem lit_ninf : lit 0xFF800000#32 = ⊥ := by simp [Ideal.ofBits, Ideal.ieee]

private theorem lit_nan : lit 0x7FC00000#32 = ⊥ := by simp [Ideal.ofBits, Ideal.ieee]

private theorem lit_512 : lit 0x44000000#32 = ((512 : ℝ) : EReal) := by
  simp [Ideal.ofBits, Ideal.ieee, -EReal.coe_mul]; norm_num

private theorem lit_eps : epsRef = ((2305843 / 2 ^ 61 : ℝ) : EReal) := by
  simp [Ideal.ofBits, Ideal.ieee, -EReal.coe_mul]; norm_num

/-- A word whose exponent field is not all ones denotes a real number. -/
private theorem lit_real (b : BitVec 32) (h : (b.extractLsb' 23 8).toNat ≠ 255) : ∃ r : ℝ, lit b = (r : EReal) := by
  unfold lit Ideal.ofBits Ideal.ieee
  simp only
  rw [if_neg (by simpa using h)]
  split_ifs <;> exact ⟨_, rfl⟩

/-! ## Real numbers inside the extended reals -/

/-- The coercion commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_max' (a b : ℝ) : ((max a b : ℝ) : EReal) = max (a : EReal) (b : EReal) :=
  Monotone.map_max EReal.coe_strictMono.monotone

private theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

private theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

private theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

private theorem real_max {x y : EReal} (hx : ∃ r : ℝ, x = r) (hy : ∃ r : ℝ, y = r) : ∃ r : ℝ, max x y = r := by
  obtain ⟨a, rfl⟩ := hx; obtain ⟨b, rfl⟩ := hy; exact ⟨max a b, (coe_max' a b).symm⟩

private theorem real_sum {ι : Type} (s : Finset ι) (f : ι → EReal) (h : ∀ i, ∃ r : ℝ, f i = r) :
    ∃ r : ℝ, ∑ i ∈ s, f i = r := by
  choose g hg using h
  exact ⟨∑ i ∈ s, g i, by rw [coe_sum]; exact Finset.sum_congr rfl fun i _ => hg i⟩

/-- The root of a nonnegative real is a real. -/
private theorem real_sqrt {x : EReal} (hx : ∃ r : ℝ, x = r) (h0 : 0 ≤ x) : ∃ r : ℝ, Ideal.sqrt x = r := by
  obtain ⟨a, rfl⟩ := hx
  have ha : (0 : ℝ) ≤ a := by exact_mod_cast h0
  exact ⟨Real.sqrt a, by rw [Ideal.sqrt_coe, if_neg (not_lt.mpr ha)]⟩

/-! ## The unit row -/

/-- The sum of squares of a real row is the coercion of the real sum of squares. -/
private theorem ssq_coe (r : Fin 512 → ℝ) : ssq (fun k => (r k : EReal)) = ((∑ k, r k * r k : ℝ) : EReal) := by
  rw [ssq, lit_zero, zero_add, coe_sum]
  exact Finset.sum_congr rfl fun k _ => (EReal.coe_mul _ _).symm

/-- The root of the squared floor is the floor. -/
private theorem eps_sq_eq : Real.sqrt (5316911940649 / 5316911983139663491615228241121378304) = 2305843 / 2 ^ 61 := by
  rw [show (5316911940649 / 5316911983139663491615228241121378304 : ℝ) = (2305843 / 2 ^ 61) ^ 2 by norm_num]
  exact Real.sqrt_sq (by positivity)

/-- The floored length of a real row is the root of the floored sum of squares: the root is monotone. -/
private theorem nrm_coe (r : Fin 512 → ℝ) :
    nrm (fun k => (r k : EReal))
      = ((Real.sqrt (max (∑ k, r k * r k) (5316911940649 / 5316911983139663491615228241121378304)) : ℝ) : EReal) := by
  have hS : (0 : ℝ) ≤ ∑ k, r k * r k := Finset.sum_nonneg fun k _ => mul_self_nonneg _
  rw [nrm, ssq_coe, Ideal.sqrt_coe, if_neg (not_lt.mpr hS), lit_eps, ← coe_max', Real.sqrt_monotone.map_max, eps_sq_eq]

private theorem nrm_pos (r : Fin 512 → ℝ) :
    0 < Real.sqrt (max (∑ k, r k * r k) (5316911940649 / 5316911983139663491615228241121378304)) :=
  Real.sqrt_pos.mpr (lt_max_of_lt_right (by norm_num))

/-- Every entry is a real number. -/
def AllReal {ι κ : Type} (f : ι → κ → EReal) : Prop := ∀ a k, ∃ r : ℝ, f a k = (r : EReal)

/-- Scaling a real row by the reciprocal square root of its squared length floored at ε² is dividing it by its length floored at ε:
    √ is monotone and √(ε²) = ε, and a quotient by a positive real is the product with its inverse. -/
theorem unitRow_rsqrt (v : Fin 512 → EReal) (hv : ∀ k, ∃ r : ℝ, v k = (r : EReal)) (k : Fin 512) :
    v k * Ideal.rsqrt (max (ssq v) epsSq) = unitRow v k := by
  choose r hr using hv
  obtain rfl : v = fun k => (r k : EReal) := funext hr
  have hm : (0 : ℝ) < max (∑ k, r k * r k) (5316911940649 / 5316911983139663491615228241121378304) :=
    lt_max_of_lt_right (by norm_num)
  rw [unitRow, nrm_coe, Ideal.div_coe (nrm_pos r).ne', ssq_coe, ← coe_max', Ideal.rsqrt_coe,
    if_neg (not_lt.mpr hm.le), if_neg hm.ne', one_div]

/-- A real row's unit row is real. -/
private theorem unitRow_real (v : Fin 512 → EReal) (hv : ∀ k, ∃ r : ℝ, v k = (r : EReal)) (k : Fin 512) :
    ∃ r : ℝ, unitRow v k = (r : EReal) := by
  choose r hr using hv
  obtain rfl : v = fun k => (r k : EReal) := funext hr
  rw [unitRow, nrm_coe, Ideal.div_coe (nrm_pos r).ne']
  exact real_mul ⟨_, rfl⟩ ⟨_, rfl⟩

private theorem cosv_real (x : Fin 512 → Fin 512 → EReal) (w : Fin 100000 → Fin 512 → EReal)
    (hx : AllReal x) (hw : AllReal w) (b : Fin 512) (j : Fin 100000) : ∃ r : ℝ, cosv x w b j = (r : EReal) :=
  real_sum _ _ fun k => real_mul (unitRow_real _ (hx b) k) (unitRow_real _ (hw j) k)

/-- The margin of a real cosine is real: the root is taken of a maximum with zero. -/
private theorem margin_real {c : EReal} (hc : ∃ r : ℝ, c = r) : ∃ r : ℝ, margin c = (r : EReal) := by
  unfold margin
  split_ifs
  · refine real_sub (real_mul hc (lit_real _ (by decide))) (real_mul (real_sqrt ?_ ?_) (lit_real _ (by decide)))
    · exact real_max (lit_real _ (by decide)) (real_sub (lit_real _ (by decide)) (real_mul hc hc))
    · rw [lit_zero]; exact le_max_left _ _
  · exact real_sub hc (lit_real _ (by decide))

/-- Real inputs give real logits. -/
theorem outv_real (x : Fin 512 → Fin 512 → EReal) (lab : Fin 512 → BitVec 32) (w : Fin 100000 → Fin 512 → EReal)
    (hx : AllReal x) (hw : AllReal w) : AllReal (outv x lab w) := by
  intro b j
  unfold outv
  split_ifs
  · exact real_mul (margin_real (cosv_real x w hx hw b j)) (lit_real _ (by decide))
  · exact real_mul (cosv_real x w hx hw b j) (lit_real _ (by decide))

/-! ## Log-sum-exp over the reals -/

/-- Shifting every exponent by a real `a` and adding `a` back outside the logarithm changes nothing. -/
private theorem lse_shift {ι : Type} (s : Finset ι) (hs : s.Nonempty) (r : ι → ℝ) (a : ℝ) :
    a + Real.log (∑ j ∈ s, Real.exp (r j - a)) = Real.log (∑ j ∈ s, Real.exp (r j)) := by
  have hpos : 0 < ∑ j ∈ s, Real.exp (r j) := Finset.sum_pos (fun j _ => Real.exp_pos _) hs
  have e : ∑ j ∈ s, Real.exp (r j - a) = Real.exp (-a) * ∑ j ∈ s, Real.exp (r j) := by
    rw [Finset.mul_sum]
    exact Finset.sum_congr rfl fun j _ => by rw [← Real.exp_add]; congr 1; ring
  rw [e, Real.log_mul (Real.exp_pos _).ne' hpos.ne', Real.log_exp]; ring

private theorem halfCols_zero_nonempty : (halfCols 0).Nonempty :=
  ⟨⟨0, by norm_num⟩, by simp [halfCols]⟩

private theorem halfCols_one_nonempty : (halfCols 1).Nonempty :=
  ⟨⟨51200, by norm_num⟩, by simp [halfCols]⟩

/-- The two halves partition the class axis. -/
private theorem halves_sum (f : Fin 100000 → ℝ) :
    ∑ j ∈ halfCols 0, f j + ∑ j ∈ halfCols 1, f j = ∑ j, f j := by
  have e0 : ((0 : Fin 2) : ℕ) = 0 := rfl
  have e1 : ((1 : Fin 2) : ℕ) = 1 := rfl
  have h1 : halfCols 1 = Finset.univ.filter (fun j : Fin 100000 => ¬ (j.val / 51200 = (0 : Fin 2).val)) := by
    unfold halfCols
    apply Finset.filter_congr
    intro j _
    have := j.isLt
    rw [e0, e1]; omega
  rw [h1]; unfold halfCols
  exact Finset.sum_filter_add_sum_filter_not _ _ _

/-- The two rescaled half sums under one logarithm, plus the common shift, are the row's log-sum-exp. -/
private theorem lse_halves_real (r : Fin 100000 → ℝ) (M0 M1 M : ℝ) :
    M + Real.log (Real.exp (M0 - M) * ∑ j ∈ halfCols 0, Real.exp (r j - M0)
                  + Real.exp (M1 - M) * ∑ j ∈ halfCols 1, Real.exp (r j - M1))
      = Real.log (∑ j, Real.exp (r j)) := by
  have e : ∀ (h : Fin 2) (Mh : ℝ),
      Real.exp (Mh - M) * ∑ j ∈ halfCols h, Real.exp (r j - Mh) = ∑ j ∈ halfCols h, Real.exp (r j - M) := by
    intro h Mh
    rw [Finset.mul_sum]
    exact Finset.sum_congr rfl fun j _ => by rw [← Real.exp_add]; congr 1; ring
  rw [e 0 M0, e 1 M1, halves_sum, lse_shift _ ⟨⟨0, by norm_num⟩, Finset.mem_univ _⟩]

/-! ## The rows' statistics on real logits -/

/-- The supremum of coerced reals over a nonempty finite set is a coerced real. -/
private theorem sup_coe {ι : Type} (s : Finset ι) (hs : s.Nonempty) (r : ι → ℝ) :
    s.sup (fun j => (r j : EReal)) = ((s.sup' hs r : ℝ) : EReal) := by
  apply le_antisymm
  · exact Finset.sup_le fun j hj => EReal.coe_le_coe_iff.mpr (Finset.le_sup' r hj)
  · obtain ⟨j, hj, e⟩ := Finset.exists_mem_eq_sup' hs r
    rw [e]; exact Finset.le_sup (f := fun j => (r j : EReal)) hj

/-- A real row's log-sum-exp as assembled from the halves is the coerced real log-sum-exp. -/
private theorem lseHalves_coe (o : Fin 512 → Fin 100000 → EReal) (b : Fin 512) (r : Fin 100000 → ℝ)
    (hr : ∀ j, o b j = (r j : EReal)) :
    lseHalves o b = ((Real.log (∑ j, Real.exp (r j)) : ℝ) : EReal) := by
  have ho : o b = fun j => (r j : EReal) := funext hr
  obtain ⟨M0, h0⟩ : ∃ M0 : ℝ, halfMax o 0 b = (M0 : EReal) :=
    ⟨_, by unfold halfMax; rw [ho]; exact sup_coe _ halfCols_zero_nonempty r⟩
  obtain ⟨M1, h1⟩ : ∃ M1 : ℝ, halfMax o 1 b = (M1 : EReal) :=
    ⟨_, by unfold halfMax; rw [ho]; exact sup_coe _ halfCols_one_nonempty r⟩
  have s0 : halfSum o 0 b = ((∑ j ∈ halfCols 0, Real.exp (r j - M0) : ℝ) : EReal) := by
    unfold halfSum; rw [h0, coe_sum]
    exact Finset.sum_congr rfl fun j _ => by rw [hr j, ← EReal.coe_sub, Ideal.exp_coe]
  have s1 : halfSum o 1 b = ((∑ j ∈ halfCols 1, Real.exp (r j - M1) : ℝ) : EReal) := by
    unfold halfSum; rw [h1, coe_sum]
    exact Finset.sum_congr rfl fun j _ => by rw [hr j, ← EReal.coe_sub, Ideal.exp_coe]
  have hpos : 0 < Real.exp (M0 - max M0 M1) * ∑ j ∈ halfCols 0, Real.exp (r j - M0)
      + Real.exp (M1 - max M0 M1) * ∑ j ∈ halfCols 1, Real.exp (r j - M1) :=
    add_pos (mul_pos (Real.exp_pos _) (Finset.sum_pos (fun j _ => Real.exp_pos _) halfCols_zero_nonempty))
      (mul_pos (Real.exp_pos _) (Finset.sum_pos (fun j _ => Real.exp_pos _) halfCols_one_nonempty))
  unfold lseHalves
  rw [s0, s1, h0, h1, ← coe_max', ← EReal.coe_sub, ← EReal.coe_sub, Ideal.exp_coe, Ideal.exp_coe, ← EReal.coe_mul,
    ← EReal.coe_mul, ← EReal.coe_add, Ideal.log_coe, if_neg (not_le.mpr hpos), ← EReal.coe_add, lse_halves_real]

/-- On a real row the row maximum and the log of the shifted sum are reals adding up to the log-sum-exp. -/
private theorem rowMax_lseShift_coe (o : Fin 512 → Fin 100000 → EReal) (b : Fin 512) (r : Fin 100000 → ℝ)
    (hr : ∀ j, o b j = (r j : EReal)) :
    ∃ M ls : ℝ, rowMax o b = (M : EReal) ∧ lseShift o b = (ls : EReal) ∧ M + ls = Real.log (∑ j, Real.exp (r j)) := by
  have ho : o b = fun j => (r j : EReal) := funext hr
  have hne : (Finset.univ : Finset (Fin 100000)).Nonempty := ⟨⟨0, by norm_num⟩, Finset.mem_univ _⟩
  obtain ⟨M, hM⟩ : ∃ M : ℝ, rowMax o b = (M : EReal) :=
    ⟨_, by unfold rowMax; rw [lit_ninf, ho, sup_coe _ hne r]; exact max_eq_right bot_le⟩
  have hpos : 0 < ∑ j, Real.exp (r j - M) := Finset.sum_pos (fun j _ => Real.exp_pos _) hne
  refine ⟨M, Real.log (∑ j, Real.exp (r j - M)), hM, ?_, lse_shift _ hne r M⟩
  unfold lseShift
  rw [lit_zero, zero_add, hM]
  have e : ∑ j, Ideal.exp (o b j - (M : EReal)) = ((∑ j, Real.exp (r j - M) : ℝ) : EReal) := by
    rw [coe_sum]
    exact Finset.sum_congr rfl fun j _ => by rw [hr j, ← EReal.coe_sub, Ideal.exp_coe]
  rw [e, Ideal.log_coe, if_neg (not_le.mpr hpos)]

/-- Per row the kernel's term is minus the reference's, and the reference's is never `⊤`: inside the class axis both are
    differences of reals; outside, the first is a real minus `⊥`, that is `⊤`, and the second is `⊥`. -/
private theorem row_neg (o : Fin 512 → Fin 100000 → EReal) (lab : Fin 512 → BitVec 32) (b : Fin 512)
    (hrow : ∀ j, ∃ r : ℝ, o b j = (r : EReal)) :
    lseHalves o b - tgt o lab b = -(tgtLogp o lab b) ∧ tgtLogp o lab b ≠ ⊤ := by
  choose r hr using hrow
  obtain ⟨M, ls, hM, hls, hsum⟩ := rowMax_lseShift_coe o b r hr
  have hL := lseHalves_coe o b r hr
  unfold tgt tgtLogp
  split_ifs with hp
  · rw [hL, hr, hM, hls, ← EReal.coe_sub, ← EReal.coe_sub, ← EReal.coe_sub, ← EReal.coe_neg]
    refine ⟨?_, EReal.coe_ne_top _⟩
    rw [EReal.coe_eq_coe_iff, ← hsum]; ring
  · rw [hL, lit_nan]
    exact ⟨by rw [EReal.coe_sub_bot, EReal.neg_bot], bot_ne_top⟩

/-- Negation passes through a finite sum none of whose terms is `⊤`. -/
private theorem neg_sum {ι : Type} (s : Finset ι) (f : ι → EReal) (h : ∀ i, f i ≠ ⊤) :
    -(∑ i ∈ s, f i) = ∑ i ∈ s, -(f i) ∧ ∑ i ∈ s, f i ≠ ⊤ := by
  classical
  induction s using Finset.induction_on with
  | empty => simp
  | insert a s ha ih =>
    rw [Finset.sum_insert ha, Finset.sum_insert ha, EReal.neg_add (.inr ih.2) (.inl (h a)), sub_eq_add_neg, ih.1]
    exact ⟨rfl, EReal.add_ne_top (h a) ih.2⟩

/-- On real logits the two assemblies of the loss agree: per row, max-of-halves plus the log of the two rescaled half sums is the
    row's log-sum-exp, which is also rowMax plus the log of the shifted sum; a row whose picked index is outside the class axis
    contributes ⊤ to the first sum and ⊥ to the second, and minus the second mean is the first. -/
theorem loss_eq (o : Fin 512 → Fin 100000 → EReal) (lab : Fin 512 → BitVec 32) (ho : AllReal o) :
    lossHalves o lab = lossShift o lab := by
  have hrow := fun b => row_neg o lab b (ho b)
  have h512 : (512 : ℝ) ≠ 0 := by norm_num
  unfold lossHalves lossShift
  rw [lit_zero, zero_add, zero_add, lit_512, Ideal.div_coe h512, Ideal.div_coe h512, ← EReal.neg_mul,
    (neg_sum _ _ fun b => (hrow b).2).1, Finset.sum_congr rfl fun b _ => (hrow b).1]

end Cert.Arc

end
-- ==== Proof.OnlineAlgebra.lean ====
/-
  Extended-real lemmas for a running maximum and a running rescaled sum of exponentials over tiles of an index set.

  The state after the tiles covering a finite set s is the pair (m, l) with m the supremum of the entries over s and
  l = Σ_{j ∈ s} e^(o j - m). A further tile t, disjoint from s, gives m' = max m (sup over t) and
  l' = e^(m - m') · l + Σ_{j ∈ t} e^(o j - m'), and the facts below say that (m', l') is the state for s ∪ t:
  e^(m - m') · e^(x - m) = e^(x - m') for every extended real x and real m, m'; a product distributes over a finite sum
  of nonnegative extended reals; and the supremum over a union is the larger of the two suprema. Before the first tile
  m = ⊥ and e^(⊥ - m') = 0, so the old sum drops out whatever it holds. An entry equal to ⊥ (a masked lane) contributes
  nothing to a supremum and e^(⊥ - m) = 0 to a sum, so both may be taken over the unmasked lanes alone.
-/
import proofs.«402648_j62706522521602_3_alg».proof.Proof.Algebra

noncomputable section

namespace Cert.Arc

open Idealize.ShloMosaic

variable {ι κ : Type}

/-! ## Words and coercions -/

/-- The zero word denotes `0`. -/
theorem zero_word : lit 0x00000000#32 = 0 := by simp [Ideal.ofBits, Ideal.ieee]

/-- The word of `-∞` denotes `⊥`. -/
theorem ninf_word : lit 0xFF800000#32 = ⊥ := by simp [Ideal.ofBits, Ideal.ieee]

/-- The coercion of the reals commutes with finite sums. -/
theorem ereal_coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals commutes with the maximum. -/
theorem ereal_coe_max (a b : ℝ) : ((max a b : ℝ) : EReal) = max (a : EReal) (b : EReal) :=
  Monotone.map_max EReal.coe_strictMono.monotone

/-- The maximum of two reals is a real. -/
theorem max_isReal {x y : EReal} (hx : ∃ r : ℝ, x = r) (hy : ∃ r : ℝ, y = r) : ∃ r : ℝ, max x y = r := by
  obtain ⟨a, rfl⟩ := hx; obtain ⟨b, rfl⟩ := hy; exact ⟨max a b, (ereal_coe_max a b).symm⟩

/-! ## (1) Suprema -/

/-- Over a nonempty finite set the supremum of coerced reals is the coerced real supremum. -/
theorem sup_coe_real (s : Finset ι) (hs : s.Nonempty) (r : ι → ℝ) :
    s.sup (fun j => (r j : EReal)) = ((s.sup' hs r : ℝ) : EReal) := by
  apply le_antisymm
  · exact Finset.sup_le fun j hj => EReal.coe_le_coe_iff.mpr (Finset.le_sup' r hj)
  · obtain ⟨j, hj, e⟩ := Finset.exists_mem_eq_sup' hs r
    rw [e]; exact Finset.le_sup (f := fun j => (r j : EReal)) hj

/-- Over a nonempty finite set of real entries the supremum is a real, attained at a member. -/
theorem sup_isReal (s : Finset ι) (hs : s.Nonempty) (o : ι → EReal) (ho : ∀ j ∈ s, ∃ r : ℝ, o j = r) :
    ∃ M : ℝ, s.sup o = (M : EReal) := by
  obtain ⟨j, hj, e⟩ := Finset.exists_mem_eq_sup s hs o
  obtain ⟨r, hr⟩ := ho j hj
  exact ⟨r, e.trans hr⟩

/-- The supremum over a union is the larger of the two suprema. -/
theorem sup_union_max [DecidableEq ι] (s t : Finset ι) (o : ι → EReal) :
    (s ∪ t).sup o = max (s.sup o) (t.sup o) := Finset.sup_union

/-! ## (2) The first tile -/

/-- A maximum started at the word of `-∞` is the other operand. -/
theorem max_ninf_word (x : EReal) : max (lit 0xFF800000#32) x = x := by rw [ninf_word]; exact max_bot_left x

/-- `e^(-∞ - x) = 0` for a real `x`. -/
theorem exp_bot_sub (x : ℝ) : Ideal.exp (⊥ - (x : EReal)) = 0 := by rw [EReal.bot_sub, Ideal.exp_bot]

/-- Before the first tile the correction factor is `0`, and it removes the old sum whatever that is. -/
theorem exp_bot_sub_mul (x : ℝ) (y : EReal) : Ideal.exp (⊥ - (x : EReal)) * y = 0 := by rw [exp_bot_sub, zero_mul]

/-- The first tile: from the state `(⊥, y)` the new sum is the tile's own. -/
theorem first_tile (t : Finset ι) (o : ι → EReal) (M' : ℝ) (y : EReal) :
    Ideal.exp (⊥ - (M' : EReal)) * y + (lit 0x00000000#32 + ∑ j ∈ t, Ideal.exp (o j - (M' : EReal)))
      = ∑ j ∈ t, Ideal.exp (o j - (M' : EReal)) := by
  rw [exp_bot_sub_mul, zero_word, zero_add, zero_add]

/-! ## (3) The step -/

/-- An exponential is nonnegative. -/
theorem exp_nonneg_ereal (x : EReal) : 0 ≤ Ideal.exp x := by
  induction x with
  | bot => rw [Ideal.exp_bot]
  | top => rw [Ideal.exp_top]; exact le_top
  | coe r => rw [Ideal.exp_coe]; exact_mod_cast (Real.exp_pos r).le

/-- Rescaling one exponential from the shift `M` to the shift `M'`, at every extended real `x`. -/
theorem exp_rescale (x : EReal) (M M' : ℝ) :
    Ideal.exp ((M : EReal) - (M' : EReal)) * Ideal.exp (x - (M : EReal)) = Ideal.exp (x - (M' : EReal)) := by
  induction x with
  | bot => rw [EReal.bot_sub, EReal.bot_sub, Ideal.exp_bot, mul_zero]
  | top =>
    rw [EReal.top_sub_coe, EReal.top_sub_coe, Ideal.exp_top, ← EReal.coe_sub, Ideal.exp_coe]
    exact EReal.coe_mul_top_of_pos (Real.exp_pos _)
  | coe r =>
    rw [← EReal.coe_sub, ← EReal.coe_sub, ← EReal.coe_sub, Ideal.exp_coe, Ideal.exp_coe, Ideal.exp_coe, ← EReal.coe_mul,
      ← Real.exp_add]
    congr 2; ring

/-- A product distributes over a finite sum of nonnegative extended reals. -/
theorem mul_sum_of_nonneg (s : Finset ι) (c : EReal) (f : ι → EReal) (hf : ∀ j ∈ s, 0 ≤ f j) :
    c * ∑ j ∈ s, f j = ∑ j ∈ s, c * f j := by
  classical
  induction s using Finset.induction_on with
  | empty => simp
  | insert a s ha ih =>
    rw [Finset.sum_insert ha, Finset.sum_insert ha,
      EReal.left_distrib_of_nonneg (hf a (Finset.mem_insert_self a s))
        (Finset.sum_nonneg fun j hj => hf j (Finset.mem_insert_of_mem hj)),
      ih fun j hj => hf j (Finset.mem_insert_of_mem hj)]

/-- Rescaling a whole sum of exponentials from the shift `M` to the shift `M'`. -/
theorem rescale_sum (s : Finset ι) (o : ι → EReal) (M M' : ℝ) :
    Ideal.exp ((M : EReal) - (M' : EReal)) * ∑ j ∈ s, Ideal.exp (o j - (M : EReal))
      = ∑ j ∈ s, Ideal.exp (o j - (M' : EReal)) := by
  rw [mul_sum_of_nonneg _ _ _ fun j _ => exp_nonneg_ereal _]
  exact Finset.sum_congr rfl fun j _ => exp_rescale _ _ _

/-- The step on the sums: the rescaled old sum plus the new tile's sum (started at the zero word) is the sum over the union. -/
theorem online_step [DecidableEq ι] (s t : Finset ι) (hd : Disjoint s t) (o : ι → EReal) (M M' : ℝ) :
    Ideal.exp ((M : EReal) - (M' : EReal)) * (∑ j ∈ s, Ideal.exp (o j - (M : EReal)))
        + (lit 0x00000000#32 + ∑ j ∈ t, Ideal.exp (o j - (M' : EReal)))
      = ∑ j ∈ s ∪ t, Ideal.exp (o j - (M' : EReal)) := by
  rw [rescale_sum, zero_word, zero_add, Finset.sum_union hd]

/-- The same step with the two shifts given as extended reals known to be real. -/
theorem online_step_of_isReal [DecidableEq ι] (s t : Finset ι) (hd : Disjoint s t) (o : ι → EReal) (M M' : EReal)
    (hM : ∃ m : ℝ, M = m) (hM' : ∃ m : ℝ, M' = m) :
    Ideal.exp (M - M') * (∑ j ∈ s, Ideal.exp (o j - M)) + (lit 0x00000000#32 + ∑ j ∈ t, Ideal.exp (o j - M'))
      = ∑ j ∈ s ∪ t, Ideal.exp (o j - M') := by
  obtain ⟨m, rfl⟩ := hM; obtain ⟨m', rfl⟩ := hM'; exact online_step s t hd o m m'

/-- The step on the whole state: from `(sup over s, Σ over s)`, with real entries on `s ∪ t` and `s` nonempty, the update is the
    state of `s ∪ t`. -/
theorem online_step_state [DecidableEq ι] (s t : Finset ι) (hs : s.Nonempty) (hd : Disjoint s t) (o : ι → EReal)
    (ho : ∀ j ∈ s ∪ t, ∃ r : ℝ, o j = r) :
    max (s.sup o) (t.sup o) = (s ∪ t).sup o ∧
    Ideal.exp (s.sup o - max (s.sup o) (t.sup o)) * (∑ j ∈ s, Ideal.exp (o j - s.sup o))
        + (lit 0x00000000#32 + ∑ j ∈ t, Ideal.exp (o j - max (s.sup o) (t.sup o)))
      = ∑ j ∈ s ∪ t, Ideal.exp (o j - (s ∪ t).sup o) := by
  have hM := sup_isReal s hs o fun j hj => ho j (Finset.mem_union_left t hj)
  have hM' := sup_isReal (s ∪ t) (hs.mono Finset.subset_union_left) o ho
  rw [← sup_union_max]
  exact ⟨rfl, online_step_of_isReal s t hd o _ _ hM hM'⟩

/-! ## (4) Masked lanes -/

/-- A supremum ignores the lanes filled with `⊥`. -/
theorem sup_ite_bot (s : Finset ι) (p : ι → Prop) [DecidablePred p] (x : ι → EReal) :
    s.sup (fun j => if p j then x j else ⊥) = (s.filter p).sup x := by
  rw [Finset.sup_ite, Finset.sup_bot, sup_bot_eq]

/-- A sum of exponentials ignores the lanes filled with `⊥`: each contributes `e^(-∞) = 0`. -/
theorem sum_exp_ite_bot (s : Finset ι) (p : ι → Prop) [DecidablePred p] (x : ι → EReal) (M : ℝ) :
    ∑ j ∈ s, Ideal.exp ((if p j then x j else ⊥) - (M : EReal)) = ∑ j ∈ s.filter p, Ideal.exp (x j - (M : EReal)) := by
  rw [Finset.sum_filter]
  refine Finset.sum_congr rfl fun j _ => ?_
  split_ifs <;> first | rfl | exact exp_bot_sub M

/-- A supremum is the supremum over the entries that are not `⊥`. -/
theorem sup_filter_ne_bot (s : Finset ι) (o : ι → EReal) : s.sup o = (s.filter fun j => o j ≠ ⊥).sup o := by
  apply le_antisymm
  · refine Finset.sup_le fun j hj => ?_
    by_cases h : o j = ⊥
    · rw [h]; exact bot_le
    · exact Finset.le_sup (Finset.mem_filter.mpr ⟨hj, h⟩)
  · exact Finset.sup_mono (Finset.filter_subset _ _)

/-- A sum of exponentials is the sum over the entries that are not `⊥`. -/
theorem sum_exp_filter_ne_bot (s : Finset ι) (o : ι → EReal) (M : ℝ) :
    ∑ j ∈ s, Ideal.exp (o j - (M : EReal)) = ∑ j ∈ s.filter (fun j => o j ≠ ⊥), Ideal.exp (o j - (M : EReal)) := by
  rw [Finset.sum_filter]
  refine Finset.sum_congr rfl fun j _ => ?_
  by_cases h : o j = ⊥
  · rw [if_neg (not_not.mpr h), h]; exact exp_bot_sub M
  · rw [if_pos h]

/-! ## (5) Re-indexing along an injection -/

/-- A sum of exponentials over the image of an embedding is the sum over the source. -/
theorem sum_exp_map (s : Finset κ) (e : κ ↪ ι) (o : ι → EReal) (M : EReal) :
    ∑ j ∈ s.map e, Ideal.exp (o j - M) = ∑ i ∈ s, Ideal.exp (o (e i) - M) := Finset.sum_map s e _

/-- A supremum over the image of an embedding is the supremum over the source. -/
theorem sup_map_embedding (s : Finset κ) (e : κ ↪ ι) (o : ι → EReal) :
    (s.map e).sup o = s.sup (fun i => o (e i)) := Finset.sup_map s e o

/-- A sum over the image of a function injective on the source is the sum over the source. -/
theorem sum_image_of_injOn [DecidableEq ι] (s : Finset κ) (g : κ → ι) (hg : Set.InjOn g s) (f : ι → EReal) :
    ∑ j ∈ s.image g, f j = ∑ i ∈ s, f (g i) := Finset.sum_image hg

/-- A supremum over an image is the supremum over the source (no injectivity needed). -/
theorem sup_image_fun [DecidableEq ι] (s : Finset κ) (g : κ → ι) (o : ι → EReal) :
    (s.image g).sup o = s.sup (fun i => o (g i)) := Finset.sup_image s g o

end Cert.Arc

end
-- ==== Proof.ScratchValue.lean ====
/-
  What the two scratch columns hold after the last tile of each half of the class axis.

  The blocks the body reads are the arrays' own rows: the embeddings block is the scaled embeddings, the labels block the
  labels, and row jj of tile t's weights block is row 2560 t + jj of the weights where that row exists. So inside the class
  axis the tile's logit is the specification's logit at column 2560 t + jj, and the running maximum and running rescaled sum
  carried over the tiles of a half end at that half's largest logit and its sum of exponentials shifted by it.
-/
import proofs.«402648_j62706522521602_3_alg».proof.Proof.IData
import proofs.«402648_j62706522521602_3_alg».proof.Proof.Spec
import proofs.«402648_j62706522521602_3_alg».proof.Proof.TileValue
import proofs.«402648_j62706522521602_3_alg».proof.Proof.Algebra
import proofs.«402648_j62706522521602_3_alg».proof.Proof.OnlineAlgebra
import proofs.«402648_j62706522521602_3_alg».proof.Defs
import proofs.«402648_j62706522521602_3_alg».proof.Proof.Gen.Pre_finite_inputs
import Idealize.ShloMosaic.Lib.IdealHost
import Idealize.ShloMosaic.PureOps.Ideal.Laws
import Idealize.ShloMosaic.Lib.ReduceAll
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Cert.Arc Idealize.ShloMosaic Idealize.ShloMosaic.TcCoe
open Idealize.ShloMosaic.Pipeline (Window)
open Idealize.ShloMosaic.ValueIdx

variable (m : (ℓ : Loc nD τ sig) → Buf (Elt Ideal) ℓ)

/-- The three arguments read as rows, and the specification's logits of them. -/
abbrev argX (c : Dev nD) : Fin 512 → Fin 512 → EReal := rows (m ((c.tc : Thread nD τ).loc main_arg0))
abbrev argLab (c : Dev nD) : Fin 512 → BitVec 32 := row1 (m ((c.tc : Thread nD τ).loc main_arg1))
abbrev argW (c : Dev nD) : Fin 100000 → Fin 512 → EReal := rows (m ((c.tc : Thread nD τ).loc main_arg2))
abbrev logits (c : Dev nD) : Fin 512 → Fin 100000 → EReal := outv (argX m c) (argLab m c) (argW m c)

namespace ScratchCols

/-! ## Finite inputs are real entries -/

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end ScratchCols
open ScratchCols

/-- Finite inputs are real entries. -/
theorem finite_args (hpre : Cert.Pre_KernelIdeal m) (c : Dev nD) : AllReal (argX m c) ∧ AllReal (argW m c) := by
  haveI : Subsingleton Cert.Pre_finite_inputs.S_.Idx := ⟨fun a b => funext fun d => d.elim0⟩
  have h := congrFun (hpre c) ValueIdx.ix0
  dsimp only [Cert.Pre_finite_inputs.fn] at h
  obtain ⟨h3, h7⟩ := IntOp.andi_eq_one.1 h
  constructor
  · intro a k
    exact real_of_abs_lt_top _ (Host.reduce_andi_all _ _ _ _ _ h3 (ix2 a k))
  · intro a k
    exact real_of_abs_lt_top _ (Host.reduce_andi_all _ _ _ _ _ h7 (ix2 a k))

namespace ScratchCols

/-! ## The blocks are the arrays' rows -/

/-- The weights window's index map and cut sizes, decided once over the grid: tile t starts at row 2560 t and has as
    many rows as fit before the array's end; it spans the columns. -/
theorem wwin_facts : ∀ t : Fin cfg0.N, win0_1.index t (0 : Fin 2) = t.val ∧ win0_1.index t (1 : Fin 2) = 0
    ∧ win0_1.xsize (grid0.coords t) (0 : Fin 2) = min 2560 (100000 - 2560 * t.val)
    ∧ win0_1.xsize (grid0.coords t) (1 : Fin 2) = 512 :=
  (by decide +kernel : ∀ t : Fin grid0.N, _)

/-- Row jj of tile t's weights block is row 2560 t + jj of the weights, where that row exists. -/
theorem wblk_row (c : Dev nD) (t : Fin cfg0.N) (jj : Fin 2560) (k : Fin 512) (hj : 2560 * t.val + jj.val < 100000) :
    wblk m c t (ix2 jj k) = argW m c ⟨2560 * t.val + jj.val, hj⟩ k := by
  obtain ⟨e0, e1, x0, x1⟩ := wwin_facts t
  have hmv : win0_1.moved (grid0.coords t) (ix2 jj k) = true := by
    rw [Window.moved_iff]
    intro a
    match a with
    | ⟨0, _⟩ => show jj.val < win0_1.xsize (grid0.coords t) (0 : Fin 2); rw [x0]; have := jj.isLt; omega
    | ⟨1, _⟩ => show k.val < win0_1.xsize (grid0.coords t) (1 : Fin 2); rw [x1]; exact k.isLt
  unfold wblk wfill Window.fill
  rw [dif_pos hmv]
  show V m c main_arg2 (((cfg0.win 1).blk t).view.emb _) = _
  rw [V_main_arg2]
  refine congrArg (m ((c.tc : Thread nD τ).loc main_arg2)) (funext fun a => Fin.ext ?_)
  match a with
  | ⟨0, _⟩ => show win0_1.index t (0 : Fin 2) * 2560 + 1 * jj.val = 2560 * t.val + jj.val; rw [e0]; omega
  | ⟨1, _⟩ => show win0_1.index t (1 : Fin 2) * 512 + 1 * k.val = k.val; rw [e1]; omega

/-- The embeddings' and the labels' windows hold their whole arrays at every point. -/
theorem xlwin_facts : ∀ t : Fin cfg0.N, win0_0.index t (0 : Fin 2) = 0 ∧ win0_0.index t (1 : Fin 2) = 0
    ∧ win0_2.index t (0 : Fin 2) = 0 ∧ win0_2.index t (1 : Fin 2) = 0 :=
  (by decide +kernel : ∀ t : Fin grid0.N, _)

/-- The host's scaling of the embeddings, as the program writes it before the region. -/
def xstaged (A : Vec Ideal S512x512 .f32) : Vec Ideal S512x512 .bf16 :=
  truncf .bf16 (Host.divf A (broadcastInDim S512x512 ![0, 1] bcast_S512x1_S512x512_0_1
    (maximumf (Host.sqrt (broadcastInDim S512x1 ![0] bcast_S512_S512x1_0
        (Host.reduceAdd (mulf A A) (constant (F := Ideal) S_ .f32 0x00000000#32) reducesTo_S512x512_S512_d1 h_S_)))
      (broadcastInDim S512x1 ![] bcast_S_S512x1 (constant (F := Ideal) S_ .f32 0x2B8CBCCC#32))))) bitsLt_bf16_f32

/-- A column spread over the rows' entries reads the row's entry of the column. -/
theorem col_to_mat_apply (v : S512x1.Idx → EReal) (b k : Fin 512) :
    broadcastInDim S512x512 ![0, 1] bcast_S512x1_S512x512_0_1 v (ix2 b k) = v (ix2 b 0) :=
  broadcastInDim_apply _ _ v (ix2 b k) (ix2 b 0) (fun a => by match a with | ⟨0, _⟩ => rfl | ⟨1, _⟩ => rfl)

/-- A vector stood up as a column reads the vector's entry. -/
theorem vec_to_col_apply (v : S512.Idx → EReal) (b : Fin 512) :
    broadcastInDim S512x1 ![0] bcast_S512_S512x1_0 v (ix2 b 0) = v (ix1 b) :=
  broadcastInDim_apply _ _ v (ix2 b 0) (ix1 b) (fun a => by match a with | ⟨0, _⟩ => rfl)

/-- A row's sum of squares as the host's reduction writes it. -/
theorem rowsq_apply (A : Vec Ideal S512x512 .f32) (b : Fin 512) :
    Host.reduceAdd (mulf A A) (constant (F := Ideal) S_ .f32 0x00000000#32) reducesTo_S512x512_S512_d1 h_S_ (ix1 b) = ssq (rows A b) := by
  have h : S512x512.Reduces [1] S512 := by decide
  rw [hostReduceAdd_apply, Ideal.hostReduceAdd_single reducesTo_S512x512_S512_d1 h]
  have e : ∀ k : Fin 512, h.lift (ix1 b) k = ix2 b k := fun k =>
    funext fun a => Fin.ext (by match a with | ⟨0, _⟩ => rfl | ⟨1, _⟩ => rfl)
  show Ideal.ofBits .f32 0x00000000#32 + ∑ k : Fin 512, A (h.lift (ix1 b) k) * A (h.lift (ix1 b) k) = _
  simp only [e]
  rfl

/-- The host's square root at an entry. -/
theorem hostSqrt_apply {s : Shape} (v : FVec Ideal s .f32) (i : s.Idx) : Host.sqrt v i = Ideal.sqrt (v i) := rfl

theorem xstaged_apply (A : Vec Ideal S512x512 .f32) (b k : Fin 512) : xstaged A (ix2 b k) = unitRow (rows A b) k := by
  unfold xstaged unitRow nrm
  rw [truncf_apply, hostDivf_apply, col_to_mat_apply, maximumf_apply, hostSqrt_apply, vec_to_col_apply,
    broadcastInDim_scalar_apply, rowsq_apply]
  rfl

/-- The embeddings block is the scaled embeddings. -/
theorem xblk_apply (c : Dev nD) (t : Fin cfg0.N) (b k : Fin 512) : xblk m c t (ix2 b k) = unitRow (argX m c b) k := by
  obtain ⟨e0, e1, -, -⟩ := xlwin_facts t
  have e : (V m c main_v8 : S512x512.Idx → EReal) = xstaged (m ((c.tc : Thread nD τ).loc main_arg0)) := by
    show StableHlo.after hostOps0 (fun b => m (c, b)) (Proc.devRef .tc main_v8) = _
    after_results; rfl
  show V m c main_v8 (((cfg0.win 0).blk t).view.emb (ix2 b k)) = _
  rw [e, ← xstaged_apply]
  refine congrArg (xstaged _) (funext fun a => Fin.ext ?_)
  match a with
  | ⟨0, _⟩ => show win0_0.index t (0 : Fin 2) * 512 + 1 * b.val = b.val; rw [e0]; omega
  | ⟨1, _⟩ => show win0_0.index t (1 : Fin 2) * 512 + 1 * k.val = k.val; rw [e1]; omega

/-- The labels block is the labels. -/
theorem lblk_apply (c : Dev nD) (t : Fin cfg0.N) (b : Fin 512) : lblk m c t (ix2 b 0) = argLab m c b := by
  obtain ⟨-, -, e0, e1⟩ := xlwin_facts t
  have e : (V m c main_v9 : S512x1.Idx → BitVec 32) = shapeCast S512x1 (m ((c.tc : Thread nD τ).loc main_arg1)) shapeCasts_S512_S512x1 := by
    show StableHlo.after hostOps0 (fun b => m (c, b)) (Proc.devRef .tc main_v9) = _
    after_results; rfl
  show V m c main_v9 (((cfg0.win 2).blk t).view.emb (ix2 b 0)) = _
  rw [e]
  refine shapeCast_apply _ _ _ (ix1 b) ?_
  rw [Shape.rowMajor_val_one, Shape.rowMajor_val_two]
  show b.val = (win0_2.index t (0 : Fin 2) * 512 + 1 * b.val) * 1 + (win0_2.index t (1 : Fin 2) * 1 + 1 * 0)
  rw [e0, e1]; omega

/-! ## The tile's logit is the specification's -/

/-- Point t's grid coordinates are its tile's number in base 20. -/
theorem coords_tile : ∀ t : Fin cfg0.N, 20 * ((grid0.coords t) 0).val + ((grid0.coords t) 1).val = t.val :=
  (by decide +kernel : ∀ t : Fin grid0.N, _)

theorem colOf_coords (t : Fin cfg0.N) (jj : Fin 2560) : colOf (grid0.coords t) jj = 2560 * t.val + jj.val := by
  unfold colOf; rw [coords_tile t]

end ScratchCols
open ScratchCols

/-- At a lane inside the class axis the tile's logit is the specification's. -/
theorem tile_is_logits (hpre : Cert.Pre_KernelIdeal m) (c : Dev nD) (t : Fin cfg0.N) (b : Fin 512) (jj : Fin 2560) (hj : 2560 * t.val + jj.val < 100000) :
    tileAt (grid0.coords t) (wblk m c t) (xblk m c t) (lblk m c t) b jj = logits m c b ⟨2560 * t.val + jj.val, hj⟩ := by
  have hw : rows (wblk m c t) jj = argW m c ⟨2560 * t.val + jj.val, hj⟩ := funext fun k => wblk_row m c t jj k hj
  have hcos : cosT (wblk m c t) (xblk m c t) b jj = cosv (argX m c) (argW m c) b ⟨2560 * t.val + jj.val, hj⟩ := by
    unfold cosT cosv
    refine Finset.sum_congr rfl fun k _ => ?_
    unfold wUnit
    rw [hw, unitRow_rsqrt _ (fun k => (finite_args m hpre c).2 _ k)]
    show xblk m c t (ix2 b k) * _ = _
    rw [xblk_apply]
  unfold tileAt logits outv isLabel
  rw [hcos, colOf_coords]
  show (if lblk m c t (ix2 b 0) = _ then _ else _) * _ = _
  rw [lblk_apply]

namespace ScratchCols
/-! ## The class columns, tile by tile -/

/-- The class columns of tiles lo, …, hi - 1. -/
def tilesCols (lo hi : ℕ) : Finset (Fin 100000) := Finset.univ.filter fun j => 2560 * lo ≤ j.val ∧ j.val < 2560 * hi

theorem mem_tilesCols (lo hi : ℕ) (j : Fin 100000) : j ∈ tilesCols lo hi ↔ 2560 * lo ≤ j.val ∧ j.val < 2560 * hi := by
  unfold tilesCols; rw [Finset.mem_filter]; exact ⟨fun h => h.2, fun h => ⟨Finset.mem_univ _, h⟩⟩

theorem tilesCols_union (lo mid hi : ℕ) (h1 : lo ≤ mid) (h2 : mid ≤ hi) : tilesCols lo mid ∪ tilesCols mid hi = tilesCols lo hi := by
  ext j; rw [Finset.mem_union, mem_tilesCols, mem_tilesCols, mem_tilesCols]; omega

theorem tilesCols_disjoint (lo mid hi : ℕ) : Disjoint (tilesCols lo mid) (tilesCols mid hi) := by
  rw [Finset.disjoint_left]; intro j h1 h2; rw [mem_tilesCols] at h1 h2; omega

theorem tilesCols_nonempty (lo hi : ℕ) (h : lo < hi) (hlo : 2560 * lo < 100000) : (tilesCols lo hi).Nonempty :=
  ⟨⟨2560 * lo, hlo⟩, by rw [mem_tilesCols]; show 2560 * lo ≤ 2560 * lo ∧ 2560 * lo < 2560 * hi; omega⟩

/-- The two halves of the class axis are tiles 0‥19 and tiles 20‥39. -/
theorem halfCols_zero : halfCols 0 = tilesCols 0 20 := by
  ext j; unfold halfCols; rw [Finset.mem_filter, mem_tilesCols]
  have := j.isLt
  constructor
  · rintro ⟨-, h⟩; have h' : j.val / 51200 = 0 := h; omega
  · intro h; exact ⟨Finset.mem_univ _, show j.val / 51200 = 0 by omega⟩
theorem halfCols_one : halfCols 1 = tilesCols 20 40 := by
  ext j; unfold halfCols; rw [Finset.mem_filter, mem_tilesCols]
  have := j.isLt
  constructor
  · rintro ⟨-, h⟩; have h' : j.val / 51200 = 1 := h; omega
  · intro h; exact ⟨Finset.mem_univ _, show j.val / 51200 = 1 by omega⟩

/-- The class column that lane jj of tile t holds (folded back into the class axis where it holds none). -/
def laneCol (t : ℕ) (jj : Fin 2560) : Fin 100000 := ⟨(2560 * t + jj.val) % 100000, Nat.mod_lt _ (by decide)⟩

/-- The lanes of tile t inside the class axis. -/
def lanesIn (t : ℕ) : Finset (Fin 2560) := Finset.univ.filter fun jj => 2560 * t + jj.val < 100000

theorem mem_lanesIn (t : ℕ) (jj : Fin 2560) : jj ∈ lanesIn t ↔ 2560 * t + jj.val < 100000 := by
  unfold lanesIn; rw [Finset.mem_filter]; exact ⟨fun h => h.2, fun h => ⟨Finset.mem_univ _, h⟩⟩

theorem laneCol_of_lt (t : ℕ) (jj : Fin 2560) (h : 2560 * t + jj.val < 100000) : laneCol t jj = ⟨2560 * t + jj.val, h⟩ :=
  Fin.ext (Nat.mod_eq_of_lt h)

theorem laneCol_injOn (t : ℕ) : Set.InjOn (laneCol t) (lanesIn t : Set (Fin 2560)) := by
  intro a ha b hb hab
  rw [Finset.mem_coe, mem_lanesIn] at ha hb
  rw [laneCol_of_lt t a ha, laneCol_of_lt t b hb] at hab
  have hv : 2560 * t + a.val = 2560 * t + b.val := congrArg Fin.val hab
  exact Fin.ext (by omega)

/-- The lanes inside the class axis hold exactly tile t's class columns. -/
theorem image_laneCol (t : ℕ) : (lanesIn t).image (laneCol t) = tilesCols t (t + 1) := by
  ext j; rw [Finset.mem_image, mem_tilesCols]
  constructor
  · rintro ⟨jj, hjj, rfl⟩
    rw [mem_lanesIn] at hjj
    rw [laneCol_of_lt t jj hjj]
    have := jj.isLt
    show 2560 * t ≤ 2560 * t + jj.val ∧ 2560 * t + jj.val < 2560 * (t + 1)
    omega
  · intro h
    have := j.isLt
    have hlt : 2560 * t + (j.val - 2560 * t) < 100000 := by omega
    refine ⟨⟨j.val - 2560 * t, by omega⟩, (mem_lanesIn t _).mpr hlt, ?_⟩
    rw [laneCol_of_lt t _ hlt]
    exact Fin.ext (by show 2560 * t + (j.val - 2560 * t) = j.val; omega)

theorem lanesIn_univ (t : ℕ) (ht : t < 39) : lanesIn t = Finset.univ := by
  ext jj; rw [mem_lanesIn]; have := jj.isLt
  exact ⟨fun _ => Finset.mem_univ _, fun _ => by omega⟩

/-! ## One tile's lanes as class columns -/

theorem logits_real (hpre : Cert.Pre_KernelIdeal m) (c : Dev nD) (b : Fin 512) (j : Fin 100000) : ∃ r : ℝ, logits m c b j = (r : EReal) :=
  outv_real _ _ _ (finite_args m hpre c).1 (finite_args m hpre c).2 b j

/-- At a lane inside the class axis the tile's logit is the logit of the lane's class column. -/
theorem tile_lane (hpre : Cert.Pre_KernelIdeal m) (c : Dev nD) (n : ℕ) (hn : n < cfg0.N) (b : Fin 512) (jj : Fin 2560)
    (hjj : 2560 * n + jj.val < 100000) :
    tileAt (grid0.coords ⟨n, hn⟩) (wblk m c ⟨n, hn⟩) (xblk m c ⟨n, hn⟩) (lblk m c ⟨n, hn⟩) b jj = logits m c b (laneCol n jj) := by
  rw [laneCol_of_lt n jj hjj]; exact tile_is_logits m hpre c ⟨n, hn⟩ b jj hjj

/-- The largest of the tile's logits over its lanes inside the class axis is the largest logit over its class columns. -/
theorem tile_sup_lanes (hpre : Cert.Pre_KernelIdeal m) (c : Dev nD) (n : ℕ) (hn : n < cfg0.N) (b : Fin 512) :
    (lanesIn n).sup (fun jj => tileAt (grid0.coords ⟨n, hn⟩) (wblk m c ⟨n, hn⟩) (xblk m c ⟨n, hn⟩) (lblk m c ⟨n, hn⟩) b jj)
      = (tilesCols n (n + 1)).sup (logits m c b) := by
  rw [← image_laneCol, sup_image_fun]
  exact Finset.sup_congr rfl fun jj hjj => tile_lane m hpre c n hn b jj ((mem_lanesIn n jj).mp hjj)

/-- The sum of shifted exponentials over those lanes is the sum over the tile's class columns. -/
theorem tile_sum_lanes (hpre : Cert.Pre_KernelIdeal m) (c : Dev nD) (n : ℕ) (hn : n < cfg0.N) (b : Fin 512) (M : EReal) :
    ∑ jj ∈ lanesIn n, Ideal.exp (tileAt (grid0.coords ⟨n, hn⟩) (wblk m c ⟨n, hn⟩) (xblk m c ⟨n, hn⟩) (lblk m c ⟨n, hn⟩) b jj - M)
      = ∑ j ∈ tilesCols n (n + 1), Ideal.exp (logits m c b j - M) := by
  rw [← image_laneCol, sum_image_of_injOn _ _ (laneCol_injOn n)]
  exact Finset.sum_congr rfl fun jj hjj => by rw [tile_lane m hpre c n hn b jj ((mem_lanesIn n jj).mp hjj)]

/-- The masked tile, with the mask read off the lane's class column. -/
theorem tileMasked_eq (n : ℕ) (hn : n < cfg0.N) (W : Vec Ideal S2560x512 .f32) (X : Vec Ideal S512x512 .bf16) (L : Vec Ideal S512x1 .i32) (b : Fin 512) :
    (fun jj : Fin 2560 => tileMasked (grid0.coords ⟨n, hn⟩) W X L b jj)
      = fun jj => if 2560 * n + jj.val < 100000 then tileAt (grid0.coords ⟨n, hn⟩) W X L b jj else ⊥ := by
  funext jj; unfold tileMasked; rw [colOf_coords]

theorem tileMasked_apply (n : ℕ) (hn : n < cfg0.N) (W : Vec Ideal S2560x512 .f32) (X : Vec Ideal S512x512 .bf16) (L : Vec Ideal S512x1 .i32) (b : Fin 512) (jj : Fin 2560) :
    tileMasked (grid0.coords ⟨n, hn⟩) W X L b jj
      = if 2560 * n + jj.val < 100000 then tileAt (grid0.coords ⟨n, hn⟩) W X L b jj else ⊥ := by
  unfold tileMasked; rw [colOf_coords]

/-! ## The running maximum and sum -/

/-- The running maximum M and running sum S are the statistics of the class columns s. -/
def Holds (o : Fin 100000 → EReal) (s : Finset (Fin 100000)) (M S : EReal) : Prop :=
  M = s.sup o ∧ S = ∑ j ∈ s, Ideal.exp (o j - s.sup o)

/-- From the reset values one tile's update leaves the tile's own statistics. -/
theorem holds_first (o : Fin 100000 → EReal) (ho : ∀ j, ∃ r : ℝ, o j = (r : EReal)) (T : Finset (Fin 100000)) (hT : T.Nonempty) :
    Holds o T (max ⊥ (T.sup o))
      (Ideal.exp (⊥ - max ⊥ (T.sup o)) * lit 0x00000000#32 + (lit 0x00000000#32 + ∑ j ∈ T, Ideal.exp (o j - max ⊥ (T.sup o)))) := by
  obtain ⟨M', hM'⟩ := sup_isReal T hT o (fun j _ => ho j)
  unfold Holds
  rw [max_bot_left, hM']
  exact ⟨rfl, first_tile T o M' _⟩

/-- From the statistics of s one tile's update leaves the statistics of s with the tile's columns. -/
theorem holds_step (o : Fin 100000 → EReal) (ho : ∀ j, ∃ r : ℝ, o j = (r : EReal)) (s T : Finset (Fin 100000)) (hs : s.Nonempty)
    (hd : Disjoint s T) (M S : EReal) (h : Holds o s M S) :
    Holds o (s ∪ T) (max M (T.sup o))
      (Ideal.exp (M - max M (T.sup o)) * S + (lit 0x00000000#32 + ∑ j ∈ T, Ideal.exp (o j - max M (T.sup o)))) := by
  obtain ⟨rfl, rfl⟩ := h
  obtain ⟨h1, h2⟩ := online_step_state s T hs hd o (fun j _ => ho j)
  exact ⟨h1, h2⟩

/-- An ordinary tile's update of the two columns, over the tile's class columns. -/
theorem step_plain (hpre : Cert.Pre_KernelIdeal m) (c : Dev nD) (n : ℕ) (hn : n < cfg0.N) (h39 : n ≠ 39) (b : Fin 512)
    (M S : Vec Ideal S512x1 .f32) :
    maxStep (grid0.coords ⟨n, hn⟩) (wblk m c ⟨n, hn⟩) (xblk m c ⟨n, hn⟩) (lblk m c ⟨n, hn⟩) M (ix2 b 0)
        = max (M (ix2 b 0)) ((tilesCols n (n + 1)).sup (logits m c b))
    ∧ sumStep (grid0.coords ⟨n, hn⟩) (wblk m c ⟨n, hn⟩) (xblk m c ⟨n, hn⟩) (lblk m c ⟨n, hn⟩) M S (ix2 b 0)
        = Ideal.exp (M (ix2 b 0) - max (M (ix2 b 0)) ((tilesCols n (n + 1)).sup (logits m c b))) * S (ix2 b 0)
          + (lit 0x00000000#32 + ∑ j ∈ tilesCols n (n + 1), Ideal.exp (logits m c b j - max (M (ix2 b 0)) ((tilesCols n (n + 1)).sup (logits m c b)))) := by
  have hN : cfg0.N = 40 := N_0
  have hlt : n < 39 := by omega
  have hmax : maxStep (grid0.coords ⟨n, hn⟩) (wblk m c ⟨n, hn⟩) (xblk m c ⟨n, hn⟩) (lblk m c ⟨n, hn⟩) M (ix2 b 0)
      = max (M (ix2 b 0)) ((tilesCols n (n + 1)).sup (logits m c b)) := by
    rw [maxStep_apply, ← lanesIn_univ n hlt, tile_sup_lanes m hpre c n hn b]
  refine ⟨hmax, ?_⟩
  rw [sumStep_apply, hmax, ← lanesIn_univ n hlt, tile_sum_lanes m hpre c n hn b]

/-- The masked last tile's update, over the class columns the tile has. -/
theorem step_masked (hpre : Cert.Pre_KernelIdeal m) (c : Dev nD) (n : ℕ) (hn : n < cfg0.N) (b : Fin 512)
    (M S : Vec Ideal S512x1 .f32) (hM : ∃ r : ℝ, M (ix2 b 0) = (r : EReal)) (hne : 2560 * n < 100000) :
    maxStepLast (grid0.coords ⟨n, hn⟩) (wblk m c ⟨n, hn⟩) (xblk m c ⟨n, hn⟩) (lblk m c ⟨n, hn⟩) M (ix2 b 0)
        = max (M (ix2 b 0)) ((tilesCols n (n + 1)).sup (logits m c b))
    ∧ sumStepLast (grid0.coords ⟨n, hn⟩) (wblk m c ⟨n, hn⟩) (xblk m c ⟨n, hn⟩) (lblk m c ⟨n, hn⟩) M S (ix2 b 0)
        = Ideal.exp (M (ix2 b 0) - max (M (ix2 b 0)) ((tilesCols n (n + 1)).sup (logits m c b))) * S (ix2 b 0)
          + (lit 0x00000000#32 + ∑ j ∈ tilesCols n (n + 1), Ideal.exp (logits m c b j - max (M (ix2 b 0)) ((tilesCols n (n + 1)).sup (logits m c b)))) := by
  have hmax : maxStepLast (grid0.coords ⟨n, hn⟩) (wblk m c ⟨n, hn⟩) (xblk m c ⟨n, hn⟩) (lblk m c ⟨n, hn⟩) M (ix2 b 0)
      = max (M (ix2 b 0)) ((tilesCols n (n + 1)).sup (logits m c b)) := by
    rw [maxStepLast_apply, tileMasked_eq, sup_ite_bot]
    exact congrArg (max (M (ix2 b 0))) (tile_sup_lanes m hpre c n hn b)
  refine ⟨hmax, ?_⟩
  obtain ⟨r', hr'⟩ := max_isReal hM (sup_isReal (tilesCols n (n + 1)) (tilesCols_nonempty n (n + 1) (Nat.lt_succ_self n) hne)
    (logits m c b) (fun j _ => logits_real m hpre c b j))
  have hsum : (∑ jj : Fin 2560, Ideal.exp (tileMasked (grid0.coords ⟨n, hn⟩) (wblk m c ⟨n, hn⟩) (xblk m c ⟨n, hn⟩) (lblk m c ⟨n, hn⟩) b jj - (r' : EReal)))
      = ∑ j ∈ tilesCols n (n + 1), Ideal.exp (logits m c b j - (r' : EReal)) := by
    rw [← tile_sum_lanes m hpre c n hn b (r' : EReal)]
    show _ = ∑ jj ∈ Finset.univ.filter (fun jj : Fin 2560 => 2560 * n + jj.val < 100000), _
    rw [← sum_exp_ite_bot]
    exact Finset.sum_congr rfl fun jj _ => by rw [tileMasked_apply]
  rw [sumStepLast_apply, hmax, hr', hsum]

/-! ## The scratch columns, point by point -/

theorem scr_first (c : Dev nD) (n : ℕ) (hn : n < cfg0.N) (h : n % 20 = 0) :
    scr m c n hn = (maxStep (grid0.coords ⟨n, hn⟩) (wblk m c ⟨n, hn⟩) (xblk m c ⟨n, hn⟩) (lblk m c ⟨n, hn⟩) (k0_pay11 (F := Ideal)),
      sumStep (grid0.coords ⟨n, hn⟩) (wblk m c ⟨n, hn⟩) (xblk m c ⟨n, hn⟩) (lblk m c ⟨n, hn⟩) (k0_pay11 (F := Ideal)) (k0_pay12 (F := Ideal))) := by
  cases n with
  | zero => rfl
  | succ n => rw [scr, if_pos h]

theorem scr_step (c : Dev nD) (n : ℕ) (hn : n + 1 < cfg0.N) (h0 : (n + 1) % 20 ≠ 0) (h39 : n + 1 ≠ 39) :
    scr m c (n + 1) hn = (maxStep (grid0.coords ⟨n + 1, hn⟩) (wblk m c ⟨n + 1, hn⟩) (xblk m c ⟨n + 1, hn⟩) (lblk m c ⟨n + 1, hn⟩) (scr m c n (Nat.lt_of_succ_lt hn)).1,
      sumStep (grid0.coords ⟨n + 1, hn⟩) (wblk m c ⟨n + 1, hn⟩) (xblk m c ⟨n + 1, hn⟩) (lblk m c ⟨n + 1, hn⟩) (scr m c n (Nat.lt_of_succ_lt hn)).1 (scr m c n (Nat.lt_of_succ_lt hn)).2) := by
  rw [scr, if_neg h0, if_neg h39]

theorem scr_last (c : Dev nD) (n : ℕ) (hn : n + 1 < cfg0.N) (h39 : n + 1 = 39) :
    scr m c (n + 1) hn = (maxStepLast (grid0.coords ⟨n + 1, hn⟩) (wblk m c ⟨n + 1, hn⟩) (xblk m c ⟨n + 1, hn⟩) (lblk m c ⟨n + 1, hn⟩) (scr m c n (Nat.lt_of_succ_lt hn)).1,
      sumStepLast (grid0.coords ⟨n + 1, hn⟩) (wblk m c ⟨n + 1, hn⟩) (xblk m c ⟨n + 1, hn⟩) (lblk m c ⟨n + 1, hn⟩) (scr m c n (Nat.lt_of_succ_lt hn)).1 (scr m c n (Nat.lt_of_succ_lt hn)).2) := by
  rw [scr, if_neg (by omega), if_pos h39]

/-- After the first tile of a half the two columns hold that tile's statistics. -/
theorem first_holds (hpre : Cert.Pre_KernelIdeal m) (c : Dev nD) (n : ℕ) (hn : n < cfg0.N) (h : n % 20 = 0) (b : Fin 512) :
    Holds (logits m c b) (tilesCols n (n + 1))
      (maxStep (grid0.coords ⟨n, hn⟩) (wblk m c ⟨n, hn⟩) (xblk m c ⟨n, hn⟩) (lblk m c ⟨n, hn⟩) (k0_pay11 (F := Ideal)) (ix2 b 0))
      (sumStep (grid0.coords ⟨n, hn⟩) (wblk m c ⟨n, hn⟩) (xblk m c ⟨n, hn⟩) (lblk m c ⟨n, hn⟩) (k0_pay11 (F := Ideal)) (k0_pay12 (F := Ideal)) (ix2 b 0)) := by
  have hN : cfg0.N = 40 := N_0
  obtain ⟨e1, e2⟩ := step_plain m hpre c n hn (by omega) b (k0_pay11 (F := Ideal)) (k0_pay12 (F := Ideal))
  rw [e1, e2, resetMax_apply, resetSum_apply]
  exact holds_first (logits m c b) (logits_real m hpre c b) _ (tilesCols_nonempty n (n + 1) (Nat.lt_succ_self n) (by omega))

/-- After every point the two columns hold the statistics of the class columns of the tiles of its half so far. -/
theorem scr_inv (hpre : Cert.Pre_KernelIdeal m) (c : Dev nD) (b : Fin 512) : ∀ (n : ℕ) (hn : n < cfg0.N),
    Holds (logits m c b) (tilesCols (n / 20 * 20) (n + 1)) ((scr m c n hn).1 (ix2 b 0)) ((scr m c n hn).2 (ix2 b 0)) := by
  have hN : cfg0.N = 40 := N_0
  intro n
  induction n with
  | zero =>
    intro hn
    rw [scr_first m c 0 hn rfl]
    exact first_holds m hpre c 0 hn rfl b
  | succ n ih =>
    intro hn
    by_cases h0 : (n + 1) % 20 = 0
    · have hs : (n + 1) / 20 * 20 = n + 1 := by omega
      rw [scr_first m c (n + 1) hn h0, hs]
      exact first_holds m hpre c (n + 1) hn h0 b
    · have hs : (n + 1) / 20 * 20 = n / 20 * 20 := by omega
      have hu : tilesCols (n / 20 * 20) (n + 1) ∪ tilesCols (n + 1) (n + 1 + 1) = tilesCols ((n + 1) / 20 * 20) (n + 1 + 1) := by
        rw [hs]; exact tilesCols_union _ _ _ (by omega) (by omega)
      have hne : (tilesCols (n / 20 * 20) (n + 1)).Nonempty := tilesCols_nonempty _ _ (by omega) (by omega)
      have hd : Disjoint (tilesCols (n / 20 * 20) (n + 1)) (tilesCols (n + 1) (n + 1 + 1)) := tilesCols_disjoint _ _ _
      have ih' := ih (Nat.lt_of_succ_lt hn)
      by_cases h39 : n + 1 = 39
      · obtain ⟨e1, e2⟩ := step_masked m hpre c (n + 1) hn b (scr m c n (Nat.lt_of_succ_lt hn)).1 (scr m c n (Nat.lt_of_succ_lt hn)).2
          (by rw [ih'.1]; exact sup_isReal _ hne _ (fun j _ => logits_real m hpre c b j)) (by omega)
        rw [scr_last m c n hn h39]
        dsimp only
        rw [e1, e2, ← hu]
        exact holds_step (logits m c b) (logits_real m hpre c b) _ _ hne hd _ _ ih'
      · obtain ⟨e1, e2⟩ := step_plain m hpre c (n + 1) hn h39 b (scr m c n (Nat.lt_of_succ_lt hn)).1 (scr m c n (Nat.lt_of_succ_lt hn)).2
        rw [scr_step m c n hn h0 h39]
        dsimp only
        rw [e1, e2, ← hu]
        exact holds_step (logits m c b) (logits_real m hpre c b) _ _ hne hd _ _ ih'

end ScratchCols
open ScratchCols

/-- After the last tile of each half the scratch columns hold that half's maximum and rescaled sum. -/
theorem scr_half0 (hpre : Cert.Pre_KernelIdeal m) (c : Dev nD) (h19 : 19 < cfg0.N) (b : Fin 512) :
    (scr m c 19 h19).1 (ValueIdx.ix2 b 0) = halfMax (logits m c) 0 b ∧ (scr m c 19 h19).2 (ValueIdx.ix2 b 0) = halfSum (logits m c) 0 b := by
  have h := scr_inv m hpre c b 19 h19
  rw [show (19 / 20 * 20 : ℕ) = 0 from rfl, show (19 + 1 : ℕ) = 20 from rfl, ← halfCols_zero] at h
  unfold Holds at h
  unfold halfSum halfMax
  exact h
theorem scr_half1 (hpre : Cert.Pre_KernelIdeal m) (c : Dev nD) (h39 : 39 < cfg0.N) (b : Fin 512) :
    (scr m c 39 h39).1 (ValueIdx.ix2 b 0) = halfMax (logits m c) 1 b ∧ (scr m c 39 h39).2 (ValueIdx.ix2 b 0) = halfSum (logits m c) 1 b := by
  have h := scr_inv m hpre c b 39 h39
  rw [show (39 / 20 * 20 : ℕ) = 20 from rfl, show (39 + 1 : ℕ) = 40 from rfl, ← halfCols_one] at h
  unfold Holds at h
  unfold halfSum halfMax
  exact h

end Cert.KernelIdeal.Hand

end
-- ==== Proof.ArraysValue.lean ====
/-
  From the blocks the grid's points write back to the three output arrays.

  Point t writes back, of the tile of logits it stored, the lanes that lie inside the class axis: lane jj of tile t is
  class column 2560 t + jj, and the last tile keeps its first 160 lanes. Every column j lies in tile j / 2560, and what
  any point writes there is the specification's logit, so the logits array ends holding the logits.
  The two statistics arrays have one slab of 512 rows per half of the class axis; slab h is written back once, by the
  last point of half h (point 20 h + 19), from the scratch column carried over that half's tiles: the half's largest
  logit, and its sum of exponentials shifted by that.
-/
import proofs.«402648_j62706522521602_3_alg».proof.Proof.IData
import proofs.«402648_j62706522521602_3_alg».proof.Proof.Spec
import proofs.«402648_j62706522521602_3_alg».proof.Proof.TileValue
import proofs.«402648_j62706522521602_3_alg».proof.Proof.ScratchValue
import Idealize.ShloMosaic.Lib.ValueIdx
import Idealize.ShloMosaic.Lib.Pipeline.Value

set_option maxRecDepth 16384

noncomputable section

namespace Cert.KernelIdeal.Hand

open Cert.KernelIdeal Cert.KernelIdeal.Gen
open Cert.Arc Idealize.ShloMosaic Idealize.ShloMosaic.TcCoe
open Idealize.SL Idealize.SL.Sem
open Idealize.ShloMosaic.Pipeline (Dat Cfg Window)

variable (m : (ℓ : Loc nD τ sig) → Buf (Elt Ideal) ℓ)

/-! ## The logits array -/

/-- The logits as one array. -/
def logitsArr (c : Dev nD) : S512x100000.Idx → EReal := fun i => logits m c (i 0) (i 1)

/-- Where point t's block of the logits array sits and how much of it lies inside the array: all 512 rows, and from
    column 2560 t on, 2560 columns, but for the last point, whose block keeps 160. -/
theorem logits_block_place : ∀ t : Fin cfg0.N, win0_3.index t (0 : Fin 2) = 0 ∧ win0_3.index t (1 : Fin 2) = t.val
    ∧ win0_3.xsize (grid0.coords t) (0 : Fin 2) = 512
    ∧ (t.val < 39 → win0_3.xsize (grid0.coords t) (1 : Fin 2) = 2560)
    ∧ (t.val = 39 → win0_3.xsize (grid0.coords t) (1 : Fin 2) = 160) :=
  (by decide +kernel : ∀ t : Fin grid0.N, _)

/-- An index of the array is in point t's block iff each coordinate is in the range of the block's part inside the array. -/
theorem mem_logits_block (t : Fin cfg0.N) (i : S512x100000.Idx) :
    i ∈ ((cfg0.win 3).blk t).view.set ↔ ∀ a : Fin 2, win0_3.index t a * S512x2560.size a ≤ (i a).val ∧ (i a).val < win0_3.index t a * S512x2560.size a + win0_3.xsize (grid0.coords t) a := by
  show i ∈ ((View.whole main_v10_0).slice (win0_3.rect t)).set ↔ _
  rw [View.set_slice_whole, Rect.mem_set_unit]
  exact Iff.rfl

/-- What point t writes back is its block of the logits: lane jj of the part inside the array is class column
    2560 t + jj, where the tile's logit is the specification's. -/
theorem logits_written (hpre : Cert.Pre_KernelIdeal m) (c : Dev nD) (t : Fin cfg0.N) :
    (dats m 0 c).flushed 3 t = ((cfg0.win 3).blk t).view.read (Elt Ideal) (logitsArr m c) := by
  show (cfg0.win 3).cut (grid0.coords t) ((dats m 0 c).after 3 t) = _
  rw [after0_3]
  funext y
  obtain ⟨e0, e1, s0, s1, s1'⟩ := logits_block_place t
  have ht : t.val < 40 := t.isLt
  have hy0 : (y 0).val < win0_3.xsize (grid0.coords t) (0 : Fin 2) := (y 0).isLt
  have hy1 : (y 1).val < win0_3.xsize (grid0.coords t) (1 : Fin 2) := (y 1).isLt
  have hb : (y 0).val < 512 := by omega
  have hjj : (y 1).val < 2560 := by omega
  have hj : 2560 * t.val + (⟨(y 1).val, hjj⟩ : Fin 2560).val < 100000 := by
    show 2560 * t.val + (y 1).val < 100000
    omega
  have hx : win0_3.xinj (grid0.coords t) y = ValueIdx.ix2 (⟨(y 0).val, hb⟩ : Fin 512) (⟨(y 1).val, hjj⟩ : Fin 2560) := by
    funext a; match a with | ⟨0, _⟩ => rfl | ⟨1, _⟩ => rfl
  show tileOf (grid0.coords t) (wblk m c t) (xblk m c t) (lblk m c t) (win0_3.xinj (grid0.coords t) y)
    = logitsArr m c (((cfg0.win 3).blk t).view.emb y)
  rw [hx, tileOf_apply, tile_is_logits m hpre c t _ _ hj]
  unfold logitsArr
  congr 1
  · apply Fin.ext
    show (y 0).val = win0_3.index t (0 : Fin 2) * 512 + 1 * (y 0).val
    omega
  · apply Fin.ext
    show 2560 * t.val + (y 1).val = win0_3.index t (1 : Fin 2) * 2560 + 1 * (y 1).val
    omega

/-- Column j lies in the block of point j / 2560: the blocks' parts inside the array tile the class axis. -/
theorem logits_covered (i : S512x100000.Idx) : ∃ t : Fin cfg0.N, (cfg0.win 3).flush t = true ∧ i ∈ ((cfg0.win 3).blk t).view.set := by
  have hi0 : (i 0).val < 512 := (i 0).isLt
  have hi1 : (i 1).val < 100000 := (i 1).isLt
  have htN : (i 1).val / 2560 < cfg0.N := by show (i 1).val / 2560 < 40; omega
  refine ⟨⟨(i 1).val / 2560, htN⟩, flush0_3 _, ?_⟩
  obtain ⟨e0, e1, s0, s1, s1'⟩ := logits_block_place ⟨(i 1).val / 2560, htN⟩
  rw [mem_logits_block]
  intro a
  match a with
  | ⟨0, _⟩ =>
    show win0_3.index ⟨(i 1).val / 2560, htN⟩ (0 : Fin 2) * 512 ≤ (i 0).val ∧ (i 0).val < win0_3.index ⟨(i 1).val / 2560, htN⟩ (0 : Fin 2) * 512 + win0_3.xsize (grid0.coords ⟨(i 1).val / 2560, htN⟩) (0 : Fin 2)
    omega
  | ⟨1, _⟩ =>
    show win0_3.index ⟨(i 1).val / 2560, htN⟩ (1 : Fin 2) * 2560 ≤ (i 1).val ∧ (i 1).val < win0_3.index ⟨(i 1).val / 2560, htN⟩ (1 : Fin 2) * 2560 + win0_3.xsize (grid0.coords ⟨(i 1).val / 2560, htN⟩) (1 : Fin 2)
    have e1' : win0_3.index ⟨(i 1).val / 2560, htN⟩ (1 : Fin 2) = (i 1).val / 2560 := e1
    have s1a : (i 1).val / 2560 < 39 → win0_3.xsize (grid0.coords ⟨(i 1).val / 2560, htN⟩) (1 : Fin 2) = 2560 := s1
    have s1b : (i 1).val / 2560 = 39 → win0_3.xsize (grid0.coords ⟨(i 1).val / 2560, htN⟩) (1 : Fin 2) = 160 := s1'
    omega

/-! ## The two statistics arrays -/

/-- A scratch column stored as a slab of one half: its row b sits at (0, b, 0). -/
theorem slabMax_apply (M : Vec Ideal S512x1 .f32) (y : S1x512x1.Idx) (b : Fin 512) (hb : (y 1).val = b.val) :
    k0_pay9 (F := Ideal) M y = M (ValueIdx.ix2 b 0) := by
  unfold k0_pay9
  refine shapeCast_apply _ _ y (ValueIdx.ix2 b 0) ?_
  rw [Shape.rowMajor_val_two, Shape.rowMajor_val_three]
  have h0 : (y 0).val < 1 := (y 0).isLt
  have h2 : (y 2).val < 1 := (y 2).isLt
  show b.val * 1 + 0 = ((y 0).val * 512 + (y 1).val) * 1 + (y 2).val
  omega
theorem slabSum_apply (M : Vec Ideal S512x1 .f32) (y : S1x512x1.Idx) (b : Fin 512) (hb : (y 1).val = b.val) :
    k0_pay10 (F := Ideal) M y = M (ValueIdx.ix2 b 0) := by
  unfold k0_pay10
  refine shapeCast_apply _ _ y (ValueIdx.ix2 b 0) ?_
  rw [Shape.rowMajor_val_two, Shape.rowMajor_val_three]
  have h0 : (y 0).val < 1 := (y 0).isLt
  have h2 : (y 2).val < 1 := (y 2).isLt
  show b.val * 1 + 0 = ((y 0).val * 512 + (y 1).val) * 1 + (y 2).val
  omega

/-- After the last tile of half h (point 20 h + 19) the scratch columns hold that half's maximum and rescaled sum. -/
theorem scr_half (hpre : Cert.Pre_KernelIdeal m) (c : Dev nD) (n : ℕ) (hn : n < cfg0.N) (h : Fin 2) (hh : n = 20 * h.val + 19) (b : Fin 512) :
    (scr m c n hn).1 (ValueIdx.ix2 b 0) = halfMax (logits m c) h b ∧ (scr m c n hn).2 (ValueIdx.ix2 b 0) = halfSum (logits m c) h b := by
  match h, hh with
  | ⟨0, _⟩, hh =>
    obtain rfl : n = 19 := hh
    exact scr_half0 m hpre c hn b
  | ⟨1, _⟩, hh =>
    obtain rfl : n = 39 := hh
    exact scr_half1 m hpre c hn b

theorem max_block_place : ∀ t : Fin cfg0.N, win0_4.index t (0 : Fin 3) = t.val / 20 ∧ win0_4.index t (1 : Fin 3) = 0 ∧ win0_4.index t (2 : Fin 3) = 0 :=
  (by decide +kernel : ∀ t : Fin grid0.N, _)

/-- An index of the array is in point t's block iff each coordinate is in the block's range on its axis. -/
theorem mem_max_block (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v10_1).slice (win0_4.rect t)).set ↔ _
  rw [View.set_slice_whole, Rect.mem_set_unit]
  exact Iff.rfl

/-- The two halves' largest logits as one array of two slabs. -/
def halfMaxArr (c : Dev nD) : S2x512x1.Idx → EReal := fun i => halfMax (logits m c) (i 0) (i 1)

/-- Reading a slab array through point t's block is reading it at the block's place in the array. -/
theorem read_max_block (t : Fin cfg0.N) (y : ((cfg0.win 4).xblock (grid0.coords t)).Idx) (f : S2x512x1.Idx → EReal) :
    View.read (Elt Ideal) ((cfg0.win 4).blk t).view f y = f (((cfg0.win 4).blk t).view.emb y) := rfl

/-- What the last point of a half writes back is that half's slab: the point is 20 h + 19, its block sits at slab h, and
    the scratch column it copies out holds the half's largest logit row by row. -/
theorem max_written (hpre : Cert.Pre_KernelIdeal m) (c : Dev nD) (t : Fin cfg0.N) (hf : (cfg0.win 4).flush t = true) :
    (dats m 0 c).flushed 4 t = ((cfg0.win 4).blk t).view.read (Elt Ideal) (halfMaxArr m c) := by
  show (cfg0.win 4).cut (grid0.coords t) ((dats m 0 c).after 4 t) = _
  rw [after0_4]
  funext y
  have h19 : t.val % 20 = 19 := (flush0_4 t).mp hf
  have ht : t.val < 40 := t.isLt
  obtain ⟨e0, e1, e2⟩ := max_block_place t
  have hy0 : (y 0).val < 1 := (y 0).isLt
  have hy1 : (y 1).val < 512 := (y 1).isLt
  have hh : t.val / 20 < 2 := by omega
  rw [read_max_block]
  show k0_pay9 (scr m c t.val t.isLt).1 (win0_4.xinj (grid0.coords t) y) = _
  rw [slabMax_apply _ (win0_4.xinj (grid0.coords t) y) ⟨(y 1).val, hy1⟩ rfl,
    (scr_half m hpre c t.val t.isLt ⟨t.val / 20, hh⟩ (by show t.val = 20 * (t.val / 20) + 19; omega) ⟨(y 1).val, hy1⟩).1]
  unfold halfMaxArr
  congr 1
  · apply Fin.ext
    show t.val / 20 = win0_4.index t (0 : Fin 3) * 1 + 1 * (y 0).val
    omega
  · apply Fin.ext
    show (y 1).val = win0_4.index t (1 : Fin 3) * 512 + 1 * (y 1).val
    omega

/-- Slab h of the array is the block of point 20 h + 19, a point that writes back. -/
theorem max_covered (i : S2x512x1.Idx) : ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 1 := (i 2).isLt
  have htN : 20 * (i 0).val + 19 < cfg0.N := by show 20 * (i 0).val + 19 < 40; omega
  refine ⟨⟨20 * (i 0).val + 19, htN⟩, (flush0_4 _).mpr (by show (20 * (i 0).val + 19) % 20 = 19; omega), ?_⟩
  obtain ⟨e0, e1, e2⟩ := max_block_place ⟨20 * (i 0).val + 19, htN⟩
  have e0' : win0_4.index ⟨20 * (i 0).val + 19, htN⟩ (0 : Fin 3) = (20 * (i 0).val + 19) / 20 := e0
  rw [mem_max_block]
  intro a
  match a with
  | ⟨0, _⟩ =>
    show win0_4.index ⟨20 * (i 0).val + 19, htN⟩ (0 : Fin 3) * 1 ≤ (i 0).val ∧ (i 0).val < win0_4.index ⟨20 * (i 0).val + 19, htN⟩ (0 : Fin 3) * 1 + 1
    omega
  | ⟨1, _⟩ =>
    show win0_4.index ⟨20 * (i 0).val + 19, htN⟩ (1 : Fin 3) * 512 ≤ (i 1).val ∧ (i 1).val < win0_4.index ⟨20 * (i 0).val + 19, htN⟩ (1 : Fin 3) * 512 + 512
    omega
  | ⟨2, _⟩ =>
    show win0_4.index ⟨20 * (i 0).val + 19, htN⟩ (2 : Fin 3) * 1 ≤ (i 2).val ∧ (i 2).val < win0_4.index ⟨20 * (i 0).val + 19, htN⟩ (2 : Fin 3) * 1 + 1
    omega

theorem sum_block_place : ∀ t : Fin cfg0.N, win0_5.index t (0 : Fin 3) = t.val / 20 ∧ win0_5.index t (1 : Fin 3) = 0 ∧ win0_5.index t (2 : Fin 3) = 0 :=
  (by decide +kernel : ∀ t : Fin grid0.N, _)

/-- An index of the array is in point t's block iff each coordinate is in the block's range on its axis. -/
theorem mem_sum_block (t : Fin cfg0.N) (i : S2x512x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v10_2).slice (win0_5.rect t)).set ↔ _
  rw [View.set_slice_whole, Rect.mem_set_unit]
  exact Iff.rfl

/-- The two halves' sums of shifted exponentials as one array of two slabs. -/
def halfSumArr (c : Dev nD) : S2x512x1.Idx → EReal := fun i => halfSum (logits m c) (i 0) (i 1)

/-- Reading a slab array through point t's block is reading it at the block's place in the array. -/
theorem read_sum_block (t : Fin cfg0.N) (y : ((cfg0.win 5).xblock (grid0.coords t)).Idx) (f : S2x512x1.Idx → EReal) :
    View.read (Elt Ideal) ((cfg0.win 5).blk t).view f y = f (((cfg0.win 5).blk t).view.emb y) := rfl

/-- What the last point of a half writes back is that half's slab: the point is 20 h + 19, its block sits at slab h, and
    the scratch column it copies out holds the half's sum row by row. -/
theorem sum_written (hpre : Cert.Pre_KernelIdeal m) (c : Dev nD) (t : Fin cfg0.N) (hf : (cfg0.win 5).flush t = true) :
    (dats m 0 c).flushed 5 t = ((cfg0.win 5).blk t).view.read (Elt Ideal) (halfSumArr m c) := by
  show (cfg0.win 5).cut (grid0.coords t) ((dats m 0 c).after 5 t) = _
  rw [after0_5]
  funext y
  have h19 : t.val % 20 = 19 := (flush0_5 t).mp hf
  have ht : t.val < 40 := t.isLt
  obtain ⟨e0, e1, e2⟩ := sum_block_place t
  have hy0 : (y 0).val < 1 := (y 0).isLt
  have hy1 : (y 1).val < 512 := (y 1).isLt
  have hh : t.val / 20 < 2 := by omega
  rw [read_sum_block]
  show k0_pay10 (scr m c t.val t.isLt).2 (win0_5.xinj (grid0.coords t) y) = _
  rw [slabSum_apply _ (win0_5.xinj (grid0.coords t) y) ⟨(y 1).val, hy1⟩ rfl,
    (scr_half m hpre c t.val t.isLt ⟨t.val / 20, hh⟩ (by show t.val = 20 * (t.val / 20) + 19; omega) ⟨(y 1).val, hy1⟩).2]
  unfold halfSumArr
  congr 1
  · apply Fin.ext
    show t.val / 20 = win0_5.index t (0 : Fin 3) * 1 + 1 * (y 0).val
    omega
  · apply Fin.ext
    show (y 1).val = win0_5.index t (1 : Fin 3) * 512 + 1 * (y 1).val
    omega

/-- Slab h of the array is the block of point 20 h + 19, a point that writes back. -/
theorem sum_covered (i : S2x512x1.Idx) : ∃ t : Fin cfg0.N, (cfg0.win 5).flush t = true ∧ i ∈ ((cfg0.win 5).blk t).view.set := by
  have hi0 : (i 0).val < 2 := (i 0).isLt
  have hi1 : (i 1).val < 512 := (i 1).isLt
  have hi2 : (i 2).val < 1 := (i 2).isLt
  have htN : 20 * (i 0).val + 19 < cfg0.N := by show 20 * (i 0).val + 19 < 40; omega
  refine ⟨⟨20 * (i 0).val + 19, htN⟩, (flush0_5 _).mpr (by show (20 * (i 0).val + 19) % 20 = 19; omega), ?_⟩
  obtain ⟨e0, e1, e2⟩ := sum_block_place ⟨20 * (i 0).val + 19, htN⟩
  have e0' : win0_5.index ⟨20 * (i 0).val + 19, htN⟩ (0 : Fin 3) = (20 * (i 0).val + 19) / 20 := e0
  rw [mem_sum_block]
  intro a
  match a with
  | ⟨0, _⟩ =>
    show win0_5.index ⟨20 * (i 0).val + 19, htN⟩ (0 : Fin 3) * 1 ≤ (i 0).val ∧ (i 0).val < win0_5.index ⟨20 * (i 0).val + 19, htN⟩ (0 : Fin 3) * 1 + 1
    omega
  | ⟨1, _⟩ =>
    show win0_5.index ⟨20 * (i 0).val + 19, htN⟩ (1 : Fin 3) * 512 ≤ (i 1).val ∧ (i 1).val < win0_5.index ⟨20 * (i 0).val + 19, htN⟩ (1 : Fin 3) * 512 + 512
    omega
  | ⟨2, _⟩ =>
    show win0_5.index ⟨20 * (i 0).val + 19, htN⟩ (2 : Fin 3) * 1 ≤ (i 2).val ∧ (i 2).val < win0_5.index ⟨20 * (i 0).val + 19, htN⟩ (2 : Fin 3) * 1 + 1
    omega

/-! ## The three arrays after the last write-back -/

/-- The three output arrays after the last write-back, read off the proof data. -/
theorem final_logits (hpre : Cert.Pre_KernelIdeal m) (c : Dev nD) (b : Fin 512) (j : Fin 100000) :
    (dats m 0 c).arrAt 3 cfg0.N (ValueIdx.ix2 b j) = logits m c b j := by
  rw [(dats m 0 c).arrAt_eq_of_cover 3 (logitsArr m c) (fun t _ => logits_written m hpre c t) logits_covered]
  rfl
theorem final_max (hpre : Cert.Pre_KernelIdeal m) (c : Dev nD) (h : Fin 2) (b : Fin 512) :
    (dats m 0 c).arrAt 4 cfg0.N (ValueIdx.ix3 h b 0) = halfMax (logits m c) h b := by
  rw [(dats m 0 c).arrAt_eq_of_cover 4 (halfMaxArr m c) (fun t hf => max_written m hpre c t hf) max_covered]
  unfold halfMaxArr
  rfl
theorem final_sum (hpre : Cert.Pre_KernelIdeal m) (c : Dev nD) (h : Fin 2) (b : Fin 512) :
    (dats m 0 c).arrAt 5 cfg0.N (ValueIdx.ix3 h b 0) = halfSum (logits m c) h b := by
  rw [(dats m 0 c).arrAt_eq_of_cover 5 (halfSumArr m c) (fun t hf => sum_written m hpre c t hf) sum_covered]
  unfold halfSumArr
  rfl

end Cert.KernelIdeal.Hand

end
-- ==== Proof.KernelValue.lean ====
/-
  The loss and the logits the program returns, read off the arrays the region leaves.

  After the region the program cuts each of the two statistics arrays into its halves' columns (largest logit m0, m1 and
  rescaled sum of exponentials l0, l1 of each half of the class axis), joins them into the row's log-sum-exp
  max m0 m1 + log (exp (m0 - max m0 m1) * l0 + exp (m1 - max m0 m1) * l1), reads the logit at the row's label (a negative label
  counted from the end of the class axis, the fill word where the index falls outside it), and returns the mean over the rows
  of the difference: the specification's two-halves form of the loss at the specification's logits.
-/
import proofs.«402648_j62706522521602_3_alg».proof.Proof.IData
import proofs.«402648_j62706522521602_3_alg».proof.Proof.Spec
import proofs.«402648_j62706522521602_3_alg».proof.Proof.ScratchValue
import proofs.«402648_j62706522521602_3_alg».proof.Proof.ArraysValue
import proofs.«402648_j62706522521602_3_alg».proof.Defs
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout

set_option maxRecDepth 16384

noncomputable section

namespace Cert.KernelIdeal.Hand

open Cert.KernelIdeal Cert.KernelIdeal.Gen
open Cert.Arc Idealize.ShloMosaic Idealize.ShloMosaic.TcCoe Idealize.ShloMosaic.ValueIdx
open Idealize.SL.Sem

variable (m : (ℓ : Loc nD τ sig) → Buf (Elt Ideal) ℓ)

/-! ## The program after the region, as three functions of the arrays it reads -/

/-- The first half's column of a statistics array. -/
def half0 (A : FVec Ideal S2x512x1 .f32) : FVec Ideal S512x1 .f32 :=
  shapeCast S512x1 (extractStridedSlice S1x512x1 ![0, 0, 0] A slices_S2x512x1_S1x512x1_0_0_0) shapeCasts_S1x512x1_S512x1
/-- The second half's column of a statistics array. -/
def half1 (A : FVec Ideal S2x512x1 .f32) : FVec Ideal S512x1 .f32 :=
  shapeCast S512x1 (extractStridedSlice S1x512x1 ![1, 0, 0] A slices_S2x512x1_S1x512x1_1_0_0) shapeCasts_S1x512x1_S512x1

/-- The rows' log-sum-exp from the halves' largest logits `M` and rescaled sums `S`. -/
def lseCol (M S : FVec Ideal S2x512x1 .f32) : FVec Ideal S512x1 .f32 :=
  addf (maximumf (half0 M) (half1 M))
    (Host.log (addf (mulf (Host.exp (subf (half0 M) (maximumf (half0 M) (half1 M)))) (half0 S))
      (mulf (Host.exp (subf (half1 M) (maximumf (half0 M) (half1 M)))) (half1 S))))

/-- The index each row reads: its label, a negative one moved up by the length of the class axis. -/
def pickCol (Lc : IVec S512x1 32) : IVec S512x1 32 :=
  select (cmpi .slt Lc (broadcastInDim S512x1 ![] bcast_S_S512x1 (constantI S_ 32 0#32)))
    (addi Lc (broadcastInDim S512x1 ![] bcast_S_S512x1 (constantI S_ 32 100000#32))) Lc
/-- The same with the index vector's axis added. -/
def pickCol3 (Lc : IVec S512x1 32) : IVec S512x1x1 32 := shapeCast S512x1x1 (pickCol Lc) shapeCasts_S512x1_S512x1x1
/-- Whether each row's index is inside the class axis. -/
def okCol (Lc : IVec S512x1 32) : IVec S512x1 1 :=
  Host.reduce IntOp.andi
    (andi (cmpi .sge (pickCol3 Lc) (broadcastInDim S512x1x1 ![] bcast_S_S512x1x1 (constantI S_ 32 0#32)))
      (cmpi .sle (pickCol3 Lc) (broadcastInDim S512x1x1 ![0, 1, 2] bcast_S1x1x1_S512x1x1_0_1_2
        (broadcastInDim S1x1x1 ![2] bcast_S1_S1x1x1_2 (constantI S1 32 99999#32)))))
    (constantI S_ 1 1#1) reducesTo_S512x1x1_S512x1_d2 h_S_
/-- Each row's logit at its index, the fill word where the index is outside the class axis. -/
def takeCol (O : FVec Ideal S512x100000 .f32) (Lc : IVec S512x1 32) : FVec Ideal S512x1 .f32 :=
  select (okCol Lc) (Host.gather gather_S512x100000_S512x1x1_S512x1_n_1_0_0_1_2_11 O (pickCol3 Lc))
    (broadcastInDim S512x1 ![] bcast_S_S512x1 (constant (F := Ideal) S_ .f32 0x7FC00000#32))

/-- The mean over the rows of the difference of two columns. -/
def meanOf (A B : FVec Ideal S512x1 .f32) : FVec Ideal S_ .f32 :=
  Host.divf (Host.reduceAdd (subf A B) (constant (F := Ideal) S_ .f32 0x00000000#32) reducesTo_S512x1_S_d0_1 h_S_)
    (constant (F := Ideal) S_ .f32 0x44000000#32)

/-! ## The three stretches after the region, over any contents of the buffers -/

variable (W : Valuation τ sig (Elt Ideal))

/-- The third stretch leaves the mean over the rows of the difference of the two columns before it. -/
theorem stretch3_v32 : StableHlo.after (hostOps1_2 (F := Ideal)) W (Proc.devRef .tc main_v32)
    = meanOf (W (Proc.devRef .tc main_v28)) (W (Proc.devRef .tc main_v29)) := by
  simp only [hostOps1_2]
  after_results
  rfl

set_option maxHeartbeats 1600000 in
/-- The first stretch leaves the log-sum-exp column of the two statistics arrays. -/
theorem stretch1_v28 : StableHlo.after (hostOps1 (F := Ideal)) W (Proc.devRef .tc main_v28)
    = lseCol (W (Proc.devRef .tc main_v10_1)) (W (Proc.devRef .tc main_v10_2)) := by
  simp only [hostOps1]
  after_results_simp
  rfl

set_option maxHeartbeats 1600000 in
/-- The second stretch leaves each row's logit at its index. -/
theorem stretch2_v29 : StableHlo.after (hostOps1_1 (F := Ideal)) W (Proc.devRef .tc main_v29)
    = takeCol (W (Proc.devRef .tc main_v10_0)) (W (Proc.devRef .tc main_v9)) := by
  simp only [hostOps1_1]
  after_results_simp
  rfl

set_option maxHeartbeats 1600000 in
/-- The first stretch writes neither the logits nor the labels column. -/
theorem stretch1_v10_0 : StableHlo.after (hostOps1 (F := Ideal)) W (Proc.devRef .tc main_v10_0) = W (Proc.devRef .tc main_v10_0) := by
  simp only [hostOps1]
  after_results_simp
set_option maxHeartbeats 1600000 in
theorem stretch1_v9 : StableHlo.after (hostOps1 (F := Ideal)) W (Proc.devRef .tc main_v9) = W (Proc.devRef .tc main_v9) := by
  simp only [hostOps1]
  after_results_simp
set_option maxHeartbeats 1600000 in
/-- The second stretch does not write the log-sum-exp column. -/
theorem stretch2_v28 : StableHlo.after (hostOps1_1 (F := Ideal)) W (Proc.devRef .tc main_v28) = W (Proc.devRef .tc main_v28) := by
  simp only [hostOps1_1]
  after_results_simp

/-- The three stretches in order leave the mean of the rows' log-sum-exp less the logit at the row's index. -/
theorem tail_v32 (M S : FVec Ideal S2x512x1 .f32) (O : FVec Ideal S512x100000 .f32) (Lc : IVec S512x1 32)
    (hM : W (Proc.devRef .tc main_v10_1) = M) (hS : W (Proc.devRef .tc main_v10_2) = S)
    (hO : W (Proc.devRef .tc main_v10_0) = O) (hL : W (Proc.devRef .tc main_v9) = Lc) :
    StableHlo.after (List.flatten [hostOps1 (F := Ideal), hostOps1_1, hostOps1_2]) W (Proc.devRef .tc main_v32)
      = meanOf (lseCol M S) (takeCol O Lc) := by
  rw [List.flatten_cons, List.flatten_cons, List.flatten_cons, List.flatten_nil, List.append_nil,
    StableHlo.after_append, StableHlo.after_append, stretch3_v32, stretch2_v29, stretch2_v28, stretch1_v28,
    stretch1_v10_0, stretch1_v9, hM, hS, hO, hL]

/-! ## The three functions read at a row -/

theorem half0_apply (A : FVec Ideal S2x512x1 .f32) (b : Fin 512) :
    half0 A (ix2 b (0 : Fin 1)) = A (ix3 (0 : Fin 2) b (0 : Fin 1)) := by
  unfold half0
  refine (shapeCast_1ab_ab_apply _ _ b 0).trans ?_
  exact extractStridedSlice_apply _ _ _ _ (ix3 (0 : Fin 2) b (0 : Fin 1)) fun a => match a with
    | ⟨0, _⟩ => rfl
    | ⟨1, _⟩ => (Nat.zero_add _).symm
    | ⟨2, _⟩ => rfl

theorem half1_apply (A : FVec Ideal S2x512x1 .f32) (b : Fin 512) :
    half1 A (ix2 b (0 : Fin 1)) = A (ix3 (1 : Fin 2) b (0 : Fin 1)) := by
  unfold half1
  refine (shapeCast_1ab_ab_apply _ _ b 0).trans ?_
  exact extractStridedSlice_apply _ _ _ _ (ix3 (1 : Fin 2) b (0 : Fin 1)) fun a => match a with
    | ⟨0, _⟩ => rfl
    | ⟨1, _⟩ => (Nat.zero_add _).symm
    | ⟨2, _⟩ => rfl

/-- With the statistics arrays at the halves' maxima and sums, the column is the specification's log-sum-exp by halves. -/
theorem lseCol_apply (o : Fin 512 → Fin 100000 → EReal) (M S : FVec Ideal S2x512x1 .f32)
    (hM : ∀ (h : Fin 2) (b : Fin 512), M (ix3 h b (0 : Fin 1)) = halfMax o h b)
    (hS : ∀ (h : Fin 2) (b : Fin 512), S (ix3 h b (0 : Fin 1)) = halfSum o h b) (b : Fin 512) :
    lseCol M S (ix2 b (0 : Fin 1)) = lseHalves o b := by
  have e0 := (half0_apply M b).trans (hM 0 b)
  have e1 := (half1_apply M b).trans (hM 1 b)
  have f0 := (half0_apply S b).trans (hS 0 b)
  have f1 := (half1_apply S b).trans (hS 1 b)
  show max (half0 M (ix2 b 0)) (half1 M (ix2 b 0))
      + Ideal.log (Ideal.exp (half0 M (ix2 b 0) - max (half0 M (ix2 b 0)) (half1 M (ix2 b 0))) * half0 S (ix2 b 0)
        + Ideal.exp (half1 M (ix2 b 0) - max (half0 M (ix2 b 0)) (half1 M (ix2 b 0))) * half1 S (ix2 b 0)) = _
  rw [e0, e1, f0, f1]
  rfl

/-- The index a row reads is the specification's. -/
theorem pickCol_apply (lab : Fin 512 → BitVec 32) (Lc : IVec S512x1 32) (hL : ∀ b : Fin 512, Lc (ix2 b (0 : Fin 1)) = lab b)
    (b : Fin 512) : pickCol Lc (ix2 b (0 : Fin 1)) = pick lab b := by
  show Scalar.select (IntOp.cmpi .slt (Lc (ix2 b 0)) (broadcastInDim S512x1 ![] bcast_S_S512x1 (constantI S_ 32 0#32) (ix2 b 0)))
      (IntOp.addi (Lc (ix2 b 0)) (broadcastInDim S512x1 ![] bcast_S_S512x1 (constantI S_ 32 100000#32) (ix2 b 0))) (Lc (ix2 b 0)) = _
  rw [broadcastInDim_scalar_apply, broadcastInDim_scalar_apply, hL]
  show (if BitVec.ofBool ((lab b).slt 0#32) = 1 then lab b + 100000#32 else lab b)
    = if (lab b).slt 0#32 then lab b + 100000#32 else lab b
  cases (lab b).slt 0#32 <;> rfl

theorem pickCol3_apply (Lc : IVec S512x1 32) (b : Fin 512) :
    pickCol3 Lc (ix3 b (0 : Fin 1) (0 : Fin 1)) = pickCol Lc (ix2 b (0 : Fin 1)) :=
  shapeCast_apply _ _ _ (ix2 b (0 : Fin 1)) (by
    rw [Shape.rowMajor_val_two, Shape.rowMajor_val_three]
    show b.val * 1 + 0 = (b.val * 1 + 0) * 1 + 0
    omega)

/-! ## The row's index inside the class axis, the gather, the target logit -/

/-- A fold over one coordinate is one application. -/
theorem tail_fold_fin_one {β : Type} (f : β → β → β) [Std.Commutative f] [Std.Associative f] (z : β) (g : Fin 1 → β) :
    (Finset.univ : Finset (Fin 1)).fold f z g = f (g 0) z := by
  rw [Finset.univ_unique, Finset.fold_singleton]; rfl

/-- An `and` over an axis of one coordinate is the word there. -/
theorem reduce_andi_unit (X : IVec S512x1x1 1) (b : Fin 512) :
    Host.reduce IntOp.andi X (constantI S_ 1 1#1) reducesTo_S512x1x1_S512x1_d2 h_S_ (ix2 b (0 : Fin 1))
      = X (ix3 b (0 : Fin 1) (0 : Fin 1)) := by
  have h : S512x1x1.Reduces [2] S512x1 := by decide
  rw [Host.reduce_eq_fold_single IntOp.andi X _ reducesTo_S512x1x1_S512x1_d2 h h_S_]
  have hl : ∀ k : Fin 1, h.lift (ix2 b (0 : Fin 1)) k = ix3 b (0 : Fin 1) (0 : Fin 1) := fun k =>
    funext fun c => Fin.ext (match c with
      | ⟨0, _⟩ => rfl
      | ⟨1, _⟩ => rfl
      | ⟨2, _⟩ => by show k.val = 0; omega)
  refine (tail_fold_fin_one IntOp.andi _ _).trans ?_
  refine (congrArg (fun i => IntOp.andi (X i) 1#1) (hl 0)).trans ?_
  show IntOp.andi (X (ix3 b (0 : Fin 1) (0 : Fin 1))) 1#1 = _
  rcases BitVec.eq_zero_or_eq_one (X (ix3 b (0 : Fin 1) (0 : Fin 1))) with e | e <;> rw [e] <;> rfl

/-- Whether a row's index is inside the class axis, as the two signed comparisons of the specification. -/
theorem okCol_apply (lab : Fin 512 → BitVec 32) (Lc : IVec S512x1 32) (hL : ∀ b : Fin 512, Lc (ix2 b (0 : Fin 1)) = lab b)
    (b : Fin 512) :
    okCol Lc (ix2 b (0 : Fin 1))
      = IntOp.andi (BitVec.ofBool ((0#32).sle (pick lab b))) (BitVec.ofBool ((pick lab b).sle 99999#32)) := by
  unfold okCol
  rw [reduce_andi_unit]
  show IntOp.andi (IntOp.cmpi .sge (pickCol3 Lc (ix3 b 0 0)) (broadcastInDim S512x1x1 ![] bcast_S_S512x1x1 (constantI S_ 32 0#32) (ix3 b 0 0)))
      (IntOp.cmpi .sle (pickCol3 Lc (ix3 b 0 0)) 99999#32) = _
  rw [broadcastInDim_scalar_apply, pickCol3_apply, pickCol_apply lab Lc hL b]
  rfl

/-- The gather reads, in row `b`, the column its start index names, read signed and kept inside the class axis. -/
theorem tail_gather_row (O : FVec Ideal S512x100000 .f32) (idx : IVec S512x1x1 32) (b : Fin 512) (p : BitVec 32)
    (hp : idx (ix3 b (0 : Fin 1) (0 : Fin 1)) = p) :
    Host.gather gather_S512x100000_S512x1x1_S512x1_n_1_0_0_1_2_11 O idx (ix2 b (0 : Fin 1))
      = O (ix2 b ⟨min p.toInt.toNat 99999, by omega⟩) := by
  subst hp
  unfold Host.gather
  refine congrArg O (funext fun a => Fin.ext ?_)
  match a with
  | ⟨0, _⟩ =>
    show gather_S512x100000_S512x1x1_S512x1_n_1_0_0_1_2_11.start (ix2 b (0 : Fin 1)) idx 0
      + gather_S512x100000_S512x1x1_S512x1_n_1_0_0_1_2_11.batchCoord (ix2 b (0 : Fin 1)) 0
      + gather_S512x100000_S512x1x1_S512x1_n_1_0_0_1_2_11.offCoord (ix2 b (0 : Fin 1)) 0 = b.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show gather_S512x100000_S512x1x1_S512x1_n_1_0_0_1_2_11.start (ix2 b (0 : Fin 1)) idx 1
      + gather_S512x100000_S512x1x1_S512x1_n_1_0_0_1_2_11.batchCoord (ix2 b (0 : Fin 1)) 1
      + gather_S512x100000_S512x1x1_S512x1_n_1_0_0_1_2_11.offCoord (ix2 b (0 : Fin 1)) 1
      = min (idx (ix3 b (0 : Fin 1) (0 : Fin 1))).toInt.toNat 99999
    rw [GatherDims.batchCoord_eq_zero _ _ _ (by decide), GatherDims.offCoord_eq_zero _ _ _ (by decide)]
    simp only [Nat.add_zero]
    unfold GatherDims.start
    rw [dif_pos (by decide)]
    have hsi : gather_S512x100000_S512x1x1_S512x1_n_1_0_0_1_2_11.siIdx (ix2 b (0 : Fin 1))
        ⟨List.idxOf (1 : Fin 2) gather_S512x100000_S512x1x1_S512x1_n_1_0_0_1_2_11.startIndexMap,
          List.idxOf_lt_length_iff.2 (by decide)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- A word inside `[0, 99999]` read signed is its own value, below the length of the class axis. -/
theorem tail_pick_in_range (p : BitVec 32) (h0 : (0#32).sle p = true) (h1 : p.sle 99999#32 = true) :
    min p.toInt.toNat 99999 = p.toNat % 100000 := by
  rw [BitVec.sle_iff_toInt_le] at h0 h1
  have e0 : (0#32 : BitVec 32).toInt = 0 := by decide
  have e1 : (99999#32 : BitVec 32).toInt = 99999 := by decide
  rw [e0] at h0; rw [e1] at h1
  have hlt := p.isLt
  rw [BitVec.toInt_eq_toNat_cond] at h0 h1 ⊢
  split at h0 <;> omega

/-- Each row's target logit is the specification's. -/
theorem takeCol_apply (o : Fin 512 → Fin 100000 → EReal) (lab : Fin 512 → BitVec 32) (O : FVec Ideal S512x100000 .f32)
    (Lc : IVec S512x1 32) (hO : ∀ (b : Fin 512) (j : Fin 100000), O (ix2 b j) = o b j)
    (hL : ∀ b : Fin 512, Lc (ix2 b (0 : Fin 1)) = lab b) (b : Fin 512) :
    takeCol O Lc (ix2 b (0 : Fin 1)) = tgt o lab b := by
  have hidx : pickCol3 Lc (ix3 b (0 : Fin 1) (0 : Fin 1)) = pick lab b := (pickCol3_apply Lc b).trans (pickCol_apply lab Lc hL b)
  show Scalar.select (okCol Lc (ix2 b 0)) (Host.gather gather_S512x100000_S512x1x1_S512x1_n_1_0_0_1_2_11 O (pickCol3 Lc) (ix2 b 0))
      (broadcastInDim S512x1 ![] bcast_S_S512x1 (constant (F := Ideal) S_ .f32 0x7FC00000#32) (ix2 b 0)) = _
  rw [okCol_apply lab Lc hL b, tail_gather_row O (pickCol3 Lc) b (pick lab b) hidx, hO, broadcastInDim_scalar_apply]
  unfold tgt
  by_cases hp : pickOk lab b
  · rw [if_pos hp]
    obtain ⟨h0, h1⟩ := hp
    rw [h0, h1]
    refine (select_one _ _).trans (congrArg (o b) (Fin.ext ?_))
    exact tail_pick_in_range _ h0 h1
  · rw [if_neg hp]
    have hz : IntOp.andi (BitVec.ofBool ((0#32).sle (pick lab b))) (BitVec.ofBool ((pick lab b).sle 99999#32)) = 0#1 := by
      unfold pickOk at hp
      cases hA : (0#32).sle (pick lab b) <;> cases hB : (pick lab b).sle 99999#32
      · rfl
      · rfl
      · rfl
      · exact absurd ⟨hA, hB⟩ hp
    rw [hz]
    exact select_zero _ _

/-! ## The mean, and the loss -/

theorem meanOf_apply (A B : FVec Ideal S512x1 .f32) (i : S_.Idx) :
    meanOf A B i
      = Ideal.div (lit 0x00000000#32 + ∑ b : Fin 512, (A (ix2 b (0 : Fin 1)) - B (ix2 b (0 : Fin 1)))) (lit 0x44000000#32) := by
  unfold meanOf
  rw [hostDivf_apply, hostReduceAdd_apply, Ideal.hostReduceAdd_total _ (fun b => b.elim0), sum_idx2]
  simp only [Fin.sum_univ_one]
  rfl

/-- With the arrays the region leaves at the specification's values, the program's loss is the two-halves form. -/
theorem tail_loss_eq (o : Fin 512 → Fin 100000 → EReal) (lab : Fin 512 → BitVec 32) (M S : FVec Ideal S2x512x1 .f32)
    (O : FVec Ideal S512x100000 .f32) (Lc : IVec S512x1 32)
    (hM : ∀ (h : Fin 2) (b : Fin 512), M (ix3 h b (0 : Fin 1)) = halfMax o h b)
    (hS : ∀ (h : Fin 2) (b : Fin 512), S (ix3 h b (0 : Fin 1)) = halfSum o h b)
    (hO : ∀ (b : Fin 512) (j : Fin 100000), O (ix2 b j) = o b j)
    (hL : ∀ b : Fin 512, Lc (ix2 b (0 : Fin 1)) = lab b) :
    meanOf (lseCol M S) (takeCol O Lc) = fun _ => lossHalves o lab := by
  funext i
  rw [meanOf_apply]
  unfold lossHalves
  refine congrArg (fun s => Ideal.div (lit 0x00000000#32 + s) (lit 0x44000000#32)) (Finset.sum_congr rfl fun b _ => ?_)
  rw [lseCol_apply o M S hM hS b, takeCol_apply o lab O Lc hO hL b]

/-! ## The arrays the region leaves, and the run -/

set_option maxHeartbeats 1600000 in
/-- The labels column the region reads is the labels argument, one label a row. -/
theorem tail_labels_col (c : Dev nD) (b : Fin 512) : V m c main_v9 (ix2 b (0 : Fin 1)) = argLab m c b := by
  show StableHlo.after (List.flatten [hostOps0 (F := Ideal)]) (fun r => m (c, r)) (Proc.devRef .tc main_v9) (ix2 b (0 : Fin 1)) = _
  simp only [hostOps0, List.flatten_cons, List.flatten_nil, List.append_nil]
  after_results_simp
  exact shapeCast_apply _ _ _ (ix1 b) (by
    show ((⟨1, ![512]⟩ : Shape).rowMajor (ix1 b)).val = ((⟨2, ![512, 1]⟩ : Shape).rowMajor (ix2 b (0 : Fin 1))).val
    rw [Shape.rowMajor_val_one, Shape.rowMajor_val_two]
    show b.val = b.val * 1 + 0
    omega)

/-- The logits array after the last write-back is the specification's. -/
theorem tail_logits_arr (hpre : Cert.Pre_KernelIdeal m) (c : Dev nD) :
    (dats m 0 c).arrAt 3 cfg0.N = fun i => logits m c (i 0) (i 1) :=
  funext fun i => (congrArg ((dats m 0 c).arrAt 3 cfg0.N) (eq_ix2 i)).trans (final_logits m hpre c (i 0) (i 1))

/-- What the operations after the region leave in the loss's buffer. -/
theorem tail_loss (hpre : Cert.Pre_KernelIdeal m) (c : Dev nD) :
    Pipeline.afterTail₀ cfgs (dats m) 0 (V0 m) [hostOps1, hostOps1_1, hostOps1_2] c main_v32
      = fun _ => lossHalves (logits m c) (argLab m c) := by
  unfold Pipeline.afterTail₀
  refine (tail_v32 (Pipeline.withArrays spec0 c (V0 m c) fun w => (dats m 0 c).arrAt w cfg0.N) ((dats m 0 c).arrAt 4 cfg0.N) ((dats m 0 c).arrAt 5 cfg0.N) ((dats m 0 c).arrAt 3 cfg0.N) (V m c main_v9)
    (Pipeline.withArrays_arr spec0 launch0.win.arr_inj c _ _ 4) (Pipeline.withArrays_arr spec0 launch0.win.arr_inj c _ _ 5)
    (Pipeline.withArrays_arr spec0 launch0.win.arr_inj c _ _ 3)
    ((Pipeline.withArrays_arr spec0 launch0.win.arr_inj c _ _ 2).trans
      (((dats m 0 c).arrAt_in 2 rfl _).trans (A_eq m c 2)))).trans ?_
  exact tail_loss_eq (logits m c) (argLab m c) _ _ _ _ (fun h b => final_max m hpre c h b) (fun h b => final_sum m hpre c h b)
    (fun b j => final_logits m hpre c b j) (fun b => tail_labels_col m c b)

/-- Every weakly fair execution of the idealized kernel's program ends with its loss at the two-halves form of the specification's
    logits, its logits array at the specification's, and the three arguments unchanged. -/
theorem kernel_results (ρ : Dev nD → PrngReg) (hpre : Cert.Pre_KernelIdeal m)
    (hrun : θ_run defs (onTc (τ := τ) (main (F := Ideal))) (s₀ m ρ) (Pipeline.FramePost cfgs (dats m) 0 (Pipeline.afterTail₀ cfgs (dats m) 0 (V0 m) [hostOps1, hostOps1_1, hostOps1_2]))) :
    θ_run defs (onTc (τ := τ) (main (F := Ideal))) ⟨m, fun _ => 0, ρ⟩ fun r => ∀ c : Dev nD,
      r.2.mem ((c.tc : Thread nD τ).loc main_v32) = (fun _ => lossHalves (logits m c) (argLab m c))
      ∧ r.2.mem ((c.tc : Thread nD τ).loc main_v10_0) = (fun i => logits m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v32 (Pipeline.mem_restRefs_of main_v32 (by decide) (by decide))).trans (tail_loss m hpre c),
      ((h c).1 3).trans (tail_logits_arr m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩) hrun

end Cert.KernelIdeal.Hand

end
-- ==== Proof.RefStages.lean ====
/-
  The reference program's run, taken from the fold of its 103 host operations to the stage functions.

  The operations are cut into twelve consecutive stretches. A stretch is run from ANY buffer contents that hold, at the
  buffers it reads, the stage functions of the three arguments; it leaves its result at that result's stage function and
  the buffers still to be read as they were. Chaining the stretches gives the two results (the loss and the logits) as
  their stage functions of the launch contents of the embeddings, the labels and the class weights.
-/
import proofs.«402648_j62706522521602_3_alg».proof.Proof.RefRunP
import proofs.«402648_j62706522521602_3_alg».proof.Proof.RefReadP
import Idealize.ShloMosaic.Lib.StableHlo.Run

noncomputable section

namespace Cert.ReferenceIdeal.RefStages

open Cert.ReferenceIdeal Cert.ReferenceIdeal.Gen Cert.ReferenceIdeal.Value Cert.ReferenceIdeal.Read Idealize.ShloMosaic Idealize.ShloMosaic.TcCoe Idealize.ShloMosaic.StableHlo Idealize.SL.Sem

variable {F : FTy → Type} [FloatOps F]

/-! ## Cutting a line of operations -/

/-- Running a line of operations is running its first `k` and then the rest. -/
theorem after_split (k : Nat) (l : List (HloOp τ sig (Elt F))) (V : Valuation τ sig (Elt F)) :
    after l V = after (l.drop k) (after (l.take k) V) := by
  rw [← StableHlo.after_append, List.take_append_drop]

/-- The operations from the `a`-th on: the next `n` of them, then those from the `(a + n)`-th on. -/
theorem after_drop_split (a n : Nat) (V : Valuation τ sig (Elt F)) :
    after ((ops (F := F)).drop a) V = after ((ops (F := F)).drop (a + n)) (after (((ops (F := F)).drop a).take n) V) := by
  rw [after_split n ((ops (F := F)).drop a) V, List.drop_drop]

local notation "bf(" r ")" => Proc.devRef (τ := τ) (sig := sig) Proc.tc r

/-- The contents of the embeddings, the labels and the class weights. -/
abbrev X0 : Type := (⟨S512x512, .f32⟩ : BufTy).Contents (Elt F)
abbrev X1 : Type := (⟨S512, .i32⟩ : BufTy).Contents (Elt F)
abbrev X2 : Type := (⟨S100000x512, .f32⟩ : BufTy).Contents (Elt F)

/-- Reading back at a value's type what was stored at a buffer's type gives the value: the two transports along the one
    equation of types cancel. -/
theorem ofBuf_toBuf {T : BufTy} (x : TRef sig T) (v : T.Contents (Elt F)) : x.ofBuf (x.toBuf v) = v := by
  obtain ⟨r, h1, h2, h3⟩ := x
  subst h1
  exact cast_eq _ _

/-! ## The stages

Each stage is a stretch of consecutive operations run from ANY contents `V` that already hold, at the buffers the stretch reads,
the earlier stages' values: it leaves its own result at its stage function, and the buffers later stretches still read as they were. -/

/-- Operations 0–9: the embedding rows, each divided by its length kept away from zero. -/
theorem stage1 (V : Valuation τ sig (Elt F)) (x0 : X0 (F := F)) (h0 : V bf(main_arg0) = x0) :
    after (((ops (F := F)).drop 0).take 10) V bf(main_v7) = val_main_v7 (F := F) x0
    ∧ after (((ops (F := F)).drop 0).take 10) V bf(main_arg1) = V bf(main_arg1)
    ∧ after (((ops (F := F)).drop 0).take 10) V bf(main_arg2) = V bf(main_arg2) := by
  simp only [List.drop_succ_cons, List.drop_zero, List.take_succ_cons, List.take_zero]
  refine ⟨?_, ?_, ?_⟩ <;> after_results
  rw [h0]; rfl

/-- Operations 10–21: the class rows scaled the same way and transposed, then the cosines: the product of the two scaled arrays. -/
theorem stage2 (V : Valuation τ sig (Elt F)) (x0 : X0 (F := F)) (x2 : X2 (F := F)) (h2 : V bf(main_arg2) = x2) (h7 : V bf(main_v7) = val_main_v7 (F := F) x0) :
    after (((ops (F := F)).drop 10).take 12) V bf(main_v17) = val_main_v17 (F := F) x0 x2
    ∧ after (((ops (F := F)).drop 10).take 12) V bf(main_arg1) = V bf(main_arg1) := by
  simp only [List.drop_succ_cons, List.drop_zero, List.take_succ_cons, List.take_zero]
  refine ⟨?_, ?_⟩ <;> after_results
  rw [h2, h7]; rfl

/-- Operations 22–30: the sine of each angle, `√(max 0 (1 - c²))` of the cosine `c`. -/
theorem stage3 (V : Valuation τ sig (Elt F)) (x0 : X0 (F := F)) (x2 : X2 (F := F)) (h17 : V bf(main_v17) = val_main_v17 (F := F) x0 x2) :
    after (((ops (F := F)).drop 22).take 9) V bf(main_v22) = val_main_v22 (F := F) x0 x2
    ∧ after (((ops (F := F)).drop 22).take 9) V bf(main_v17) = V bf(main_v17)
    ∧ after (((ops (F := F)).drop 22).take 9) V bf(main_arg1) = V bf(main_arg1) := by
  simp only [List.drop_succ_cons, List.drop_zero, List.take_succ_cons, List.take_zero]
  refine ⟨?_, ?_, ?_⟩ <;> after_results
  rw [h17]; rfl

/-- Operations 31–37: `cos (θ + m)`, written through the cosine and the sine of `θ`. -/
theorem stage4 (V : Valuation τ sig (Elt F)) (x0 : X0 (F := F)) (x2 : X2 (F := F)) (h17 : V bf(main_v17) = val_main_v17 (F := F) x0 x2) (h22 : V bf(main_v22) = val_main_v22 (F := F) x0 x2) :
    after (((ops (F := F)).drop 31).take 7) V bf(main_v27) = val_main_v27 (F := F) x0 x2
    ∧ after (((ops (F := F)).drop 31).take 7) V bf(main_v17) = V bf(main_v17)
    ∧ after (((ops (F := F)).drop 31).take 7) V bf(main_arg1) = V bf(main_arg1) := by
  simp only [List.drop_succ_cons, List.drop_zero, List.take_succ_cons, List.take_zero]
  refine ⟨?_, ?_, ?_⟩ <;> after_results
  rw [h17, h22]; rfl

/-- Operations 38–44: the margin on every cosine: `cos (θ + m)` above the threshold, the linear fallback elsewhere. -/
theorem stage5 (V : Valuation τ sig (Elt F)) (x0 : X0 (F := F)) (x2 : X2 (F := F)) (h17 : V bf(main_v17) = val_main_v17 (F := F) x0 x2) (h27 : V bf(main_v27) = val_main_v27 (F := F) x0 x2) :
    after (((ops (F := F)).drop 38).take 7) V bf(main_v32) = val_main_v32 (F := F) x0 x2
    ∧ after (((ops (F := F)).drop 38).take 7) V bf(main_v17) = V bf(main_v17)
    ∧ after (((ops (F := F)).drop 38).take 7) V bf(main_arg1) = V bf(main_arg1) := by
  simp only [List.drop_succ_cons, List.drop_zero, List.take_succ_cons, List.take_zero]
  refine ⟨?_, ?_, ?_⟩ <;> after_results
  rw [h17, h27]; rfl

/-- Operations 45–50: the one-hot array of the labels: one where the column is the row's label, zero elsewhere. -/
theorem stage6 (V : Valuation τ sig (Elt F)) (x1 : X1 (F := F)) (h1 : V bf(main_arg1) = x1) :
    after (((ops (F := F)).drop 45).take 6) V bf(main_v33) = val_main_v33 (F := F) x1
    ∧ after (((ops (F := F)).drop 45).take 6) V bf(main_v17) = V bf(main_v17)
    ∧ after (((ops (F := F)).drop 45).take 6) V bf(main_v32) = V bf(main_v32)
    ∧ after (((ops (F := F)).drop 45).take 6) V bf(main_arg1) = V bf(main_arg1) := by
  simp only [List.drop_succ_cons, List.drop_zero, List.take_succ_cons, List.take_zero]
  refine ⟨?_, ?_, ?_, ?_⟩ <;> after_results
  rw [h1]; rfl

/-- Operations 51–59: the logits: the margin on the labelled column, the plain cosine elsewhere, times the scale. -/
theorem stage7 (V : Valuation τ sig (Elt F)) (x0 : X0 (F := F)) (x1 : X1 (F := F)) (x2 : X2 (F := F)) (h17 : V bf(main_v17) = val_main_v17 (F := F) x0 x2) (h32 : V bf(main_v32) = val_main_v32 (F := F) x0 x2) (h33 : V bf(main_v33) = val_main_v33 (F := F) x1) :
    after (((ops (F := F)).drop 51).take 9) V bf(main_v40) = val_main_v40 (F := F) x0 x1 x2
    ∧ after (((ops (F := F)).drop 51).take 9) V bf(main_arg1) = V bf(main_arg1) := by
  simp only [List.drop_succ_cons, List.drop_zero, List.take_succ_cons, List.take_zero]
  refine ⟨?_, ?_⟩ <;> after_results
  rw [h33, h32, h17]; rfl

/-- Operations 60–67: each logit less its row's largest, the maximum taken over the whole class axis. -/
theorem stage8 (V : Valuation τ sig (Elt F)) (x0 : X0 (F := F)) (x1 : X1 (F := F)) (x2 : X2 (F := F)) (h40 : V bf(main_v40) = val_main_v40 (F := F) x0 x1 x2) :
    after (((ops (F := F)).drop 60).take 8) V bf(main_call3_v5) = val_main_call3_v5 (F := F) x0 x1 x2
    ∧ after (((ops (F := F)).drop 60).take 8) V bf(main_v40) = V bf(main_v40)
    ∧ after (((ops (F := F)).drop 60).take 8) V bf(main_arg1) = V bf(main_arg1) := by
  simp only [List.drop_succ_cons, List.drop_zero, List.take_succ_cons, List.take_zero]
  refine ⟨?_, ?_, ?_⟩ <;> after_results
  simp only [ofBuf_toBuf]
  rw [show (TRef.of (T := ⟨S512x100000, .f32⟩) main_v40).ofBuf (V bf(main_v40)) = val_main_v40 (F := F) x0 x1 x2 from h40]
  rfl

/-- Operations 68–74: the log-probabilities: the shifted logits less the log of their row's sum of exponentials. -/
theorem stage9 (V : Valuation τ sig (Elt F)) (x0 : X0 (F := F)) (x1 : X1 (F := F)) (x2 : X2 (F := F)) (hc5 : V bf(main_call3_v5) = val_main_call3_v5 (F := F) x0 x1 x2) :
    after (((ops (F := F)).drop 68).take 7) V bf(main_v41) = val_main_v41 (F := F) x0 x1 x2
    ∧ after (((ops (F := F)).drop 68).take 7) V bf(main_v40) = V bf(main_v40)
    ∧ after (((ops (F := F)).drop 68).take 7) V bf(main_arg1) = V bf(main_arg1) := by
  simp only [List.drop_succ_cons, List.drop_zero, List.take_succ_cons, List.take_zero]
  refine ⟨?_, ?_, ?_⟩ <;> after_results
  rw [hc5]; rfl

/-- Operations 75–83: the index the gather reads in each row: the label, a negative one counted from the end of the class axis. -/
theorem stage10 (V : Valuation τ sig (Elt F)) (x1 : X1 (F := F)) (h1 : V bf(main_arg1) = x1) :
    after (((ops (F := F)).drop 75).take 9) V bf(main_call4_v5) = val_main_call4_v5 (F := F) x1
    ∧ after (((ops (F := F)).drop 75).take 9) V bf(main_v40) = V bf(main_v40)
    ∧ after (((ops (F := F)).drop 75).take 9) V bf(main_v41) = V bf(main_v41) := by
  simp only [List.drop_succ_cons, List.drop_zero, List.take_succ_cons, List.take_zero]
  refine ⟨?_, ?_, ?_⟩ <;> after_results
  rw [h1]; rfl

/-- Operations 84–93: whether that index is inside the class axis. -/
theorem stage11 (V : Valuation τ sig (Elt F)) (x1 : X1 (F := F)) (h5 : V bf(main_call4_v5) = val_main_call4_v5 (F := F) x1) :
    after (((ops (F := F)).drop 84).take 10) V bf(main_call4_v12) = val_main_call4_v12 (F := F) x1
    ∧ after (((ops (F := F)).drop 84).take 10) V bf(main_v40) = V bf(main_v40)
    ∧ after (((ops (F := F)).drop 84).take 10) V bf(main_v41) = V bf(main_v41)
    ∧ after (((ops (F := F)).drop 84).take 10) V bf(main_call4_v5) = V bf(main_call4_v5) := by
  simp only [List.drop_succ_cons, List.drop_zero, List.take_succ_cons, List.take_zero]
  refine ⟨?_, ?_, ?_, ?_⟩ <;> after_results
  rw [h5]; rfl

/-- Operations 94–102: the target log-probabilities gathered (the fill value outside the class axis), summed, divided by
    the number of rows and negated: the loss. -/
theorem stage12 (V : Valuation τ sig (Elt F)) (x0 : X0 (F := F)) (x1 : X1 (F := F)) (x2 : X2 (F := F)) (h41 : V bf(main_v41) = val_main_v41 (F := F) x0 x1 x2) (h5 : V bf(main_call4_v5) = val_main_call4_v5 (F := F) x1) (h12 : V bf(main_call4_v12) = val_main_call4_v12 (F := F) x1) :
    after ((ops (F := F)).drop 94) V bf(main_v46) = val_main_v46 (F := F) x0 x1 x2
    ∧ after ((ops (F := F)).drop 94) V bf(main_v40) = V bf(main_v40) := by
  simp only [List.drop_succ_cons, List.drop_zero, List.take_succ_cons, List.take_zero]
  refine ⟨?_, ?_⟩ <;> after_results
  rw [h12, h41, h5]; rfl

/-! ## The stages in a row

`tail a`: run from the `a`-th operation on, from contents that hold the earlier stages' values at the buffers still to be
read, the line ends with the loss and the logits at their stage functions. Each is the next stage followed by the next tail. -/

theorem tail94 (V : Valuation τ sig (Elt F)) (x0 : X0 (F := F)) (x1 : X1 (F := F)) (x2 : X2 (F := F)) (h40 : V bf(main_v40) = val_main_v40 (F := F) x0 x1 x2) (h41 : V bf(main_v41) = val_main_v41 (F := F) x0 x1 x2) (h5 : V bf(main_call4_v5) = val_main_call4_v5 (F := F) x1) (h12 : V bf(main_call4_v12) = val_main_call4_v12 (F := F) x1) :
    after ((ops (F := F)).drop 94) V bf(main_v46) = val_main_v46 (F := F) x0 x1 x2
    ∧ after ((ops (F := F)).drop 94) V bf(main_v40) = val_main_v40 (F := F) x0 x1 x2 := by
  obtain ⟨a, b⟩ := stage12 V x0 x1 x2 h41 h5 h12
  exact ⟨a, b.trans h40⟩

theorem tail84 (V : Valuation τ sig (Elt F)) (x0 : X0 (F := F)) (x1 : X1 (F := F)) (x2 : X2 (F := F)) (h40 : V bf(main_v40) = val_main_v40 (F := F) x0 x1 x2) (h41 : V bf(main_v41) = val_main_v41 (F := F) x0 x1 x2) (h5 : V bf(main_call4_v5) = val_main_call4_v5 (F := F) x1) :
    after ((ops (F := F)).drop 84) V bf(main_v46) = val_main_v46 (F := F) x0 x1 x2
    ∧ after ((ops (F := F)).drop 84) V bf(main_v40) = val_main_v40 (F := F) x0 x1 x2 := by
  obtain ⟨a, b, c, d⟩ := stage11 V x1 h5
  rw [after_drop_split 84 10 V]
  exact tail94 _ x0 x1 x2 (b.trans h40) (c.trans h41) (d.trans h5) a

theorem tail75 (V : Valuation τ sig (Elt F)) (x0 : X0 (F := F)) (x1 : X1 (F := F)) (x2 : X2 (F := F)) (h1 : V bf(main_arg1) = x1) (h40 : V bf(main_v40) = val_main_v40 (F := F) x0 x1 x2) (h41 : V bf(main_v41) = val_main_v41 (F := F) x0 x1 x2) :
    after ((ops (F := F)).drop 75) V bf(main_v46) = val_main_v46 (F := F) x0 x1 x2
    ∧ after ((ops (F := F)).drop 75) V bf(main_v40) = val_main_v40 (F := F) x0 x1 x2 := by
  obtain ⟨a, b, c⟩ := stage10 V x1 h1
  rw [after_drop_split 75 9 V]
  exact tail84 _ x0 x1 x2 (b.trans h40) (c.trans h41) a

theorem tail68 (V : Valuation τ sig (Elt F)) (x0 : X0 (F := F)) (x1 : X1 (F := F)) (x2 : X2 (F := F)) (h1 : V bf(main_arg1) = x1) (h40 : V bf(main_v40) = val_main_v40 (F := F) x0 x1 x2) (hc5 : V bf(main_call3_v5) = val_main_call3_v5 (F := F) x0 x1 x2) :
    after ((ops (F := F)).drop 68) V bf(main_v46) = val_main_v46 (F := F) x0 x1 x2
    ∧ after ((ops (F := F)).drop 68) V bf(main_v40) = val_main_v40 (F := F) x0 x1 x2 := by
  obtain ⟨a, b, c⟩ := stage9 V x0 x1 x2 hc5
  rw [after_drop_split 68 7 V]
  exact tail75 _ x0 x1 x2 (c.trans h1) (b.trans h40) a

theorem tail60 (V : Valuation τ sig (Elt F)) (x0 : X0 (F := F)) (x1 : X1 (F := F)) (x2 : X2 (F := F)) (h1 : V bf(main_arg1) = x1) (h40 : V bf(main_v40) = val_main_v40 (F := F) x0 x1 x2) :
    after ((ops (F := F)).drop 60) V bf(main_v46) = val_main_v46 (F := F) x0 x1 x2
    ∧ after ((ops (F := F)).drop 60) V bf(main_v40) = val_main_v40 (F := F) x0 x1 x2 := by
  obtain ⟨a, b, c⟩ := stage8 V x0 x1 x2 h40
  rw [after_drop_split 60 8 V]
  exact tail68 _ x0 x1 x2 (c.trans h1) (b.trans h40) a

theorem tail51 (V : Valuation τ sig (Elt F)) (x0 : X0 (F := F)) (x1 : X1 (F := F)) (x2 : X2 (F := F)) (h1 : V bf(main_arg1) = x1) (h17 : V bf(main_v17) = val_main_v17 (F := F) x0 x2) (h32 : V bf(main_v32) = val_main_v32 (F := F) x0 x2) (h33 : V bf(main_v33) = val_main_v33 (F := F) x1) :
    after ((ops (F := F)).drop 51) V bf(main_v46) = val_main_v46 (F := F) x0 x1 x2
    ∧ after ((ops (F := F)).drop 51) V bf(main_v40) = val_main_v40 (F := F) x0 x1 x2 := by
  obtain ⟨a, b⟩ := stage7 V x0 x1 x2 h17 h32 h33
  rw [after_drop_split 51 9 V]
  exact tail60 _ x0 x1 x2 (b.trans h1) a

theorem tail45 (V : Valuation τ sig (Elt F)) (x0 : X0 (F := F)) (x1 : X1 (F := F)) (x2 : X2 (F := F)) (h1 : V bf(main_arg1) = x1) (h17 : V bf(main_v17) = val_main_v17 (F := F) x0 x2) (h32 : V bf(main_v32) = val_main_v32 (F := F) x0 x2) :
    after ((ops (F := F)).drop 45) V bf(main_v46) = val_main_v46 (F := F) x0 x1 x2
    ∧ after ((ops (F := F)).drop 45) V bf(main_v40) = val_main_v40 (F := F) x0 x1 x2 := by
  obtain ⟨a, b, c, d⟩ := stage6 V x1 h1
  rw [after_drop_split 45 6 V]
  exact tail51 _ x0 x1 x2 (d.trans h1) (b.trans h17) (c.trans h32) a

theorem tail38 (V : Valuation τ sig (Elt F)) (x0 : X0 (F := F)) (x1 : X1 (F := F)) (x2 : X2 (F := F)) (h1 : V bf(main_arg1) = x1) (h17 : V bf(main_v17) = val_main_v17 (F := F) x0 x2) (h27 : V bf(main_v27) = val_main_v27 (F := F) x0 x2) :
    after ((ops (F := F)).drop 38) V bf(main_v46) = val_main_v46 (F := F) x0 x1 x2
    ∧ after ((ops (F := F)).drop 38) V bf(main_v40) = val_main_v40 (F := F) x0 x1 x2 := by
  obtain ⟨a, b, c⟩ := stage5 V x0 x2 h17 h27
  rw [after_drop_split 38 7 V]
  exact tail45 _ x0 x1 x2 (c.trans h1) (b.trans h17) a

theorem tail31 (V : Valuation τ sig (Elt F)) (x0 : X0 (F := F)) (x1 : X1 (F := F)) (x2 : X2 (F := F)) (h1 : V bf(main_arg1) = x1) (h17 : V bf(main_v17) = val_main_v17 (F := F) x0 x2) (h22 : V bf(main_v22) = val_main_v22 (F := F) x0 x2) :
    after ((ops (F := F)).drop 31) V bf(main_v46) = val_main_v46 (F := F) x0 x1 x2
    ∧ after ((ops (F := F)).drop 31) V bf(main_v40) = val_main_v40 (F := F) x0 x1 x2 := by
  obtain ⟨a, b, c⟩ := stage4 V x0 x2 h17 h22
  rw [after_drop_split 31 7 V]
  exact tail38 _ x0 x1 x2 (c.trans h1) (b.trans h17) a

theorem tail22 (V : Valuation τ sig (Elt F)) (x0 : X0 (F := F)) (x1 : X1 (F := F)) (x2 : X2 (F := F)) (h1 : V bf(main_arg1) = x1) (h17 : V bf(main_v17) = val_main_v17 (F := F) x0 x2) :
    after ((ops (F := F)).drop 22) V bf(main_v46) = val_main_v46 (F := F) x0 x1 x2
    ∧ after ((ops (F := F)).drop 22) V bf(main_v40) = val_main_v40 (F := F) x0 x1 x2 := by
  obtain ⟨a, b, c⟩ := stage3 V x0 x2 h17
  rw [after_drop_split 22 9 V]
  exact tail31 _ x0 x1 x2 (c.trans h1) (b.trans h17) a

theorem tail10 (V : Valuation τ sig (Elt F)) (x0 : X0 (F := F)) (x1 : X1 (F := F)) (x2 : X2 (F := F)) (h1 : V bf(main_arg1) = x1) (h2 : V bf(main_arg2) = x2) (h7 : V bf(main_v7) = val_main_v7 (F := F) x0) :
    after ((ops (F := F)).drop 10) V bf(main_v46) = val_main_v46 (F := F) x0 x1 x2
    ∧ after ((ops (F := F)).drop 10) V bf(main_v40) = val_main_v40 (F := F) x0 x1 x2 := by
  obtain ⟨a, b⟩ := stage2 V x0 x2 h2 h7
  rw [after_drop_split 10 12 V]
  exact tail22 _ x0 x1 x2 (b.trans h1) a

theorem tail0 (V : Valuation τ sig (Elt F)) (x0 : X0 (F := F)) (x1 : X1 (F := F)) (x2 : X2 (F := F)) (h0 : V bf(main_arg0) = x0) (h1 : V bf(main_arg1) = x1) (h2 : V bf(main_arg2) = x2) :
    after ((ops (F := F)).drop 0) V bf(main_v46) = val_main_v46 (F := F) x0 x1 x2
    ∧ after ((ops (F := F)).drop 0) V bf(main_v40) = val_main_v40 (F := F) x0 x1 x2 := by
  obtain ⟨a, b, c⟩ := stage1 V x0 h0
  rw [after_drop_split 0 10 V]
  exact tail10 _ x0 x1 x2 (b.trans h1) (c.trans h2) a

/-- The whole line, from any contents: the two results at their stage functions of the three arguments' contents. -/
theorem after_ops (V : Valuation τ sig (Elt F)) :
    after (ops (F := F)) V bf(main_v46) = val_main_v46 (F := F) (V bf(main_arg0)) (V bf(main_arg1)) (V bf(main_arg2))
    ∧ after (ops (F := F)) V bf(main_v40) = val_main_v40 (F := F) (V bf(main_arg0)) (V bf(main_arg1)) (V bf(main_arg2)) :=
  tail0 V _ _ _ rfl rfl rfl

/-- No operation writes an argument's buffer. -/
theorem after_ops_args (V : Valuation τ sig (Elt F)) :
    after (ops (F := F)) V bf(main_arg0) = V bf(main_arg0)
    ∧ after (ops (F := F)) V bf(main_arg1) = V bf(main_arg1)
    ∧ after (ops (F := F)) V bf(main_arg2) = V bf(main_arg2) := by
  refine ⟨?_, ?_, ?_⟩ <;> after_results_simp

/-- Every weakly fair execution of the reference terminates with its two results at their stage functions of the launch
    contents of the three arguments, and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = val_main_v46 (F := F) (m ((c.tc : Thread nD τ).loc main_arg0)) (m ((c.tc : Thread nD τ).loc main_arg1)) (m ((c.tc : Thread nD τ).loc main_arg2))
      ∧ r.2.mem ((c.tc : Thread nD τ).loc main_v40) = val_main_v40 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v46).trans (after_ops (launchContents m c)).1,
        (h c main_v40).trans (after_ops (launchContents m c)).2,
        (h c main_arg0).trans (after_ops_args (launchContents m c)).1,
        (h c main_arg1).trans (after_ops_args (launchContents m c)).2.1,
        (h c main_arg2).trans (after_ops_args (launchContents m c)).2.2⟩)
    (run_after m ρ)

end Cert.ReferenceIdeal.RefStages

end
-- ==== Proof.RefValue.lean ====
/-
  The reference program, stage by stage, computes the specification.

  Every array the reference writes is read at explicit coordinates and identified with the term of the specification
  it denotes over the extended reals. The rows of the embeddings and of the class weights are scaled by
  `1 / max (‖row‖, ε)`; their inner products are the cosines; the labelled column receives the additive angular margin
  (the one-hot row is `1` there and `0` elsewhere, and in the extended reals `1 * x = x`, `0 * x = 0`, `1 - 1 = 0`,
  `1 - 0 = 1` for every `x`, so the blend `onehot * φ + (1 - onehot) * c` is the `if` with no finiteness needed); the
  scale word multiplies every entry: these are the logits (`out_stage`).
  For the loss: the maximum over the class axis started at the `-∞` word is a fold of `max`, which is the larger of
  its start and the supremum of the row, so the row maximum is `rowMax` whatever the start word denotes; the shifted
  exponentials are summed from the zero word and the log taken (`lseShift`); the label, a negative one counted from the
  end of the class axis, is checked against `[0, 99999]` (the `and` over an axis of size one is the element itself) and,
  inside that range, the gather's clamped signed reading of the index is the index, so the gathered entry is the
  log-probability at the picked column; outside it the fill word is selected. The sum over the `512 × 1` array is the
  sum over the rows; dividing by the `512` word and negating gives `lossShift` (`loss_stage`).
  Float literals stay as the words the program prints; only the word of `1.0` is evaluated (to `1`).
-/
import proofs.«402648_j62706522521602_3_alg».proof.Proof.RefReadP
import proofs.«402648_j62706522521602_3_alg».proof.Proof.Spec
import Idealize.ShloMosaic.Lib.ValueIdx
import Idealize.ShloMosaic.Lib.Affine
import Idealize.ShloMosaic.PureOps.Reduce
import Idealize.ShloMosaic.PureOps.IdealRules
import Idealize.ShloMosaic.PureOps.Ideal.Laws
import Mathlib.Algebra.BigOperators.Fin
import Mathlib.Data.Finset.Fold
import Mathlib.Data.Finset.Lattice.Fold
import Mathlib.Data.EReal.Basic

noncomputable section

namespace Cert.ReferenceIdeal.RefValue

open Cert.ReferenceIdeal Cert.ReferenceIdeal.Read Cert.Arc Idealize.ShloMosaic Idealize.ShloMosaic.ValueIdx
open scoped BigOperators

/-! ## Indices by coordinates -/

theorem i_v1 (b k : Fin 512) : idx_main_v1 (ix1 b) k = ix2 b k := by
  funext a; match a with | ⟨0, _⟩ => rfl | ⟨1, _⟩ => rfl
theorem i_v2 (b : Fin 512) (z : Fin 1) : idx_main_v2 (ix2 b z) = ix1 b := by
  funext a; match a with | ⟨0, _⟩ => rfl
theorem i_v6 (b k : Fin 512) : idx_main_v6 (ix2 b k) = ix2 b (0 : Fin 1) := by
  funext a; match a with | ⟨0, _⟩ => rfl | ⟨1, _⟩ => rfl

/-- The row sums of squares of the embeddings. -/
theorem v1_at (x0 : (⟨S512x512, .f32⟩ : BufTy).Contents (Elt Ideal)) (b : Fin 512) :
    val_main_v1 (F := Ideal) x0 (ix1 b) = ssq (rows x0 b) := by
  rw [val_main_v1_apply, val_main_cst_apply, Ideal.ofBits_def]
  unfold ssq
  refine congrArg (_ + ·) (Finset.sum_congr rfl fun k _ => ?_)
  rw [i_v1, val_main_v0_apply, Ideal.mulf_def]
  rfl

/-- The kept-away-from-zero length of an embedding row. -/
theorem v5_at (x0 : (⟨S512x512, .f32⟩ : BufTy).Contents (Elt Ideal)) (b : Fin 512) :
    val_main_v5 (F := Ideal) x0 (ix2 b (0 : Fin 1)) = nrm (rows x0 b) := by
  rw [val_main_v5_apply, val_main_v3_apply, val_main_v2_apply, i_v2, v1_at, val_main_v4_apply, val_main_cst_0_apply,
    Ideal.maximumf_def, Ideal.hostUnary_sqrt_def, Ideal.ofBits_def]
  rfl

/-- The embeddings scaled row by row. -/
theorem v7_at (x0 : (⟨S512x512, .f32⟩ : BufTy).Contents (Elt Ideal)) (b k : Fin 512) :
    val_main_v7 (F := Ideal) x0 (ix2 b k) = unitRow (rows x0 b) k := by
  rw [val_main_v7_apply, val_main_v6_apply, i_v6, v5_at, Ideal.hostDivf_def]
  rfl

theorem i_v9 (j : Fin 100000) (k : Fin 512) : idx_main_v9 (ix1 j) k = ix2 j k := by
  funext a; match a with | ⟨0, _⟩ => rfl | ⟨1, _⟩ => rfl
theorem i_v10 (j : Fin 100000) (z : Fin 1) : idx_main_v10 (ix2 j z) = ix1 j := by
  funext a; match a with | ⟨0, _⟩ => rfl
theorem i_v14 (j : Fin 100000) (k : Fin 512) : idx_main_v14 (ix2 j k) = ix2 j (0 : Fin 1) := by
  funext a; match a with | ⟨0, _⟩ => rfl | ⟨1, _⟩ => rfl
theorem i_v16 (k : Fin 512) (j : Fin 100000) : idx_main_v16 (ix2 k j) = ix2 j k := by
  funext a; match a with | ⟨0, _⟩ => rfl | ⟨1, _⟩ => rfl
theorem i_v17l (b : Fin 512) (j : Fin 100000) (k : Fin 512) : lidx_main_v17 (ix2 b j) k = ix2 b k := by
  funext a; match a with | ⟨0, _⟩ => rfl | ⟨1, _⟩ => rfl
theorem i_v17r (b : Fin 512) (j : Fin 100000) (k : Fin 512) : ridx_main_v17 (ix2 b j) k = ix2 k j := by
  funext a; match a with | ⟨0, _⟩ => rfl | ⟨1, _⟩ => rfl

/-- The row sums of squares of the class weights. -/
theorem v9_at (x2 : (⟨S100000x512, .f32⟩ : BufTy).Contents (Elt Ideal)) (j : Fin 100000) :
    val_main_v9 (F := Ideal) x2 (ix1 j) = ssq (rows x2 j) := by
  rw [val_main_v9_apply, val_main_cst_1_apply, Ideal.ofBits_def]
  unfold ssq
  refine congrArg (_ + ·) (Finset.sum_congr rfl fun k _ => ?_)
  rw [i_v9, val_main_v8_apply, Ideal.mulf_def]
  rfl

/-- The kept-away-from-zero length of a class row. -/
theorem v13_at (x2 : (⟨S100000x512, .f32⟩ : BufTy).Contents (Elt Ideal)) (j : Fin 100000) :
    val_main_v13 (F := Ideal) x2 (ix2 j (0 : Fin 1)) = nrm (rows x2 j) := by
  rw [val_main_v13_apply, val_main_v11_apply, val_main_v10_apply, i_v10, v9_at, val_main_v12_apply, val_main_cst_2_apply,
    Ideal.maximumf_def, Ideal.hostUnary_sqrt_def, Ideal.ofBits_def]
  rfl

/-- The class weights scaled row by row. -/
theorem v15_at (x2 : (⟨S100000x512, .f32⟩ : BufTy).Contents (Elt Ideal)) (j : Fin 100000) (k : Fin 512) :
    val_main_v15 (F := Ideal) x2 (ix2 j k) = unitRow (rows x2 j) k := by
  rw [val_main_v15_apply, val_main_v14_apply, i_v14, v13_at, Ideal.hostDivf_def]
  rfl

/-- The cosine of an embedding row against a class row. -/
theorem v17_at (x0 : (⟨S512x512, .f32⟩ : BufTy).Contents (Elt Ideal)) (x2 : (⟨S100000x512, .f32⟩ : BufTy).Contents (Elt Ideal))
    (b : Fin 512) (j : Fin 100000) :
    val_main_v17 (F := Ideal) x0 x2 (ix2 b j) = cosv (rows x0) (rows x2) b j := by
  rw [val_main_v17_apply]
  unfold cosv
  refine Finset.sum_congr rfl fun k _ => ?_
  rw [i_v17l, i_v17r, v7_at, val_main_v16_apply, i_v16, v15_at]

/-! ## Words and bits -/

/-- A select on a decided proposition is the `if`. -/
theorem select_ofBool {α : Type} (p : Prop) [Decidable p] (a b : α) :
    Scalar.select (BitVec.ofBool (decide p)) a b = if p then a else b := by
  by_cases h : p <;> simp [Scalar.select, h]

/-- The ordered "greater than" on the extended reals. -/
theorem cmpf_ogt (x y : EReal) :
    FloatOps.cmpf (F := Ideal) (φ := .f32) .ogt x y = BitVec.ofBool (decide (y < x)) := rfl

/-- The additive angular margin applied to the cosine. -/
theorem v32_at (x0 : (⟨S512x512, .f32⟩ : BufTy).Contents (Elt Ideal)) (x2 : (⟨S100000x512, .f32⟩ : BufTy).Contents (Elt Ideal))
    (b : Fin 512) (j : Fin 100000) :
    val_main_v32 (F := Ideal) x0 x2 (ix2 b j) = margin (cosv (rows x0) (rows x2) b j) := by
  rw [val_main_v32_apply, val_main_v29_apply, val_main_v27_apply, val_main_v31_apply, val_main_v24_apply, val_main_v26_apply,
    val_main_v22_apply, val_main_v21_apply, val_main_v20_apply, val_main_v18_apply, v17_at,
    val_main_v28_apply, val_main_cst_7_apply, val_main_v23_apply, val_main_cst_5_apply, val_main_v25_apply, val_main_cst_6_apply,
    val_main_v30_apply, val_main_cst_8_apply, val_main_v19_apply, val_main_cst_3_apply, val_main_call0_v1_apply,
    val_main_call0_v0_apply, val_main_cst_4_apply]
  simp only [Ideal.ofBits_def, Ideal.mulf_def, Ideal.subf_def, Ideal.maximumf_def, Ideal.hostUnary_sqrt_def, cmpf_ogt]
  rw [select_ofBool]
  rfl

theorem i_c2v2 (b : Fin 512) (j : Fin 100000) : idx_main_call2_v2 (ix2 b j) = ix2 b (0 : Fin 1) := by
  funext a; match a with | ⟨0, _⟩ => rfl | ⟨1, _⟩ => rfl
theorem i_c2v0 (b : Fin 512) (z : Fin 1) : idx_main_call2_v0 (ix2 b z) = ix1 b := by
  funext a; match a with | ⟨0, _⟩ => rfl
theorem i_c2v3 (b : Fin 512) (j : Fin 100000) : idx_main_call2_v3 (ix2 b j) = ix2 (0 : Fin 1) j := by
  funext a; match a with | ⟨0, _⟩ => rfl | ⟨1, _⟩ => rfl

/-- The word of 1.0 denotes one. -/
theorem lit_one : Ideal.ofBits .f32 0x3F800000#32 = 1 := IdealRules.sign_bit.ideal_onePat .f32

/-- The one-hot row of the labels, as a float: one on the labelled column, zero elsewhere. -/
theorem v33_at (x1 : (⟨S512, .i32⟩ : BufTy).Contents (Elt Ideal)) (b : Fin 512) (j : Fin 100000) :
    val_main_v33 (F := Ideal) x1 (ix2 b j) = if isLabel (row1 x1) b j then 1 else 0 := by
  rw [val_main_v33_apply, val_main_call2_v4_apply, val_main_call2_v2_apply, i_c2v2, val_main_call2_v0_apply, i_c2v0,
    val_main_call2_v3_apply, i_c2v3, val_main_call2_v1_apply]
  show (((IntOp.cmpi .eq (row1 x1 b) (BitVec.ofNat 32 j.val)).toNat : ℝ) : EReal) = _
  by_cases h : isLabel (row1 x1) b j
  · rw [if_pos h, IntOp.cmpi_eq.2 h]; simp
  · rw [if_neg h, eq_zero_of_ne_one (fun e => h (IntOp.cmpi_eq.1 e))]; simp

theorem one_sub_one : (1 : EReal) - 1 = 0 := by
  rw [← EReal.coe_one, ← EReal.coe_sub, sub_self, EReal.coe_zero]

/-- The margin on the labelled column, the plain cosine elsewhere. -/
theorem v38_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) (j : Fin 100000) :
    val_main_v38 (F := Ideal) x0 x1 x2 (ix2 b j)
      = if isLabel (row1 x1) b j then margin (cosv (rows x0) (rows x2) b j) else cosv (rows x0) (rows x2) b j := by
  rw [val_main_v38_apply, val_main_v34_apply, val_main_v37_apply, val_main_v36_apply, v33_at, v32_at, v17_at,
    val_main_v35_apply, val_main_cst_9_apply]
  simp only [Ideal.ofBits_def, Ideal.mulf_def, Ideal.subf_def, Ideal.addf_def, lit_one]
  by_cases h : isLabel (row1 x1) b j
  · rw [if_pos h, if_pos h, one_mul, one_sub_one, zero_mul, add_zero]
  · rw [if_neg h, if_neg h, zero_mul, sub_zero, one_mul, zero_add]

/-- The reference's logits array is the specification's, entry by entry. -/
theorem out_stage (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) (j : Fin 100000) :
    val_main_v40 (F := Ideal) x0 x1 x2 (ValueIdx.ix2 b j) = outv (rows x0) (row1 x1) (rows x2) b j := by
  rw [val_main_v40_apply, v38_at, val_main_v39_apply, val_main_cst_10_apply, Ideal.mulf_def, Ideal.ofBits_def]
  rfl

/-! ## The shifted log-sum-exp -/

/-- A fold of `max` from any start is the larger of the start and the supremum. -/
theorem fold_max_eq {ι : Type} (op : EReal → EReal → EReal) [Std.Commutative op] [Std.Associative op]
    (hop : ∀ x y, op x y = max x y) (s : Finset ι) (c : EReal) (f : ι → EReal) : s.fold op c f = max c (s.sup f) := by
  classical
  induction s using Finset.induction_on with
  | empty => simp
  | insert a s ha ih =>
    rw [Finset.fold_insert ha, ih, Finset.sup_insert, hop]
    exact max_left_comm _ _ _

theorem i_c3v3 (b : Fin 512) (z : Fin 1) : idx_main_call3_v3 (ix2 b z) = ix1 b := by
  funext a; match a with | ⟨0, _⟩ => rfl
theorem i_c3v4 (b : Fin 512) (j : Fin 100000) : idx_main_call3_v4 (ix2 b j) = ix2 b (0 : Fin 1) := by
  funext a; match a with | ⟨0, _⟩ => rfl | ⟨1, _⟩ => rfl
theorem i_c3v7 (b : Fin 512) (j : Fin 100000) : idx_main_call3_v7 (ix1 b) j = ix2 b j := by
  funext a; match a with | ⟨0, _⟩ => rfl | ⟨1, _⟩ => rfl
theorem i_c3v8 (b : Fin 512) (z : Fin 1) : idx_main_call3_v8 (ix2 b z) = ix1 b := by
  funext a; match a with | ⟨0, _⟩ => rfl
theorem i_c3v10 (b : Fin 512) (j : Fin 100000) : idx_main_call3_v10 (ix2 b j) = ix2 b (0 : Fin 1) := by
  funext a; match a with | ⟨0, _⟩ => rfl | ⟨1, _⟩ => rfl

/-- The maximum over the class axis, started at the `-∞` word. -/
theorem c3v0_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) :
    val_main_call3_v0 (F := Ideal) x0 x1 x2 (ix1 b)
      = max (lit 0xFF800000#32) (Finset.univ.sup (outv (rows x0) (row1 x1) (rows x2) b)) := by
  unfold val_main_call3_v0
  generalize hy : val_main_v40 (F := Ideal) x0 x1 x2 = y
  have hR : S512x100000.Reduces [1] S512 := by decide
  rw [Host.reduce_eq_fold_single _ y _ _ hR _ (ix1 b), val_main_call3_cst_apply, Ideal.ofBits_def]
  rw [fold_max_eq (FloatOps.maximumf (F := Ideal) (φ := .f32)) (fun _ _ => rfl)]
  refine congrArg (max _ ·) (Finset.sup_congr rfl fun (k : Fin 100000) _ => ?_)
  have hk : hR.lift (ix1 b) k = ix2 b k := funext fun a => Fin.ext (by match a with | ⟨0, _⟩ => rfl | ⟨1, _⟩ => rfl)
  show y (hR.lift (ix1 b) k) = _
  rw [hk, ← hy, out_stage]

/-- The row maximum. -/
theorem c3v2_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) :
    val_main_call3_v2 (F := Ideal) x0 x1 x2 (ix1 b) = rowMax (outv (rows x0) (row1 x1) (rows x2)) b := by
  rw [val_main_call3_v2_apply, c3v0_at, val_main_call3_v1_apply, val_main_call3_cst_0_apply, Ideal.maximumf_def, Ideal.ofBits_def]
  unfold rowMax
  exact max_eq_right (le_max_left _ _)

/-- The logits shifted by the row maximum. -/
theorem c3v5_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) (j : Fin 100000) :
    val_main_call3_v5 (F := Ideal) x0 x1 x2 (ix2 b j)
      = outv (rows x0) (row1 x1) (rows x2) b j - rowMax (outv (rows x0) (row1 x1) (rows x2)) b := by
  rw [val_main_call3_v5_apply, out_stage, val_main_call3_v4_apply, i_c3v4, val_main_call3_v3_apply, i_c3v3, c3v2_at,
    Ideal.subf_def]

/-- The row sum of the exponentials of the shifted logits. -/
theorem c3v7_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) :
    val_main_call3_v7 (F := Ideal) x0 x1 x2 (ix1 b)
      = lit 0x00000000#32 + ∑ j : Fin 100000, Ideal.exp (outv (rows x0) (row1 x1) (rows x2) b j
          - rowMax (outv (rows x0) (row1 x1) (rows x2)) b) := by
  rw [val_main_call3_v7_apply, val_main_call3_cst_1_apply, Ideal.ofBits_def]
  refine congrArg (_ + ·) (Finset.sum_congr rfl fun k _ => ?_)
  rw [i_c3v7, val_main_call3_v6_apply, c3v5_at, Ideal.hostUnary_exp_def]

/-- The log of that sum. -/
theorem c3v9_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) :
    val_main_call3_v9 (F := Ideal) x0 x1 x2 (ix2 b (0 : Fin 1)) = lseShift (outv (rows x0) (row1 x1) (rows x2)) b := by
  rw [val_main_call3_v9_apply, val_main_call3_v8_apply, i_c3v8, c3v7_at, Ideal.hostUnary_log_def]
  rfl

/-- The log-probabilities. -/
theorem v41_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) (j : Fin 100000) :
    val_main_v41 (F := Ideal) x0 x1 x2 (ix2 b j)
      = (outv (rows x0) (row1 x1) (rows x2) b j - rowMax (outv (rows x0) (row1 x1) (rows x2)) b)
          - lseShift (outv (rows x0) (row1 x1) (rows x2)) b := by
  rw [val_main_v41_apply, c3v5_at, val_main_call3_v10_apply, i_c3v10, c3v9_at, Ideal.subf_def]

/-! ## The gather along the class axis -/

theorem i_v42 (b : Fin 512) (z : Fin 1) : idx_main_v42 (ix2 b z) = ix1 b := by
  funext a; match a with | ⟨0, _⟩ => rfl
theorem i_c4v5 (b : Fin 512) : idx_main_call4_v5 (ix3 b (0 : Fin 1) (0 : Fin 1)) = ix2 b (0 : Fin 1) := by
  funext a
  match a with
  | ⟨0, _⟩ => exact Fin.ext (by show ((b.val * 1 + 0) * 1 + 0) / 1 = b.val; omega)
  | ⟨1, _⟩ => rfl

/-- A select on a Boolean's bit is the `if`. -/
theorem select_bool {α : Type} (c : Bool) (a b : α) : Scalar.select (BitVec.ofBool c) a b = if c then a else b := by
  cases c <;> rfl

/-- A Boolean's bit is one exactly when it is true. -/
theorem ofBool_one_iff (c : Bool) : BitVec.ofBool c = 1#1 ↔ c = true := by cases c <;> decide

/-- A select on a bit that is one exactly when `P` holds is the `if` on `P`. -/
theorem select_iff {α : Type} {c : BitVec 1} {P : Prop} [Decidable P] (h : c = 1#1 ↔ P) (a b : α) :
    Scalar.select c a b = if P then a else b := by
  unfold Scalar.select
  exact if_congr h rfl rfl

/-- The index the gather reads: the label, a negative one counted from the end. -/
theorem c4v4_at (x1 : (⟨S512, .i32⟩ : BufTy).Contents (Elt Ideal)) (b : Fin 512) :
    val_main_call4_v4 (F := Ideal) x1 (ix2 b (0 : Fin 1)) = pick (row1 x1) b := by
  rw [val_main_call4_v4_apply, val_main_call4_v1_apply, val_main_call4_v3_apply, val_main_v42_apply, i_v42,
    val_main_call4_v0_apply, val_main_call4_c_apply, val_main_call4_v2_apply, val_main_call4_c_0_apply]
  show Scalar.select (BitVec.ofBool ((row1 x1 b).slt 0#32)) (row1 x1 b + 100000#32) (row1 x1 b) = _
  rw [select_bool]
  rfl

theorem c4v5_at (x1 : (⟨S512, .i32⟩ : BufTy).Contents (Elt Ideal)) (b : Fin 512) :
    val_main_call4_v5 (F := Ideal) x1 (ix3 b (0 : Fin 1) (0 : Fin 1)) = pick (row1 x1) b := by
  rw [val_main_call4_v5_apply, i_c4v5, c4v4_at]

/-- The bounds check on that index. -/
theorem c4v11_at (x1 : (⟨S512, .i32⟩ : BufTy).Contents (Elt Ideal)) (b : Fin 512) :
    val_main_call4_v11 (F := Ideal) x1 (ix3 b (0 : Fin 1) (0 : Fin 1)) = 1#1 ↔ pickOk (row1 x1) b := by
  rw [val_main_call4_v11_apply, val_main_call4_v7_apply, val_main_call4_v10_apply, c4v5_at, val_main_call4_v6_apply,
    val_main_call4_c_2_apply, val_main_call4_v9_apply, val_main_call4_v8_apply, val_main_call4_c_1_apply, IntOp.andi_eq_one]
  exact and_congr (ofBool_one_iff _) (ofBool_one_iff _)

/-- A fold over the one-point range is one application. -/
theorem fold_fin_one {α : Type} (op : α → α → α) [Std.Commutative op] [Std.Associative op] (c : α) (f : Fin 1 → α) :
    (Finset.univ : Finset (Fin 1)).fold op c f = op (f 0) c := by
  rw [Finset.univ_unique, Finset.fold_singleton]
  rfl

/-- The `and` over the axis of size one is the element itself. -/
theorem c4v12_eq (x1 : (⟨S512, .i32⟩ : BufTy).Contents (Elt Ideal)) (b : Fin 512) :
    val_main_call4_v12 (F := Ideal) x1 (ix2 b (0 : Fin 1))
      = IntOp.andi (val_main_call4_v11 (F := Ideal) x1 (ix3 b (0 : Fin 1) (0 : Fin 1))) 1#1 := by
  unfold val_main_call4_v12
  generalize val_main_call4_v11 (F := Ideal) x1 = y
  have hR : S512x1x1.Reduces [2] S512x1 := by decide
  refine (Host.reduce_eq_fold_single _ y _ _ hR _ (ix2 b (0 : Fin 1))).trans ?_
  refine (fold_fin_one IntOp.andi _ _).trans ?_
  have hk : hR.lift (ix2 b (0 : Fin 1)) (0 : Fin 1) = ix3 b (0 : Fin 1) (0 : Fin 1) :=
    funext fun a => Fin.ext (by match a with | ⟨0, _⟩ => rfl | ⟨1, _⟩ => rfl | ⟨2, _⟩ => rfl)
  show IntOp.andi (y (hR.lift (ix2 b (0 : Fin 1)) (0 : Fin 1))) _ = _
  rw [hk]
  rfl

theorem c4v12_at (x1 : (⟨S512, .i32⟩ : BufTy).Contents (Elt Ideal)) (b : Fin 512) :
    val_main_call4_v12 (F := Ideal) x1 (ix2 b (0 : Fin 1)) = 1#1 ↔ pickOk (row1 x1) b := by
  rw [c4v12_eq, IntOp.andi_eq_one, c4v11_at]
  exact and_iff_left rfl

/-- The gather of one element per row, read at row `b`: the operand at the start index, read signed and clamped into
    the class axis. -/
theorem gather_row {α : Type} (y : S512x100000.Idx → α) (idx : IVec S512x1x1 32) (b : Fin 512) :
    Host.gather gather_S512x100000_S512x1x1_S512x1_n_1_0_0_1_2_11 y idx (ix2 b (0 : Fin 1))
      = y (ix2 b ⟨min (idx (ix3 b (0 : Fin 1) (0 : Fin 1))).toInt.toNat 99999, by omega⟩) := by
  unfold Host.gather
  congr 1
  funext a
  refine Fin.ext ?_
  match a with
  | ⟨0, _⟩ =>
    show gather_S512x100000_S512x1x1_S512x1_n_1_0_0_1_2_11.start (ix2 b (0 : Fin 1)) idx (0 : Fin S512x100000.rank)
        + gather_S512x100000_S512x1x1_S512x1_n_1_0_0_1_2_11.batchCoord (ix2 b (0 : Fin 1)) (0 : Fin S512x100000.rank)
        + gather_S512x100000_S512x1x1_S512x1_n_1_0_0_1_2_11.offCoord (ix2 b (0 : Fin 1)) (0 : Fin S512x100000.rank) = b.val
    rw [GatherDims.start_batching _ (ix2 b (0 : Fin 1)) idx (0 : Fin S512x100000.rank) (by decide),
      GatherDims.offCoord_eq_zero _ (ix2 b (0 : Fin 1)) (0 : Fin S512x100000.rank) (by decide)]
    unfold GatherDims.batchCoord
    rw [dif_pos (by decide), Nat.zero_add, Nat.add_zero]
    rfl
  | ⟨1, _⟩ =>
    show gather_S512x100000_S512x1x1_S512x1_n_1_0_0_1_2_11.start (ix2 b (0 : Fin 1)) idx (1 : Fin S512x100000.rank)
        + gather_S512x100000_S512x1x1_S512x1_n_1_0_0_1_2_11.batchCoord (ix2 b (0 : Fin 1)) (1 : Fin S512x100000.rank)
        + gather_S512x100000_S512x1x1_S512x1_n_1_0_0_1_2_11.offCoord (ix2 b (0 : Fin 1)) (1 : Fin S512x100000.rank) = _
    rw [GatherDims.batchCoord_eq_zero _ (ix2 b (0 : Fin 1)) (1 : Fin S512x100000.rank) (by decide),
      GatherDims.offCoord_eq_zero _ (ix2 b (0 : Fin 1)) (1 : Fin S512x100000.rank) (by decide)]
    unfold GatherDims.start
    rw [dif_pos (by decide)]
    have hsi : gather_S512x100000_S512x1x1_S512x1_n_1_0_0_1_2_11.siIdx (ix2 b (0 : Fin 1))
        ⟨List.idxOf (1 : Fin S512x100000.rank) gather_S512x100000_S512x1x1_S512x1_n_1_0_0_1_2_11.startIndexMap,
          List.idxOf_lt_length_iff.2 (by decide)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- Inside the class axis the clamped signed reading of a word is its value. -/
theorem pick_clamp (p : BitVec 32) (h : (0#32).sle p ∧ p.sle 99999#32) :
    min p.toInt.toNat 99999 = p.toNat % 100000 := by
  obtain ⟨h0, h1⟩ := h
  rw [BitVec.sle_iff_toInt_le] at h0 h1
  have e0 : (0#32 : BitVec 32).toInt = 0 := by decide
  have e1 : (99999#32 : BitVec 32).toInt = 99999 := by decide
  rw [e0] at h0
  rw [e1] at h1
  have hc := BitVec.toInt_eq_toNat_cond p
  have hlt := p.isLt
  split at hc <;> omega

/-- The gathered log-probability, when the index is inside the class axis. -/
theorem c4v13_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) (hok : pickOk (row1 x1) b) :
    val_main_call4_v13 (F := Ideal) x0 x1 x2 (ix2 b (0 : Fin 1))
      = val_main_v41 (F := Ideal) x0 x1 x2 (ix2 b (pickIdx (row1 x1) b)) := by
  unfold val_main_call4_v13
  generalize val_main_v41 (F := Ideal) x0 x1 x2 = y
  refine (gather_row y _ b).trans ?_
  refine congrArg y (congrArg (ix2 b) (Fin.ext ?_))
  show min ((val_main_call4_v5 (F := Ideal) x1 (ix3 b (0 : Fin 1) (0 : Fin 1))).toInt.toNat) 99999
    = (pick (row1 x1) b).toNat % 100000
  rw [c4v5_at]
  exact pick_clamp _ hok

/-- The target log-probability of a row. -/
theorem v43_at (x0 : (⟨S512x512, .f32⟩ : BufTy).Contents (Elt Ideal)) (x1 : (⟨S512, .i32⟩ : BufTy).Contents (Elt Ideal))
    (x2 : (⟨S100000x512, .f32⟩ : BufTy).Contents (Elt Ideal)) (b : Fin 512) :
    val_main_v43 (F := Ideal) x0 x1 x2 (ix2 b (0 : Fin 1)) = tgtLogp (outv (rows x0) (row1 x1) (rows x2)) (row1 x1) b := by
  rw [val_main_v43_apply, select_iff (c4v12_at x1 b)]
  unfold tgtLogp
  by_cases h : pickOk (row1 x1) b
  · rw [if_pos h, if_pos h, c4v13_at x0 x1 x2 b h, v41_at]
  · rw [if_neg h, if_neg h, val_main_call4_v14_apply, val_main_call4_cst_apply, Ideal.ofBits_def]

/-- The sum of the target log-probabilities over the rows. -/
theorem v44_at (x0 : (⟨S512x512, .f32⟩ : BufTy).Contents (Elt Ideal)) (x1 : (⟨S512, .i32⟩ : BufTy).Contents (Elt Ideal))
    (x2 : (⟨S100000x512, .f32⟩ : BufTy).Contents (Elt Ideal)) (i : S_.Idx) :
    val_main_v44 (F := Ideal) x0 x1 x2 i
      = lit 0x00000000#32 + ∑ b : Fin 512, tgtLogp (outv (rows x0) (row1 x1) (rows x2)) (row1 x1) b := by
  rw [val_main_v44_apply, val_main_cst_11_apply, Ideal.ofBits_def, sum_idx2]
  refine congrArg (_ + ·) (Finset.sum_congr rfl fun b _ => ?_)
  rw [Fin.sum_univ_one]
  exact v43_at x0 x1 x2 b

/-- The reference's loss is the specification's shifted form. -/
theorem loss_stage (x0 : (⟨S512x512, .f32⟩ : BufTy).Contents (Elt Ideal)) (x1 : (⟨S512, .i32⟩ : BufTy).Contents (Elt Ideal))
    (x2 : (⟨S100000x512, .f32⟩ : BufTy).Contents (Elt Ideal)) (i : S_.Idx) :
    val_main_v46 (F := Ideal) x0 x1 x2 i = lossShift (outv (rows x0) (row1 x1) (rows x2)) (row1 x1) := by
  rw [val_main_v46_apply, val_main_v45_apply, v44_at, val_main_cst_12_apply, Ideal.hostNegf_def, Ideal.negf_def,
    Ideal.hostDivf_def, Ideal.ofBits_def]
  rfl

end Cert.ReferenceIdeal.RefValue

end
-- ==== Proof.lean ====
/-
  An ArcFace loss: the kernel against its plain reference, over the extended reals.

  Both programs scale each embedding row and each class-weight row by `1 / max (‖row‖, ε)`, take the 512 × 100000 matrix of inner
  products (cosines), replace the labelled column's cosine `c` by `cos (θ + m)` written through `c` and `√(max 0 (1 - c²))` (or by the
  linear fallback `c - mm` beyond the threshold), multiply by the scale 30, and return these logits together with the mean over the
  rows of `logsumexp (row) - row[label]`.

  The kernel differs in three ways, none of which changes a value over the extended reals under finite inputs:
  * it scales a weight row by `rsqrt (max (‖row‖², ε²))`, the square root being monotone and `√(ε²) = ε` (the kernel's floor is the
    square of the reference's own ε, by name);
  * it sweeps the class axis in 40 tiles of 2560 columns, two halves of 20 tiles, carrying per half a running maximum `M` and a running
    sum `∑ exp (logit - M)` rescaled by `exp (M_old - M_new)` at each tile; the two halves are merged by the same rescaling, and for any
    real `a`, `a + log ∑ exp (x - a) = log ∑ exp x`, which is also what the reference's shifted log-softmax computes;
  * the last tile runs 2400 columns past the class axis: those lanes are sent to the fill value `-∞` (by name), where `exp` is `0` and
    `max` is unchanged, so they contribute nothing; what the kernel computes on them never reaches a result.
  A row whose label lies outside the class axis reads the gather's fill value in both programs, and both losses are then `⊤`.

  The three frames: the reference's is its run with the results dropped; the idealized kernel's is its frame run; the word-level kernel's
  is a frame run that follows no output.
-/
import proofs.«402648_j62706522521602_3_alg».proof.Defs
import proofs.«402648_j62706522521602_3_alg».proof.Proof.Gen.Kernel
import proofs.«402648_j62706522521602_3_alg».proof.Proof.Gen.KernelIdeal
import proofs.«402648_j62706522521602_3_alg».proof.Proof.Gen.ReferenceIdeal
import proofs.«402648_j62706522521602_3_alg».proof.Proof.Gen.Pre_finite_inputs
import proofs.«402648_j62706522521602_3_alg».proof.Proof.KFrame
import proofs.«402648_j62706522521602_3_alg».proof.Proof.IFrame
import proofs.«402648_j62706522521602_3_alg».proof.Proof.KernelValue
import proofs.«402648_j62706522521602_3_alg».proof.Proof.RefStages
import proofs.«402648_j62706522521602_3_alg».proof.Proof.RefValue
import proofs.«402648_j62706522521602_3_alg».proof.Proof.Algebra
import Idealize.ShloMosaic.Adequacy
import Idealize.ShloMosaic.Init

noncomputable section

namespace Cert.Proof

open Idealize.ShloMosaic Idealize.ShloMosaic.TcCoe Idealize.SL.Sem Cert.Arc

attribute [local instance] Cert.Pre_finite_inputs.Gen.facts Cert.Kernel.Gen.facts Cert.KernelIdeal.Gen.facts Cert.ReferenceIdeal.Gen.facts

/-- The word-level kernel runs to the end and leaves its three arguments as they were. -/
theorem frame_p : Cert.frame_Kernel := fun m ρ _ => Cert.Kernel.Hand.frame_bits m ρ

/-- So does the idealized kernel. -/
theorem frame_pi : Cert.frame_KernelIdeal := fun m ρ _ => Cert.KernelIdeal.Hand.frame_ideal m ρ

/-- So does the reference: its run, the results dropped. -/
theorem frame_ri : Cert.frame_ReferenceIdeal := fun m ρ _ =>
  (θ_run (Cert.ReferenceIdeal.defs (F := Ideal)) _ _).mono (fun _ h c => (h c).2.2)
    (Cert.ReferenceIdeal.RefStages.run_stages (F := Ideal) m ρ)

/-- The two names of the kernel's constants: the fill value is `-∞` (at both of its sites) and the squared-norm floor is the square of
    the reference's ε. -/
theorem preserves : Cert.preserves_Kernel_KernelIdeal :=
  ⟨IdealRules.named_const.statement Cert.KernelIdeal.κ "neg_fill" .f32 0xFF333332#32 ⊥ rfl,
   IdealRules.named_const.statement Cert.KernelIdeal.κ "eps_sq" .f32 0x179ABE15#32 ((5316911940649 / 5316911983139663491615228241121378304 : ℝ) : EReal) rfl,
   IdealRules.named_const.statement Cert.KernelIdeal.κ "neg_fill" .f32 0xFF333332#32 ⊥ rfl⟩

/-- From memories that agree on the arguments, both programs end with the specification's logits, and with its loss: the kernel in the
    two-halves form, the reference in the shifted form, equal on real logits. -/
theorem algebraic : Cert.algebraic_KernelIdeal_ReferenceIdeal := by
  intro m ρ m' ρ' hpre hagree
  refine ⟨fun c _ => lossHalves (Cert.KernelIdeal.Hand.logits m c) (Cert.KernelIdeal.Hand.argLab m c),
    fun c i => Cert.KernelIdeal.Hand.logits m c (i 0) (i 1),
    Cert.KernelIdeal.Hand.kernel_results m ρ hpre (Cert.KernelIdeal.Hand.run_main m ρ), ?_⟩
  refine (θ_run (Cert.ReferenceIdeal.defs (F := Ideal)) _ _).mono (fun _ h c => ?_)
    (Cert.ReferenceIdeal.RefStages.run_stages (F := Ideal) m' ρ')
  obtain ⟨h46, h40, ha0, ha1, ha2⟩ := h c
  refine ⟨h46.trans ?_, h40.trans ?_, ha0, ha1, ha2⟩
  · funext i
    rw [(hagree c).1, (hagree c).2.1, (hagree c).2.2, Cert.ReferenceIdeal.RefValue.loss_stage]
    exact (loss_eq _ _ (outv_real _ _ _ (Cert.KernelIdeal.Hand.finite_args m hpre c).1
      (Cert.KernelIdeal.Hand.finite_args m hpre c).2)).symm
  · funext i
    rw [(hagree c).1, (hagree c).2.1, (hagree c).2.2, ValueIdx.eq_ix2 i]
    exact Cert.ReferenceIdeal.RefValue.out_stage _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
